-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x9 : Shape := ⟨2, ![50000, 9]⟩
abbrev S2x640000 : Shape := ⟨2, ![2, 640000]⟩
abbrev S640000x3 : Shape := ⟨2, ![640000, 3]⟩
abbrev S50000 : Shape := ⟨1, ![50000]⟩
abbrev S1024x200 : Shape := ⟨2, ![1024, 200]⟩
abbrev S9x64x128 : Shape := ⟨3, ![9, 64, 128]⟩
abbrev S3x16x128 : Shape := ⟨3, ![3, 16, 128]⟩
abbrev S128x128 : Shape := ⟨2, ![128, 128]⟩
abbrev S128 : Shape := ⟨1, ![128]⟩
abbrev S328x512 : Shape := ⟨2, ![328, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel
  bcast_S_S9x64x128 : S_.BroadcastsInDim S9x64x128 (![] : Fin 0 → Fin S9x64x128.rank)
  reducesTo_S9x64x128_S_d0_1_2 : S9x64x128.ReducesTo [0, 1, 2] S_
  bcast_S_S3x16x128 : S_.BroadcastsInDim S3x16x128 (![] : Fin 0 → Fin S3x16x128.rank)
  reducesTo_S3x16x128_S_d0_1_2 : S3x16x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S328x512 : S_.BroadcastsInDim S328x512 (![] : Fin 0 → Fin S328x512.rank)
  reducesTo_S328x512_S_d0_1 : S328x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S50000x9 : S_.BroadcastsInDim S50000x9 (![] : Fin 0 → Fin S50000x9.rank)
  reducesTo_S50000x9_S_d0_1 : S50000x9.ReducesTo [0, 1] S_
  bcast_S_S640000x3 : S_.BroadcastsInDim S640000x3 (![] : Fin 0 → Fin S640000x3.rank)
  reducesTo_S640000x3_S_d0_1 : S640000x3.ReducesTo [0, 1] S_

variable [Facts]

def fn_part5 {F : FTy → Type} [FloatOps F] (main_arg0 : IVec S50000x9 32) (main_arg2 : IVec S640000x3 32) (main_v83 : IVec S_ 1) (main_v84 : IVec S50000x9 32) : IVec S_ 1 :=
  let main_v85 : IVec S50000x9 1 := cmpi .sge main_arg0 main_v84
  let main_c_33 : IVec S_ 1 := constantI S_ 1 1#1
  let main_v86 : IVec S_ 1 := (fun x v => Host.reduce IntOp.andi x v reducesTo_S50000x9_S_d0_1 h_S_) main_v85 main_c_33
  let main_v87 : IVec S_ 1 := andi main_v83 main_v86
  let main_c_34 : IVec S_ 32 := constantI S_ 32 64#32
  let main_v88 : IVec S50000x9 32 := broadcastInDim S50000x9 ![] bcast_S_S50000x9 main_c_34
  let main_v89 : IVec S50000x9 1 := cmpi .slt main_arg0 main_v88
  let main_c_35 : IVec S_ 1 := constantI S_ 1 1#1
  let main_v90 : IVec S_ 1 := (fun x v => Host.reduce IntOp.andi x v reducesTo_S50000x9_S_d0_1 h_S_) main_v89 main_c_35
  let main_v91 : IVec S_ 1 := andi main_v87 main_v90
  let main_c_36 : IVec S_ 32 := constantI S_ 32 0#32
  let main_v92 : IVec S640000x3 32 := broadcastInDim S640000x3 ![] bcast_S_S640000x3 main_c_36
  let main_v93 : IVec S640000x3 1 := cmpi .sge main_arg2 main_v92
  let main_c_37 : IVec S_ 1 := constantI S_ 1 1#1
  let main_v94 : IVec S_ 1 := (fun x v => Host.reduce IntOp.andi x v reducesTo_S640000x3_S_d0_1 h_S_) main_v93 main_c_37
  let main_v95 : IVec S_ 1 := andi main_v91 main_v94
  let main_c_38 : IVec S_ 32 := constantI S_ 32 16#32
  let main_v96 : IVec S640000x3 32 := broadcastInDim S640000x3 ![] bcast_S_S640000x3 main_c_38
  let main_v97 : IVec S640000x3 1 := cmpi .slt main_arg2 main_v96
  let main_c_39 : IVec S_ 1 := constantI S_ 1 1#1
  let main_v98 : IVec S_ 1 := (fun x v => Host.reduce IntOp.andi x v reducesTo_S640000x3_S_d0_1 h_S_) main_v97 main_c_39
  let main_v99 : IVec S_ 1 := andi main_v95 main_v98
  main_v99

def fn_part4 {F : FTy → Type} [FloatOps F] (main_arg0 : IVec S50000x9 32) (main_arg2 : IVec S640000x3 32) (main_arg18 : FVec F S256 .f32) (main_arg19 : FVec F S256x1 .f32) (main_arg20 : FVec F S1 .f32) (main_v63 : IVec S_ 1) (main_v67 : IVec S_ 1) : IVec S_ 1 :=
  let main_v68 : IVec S_ 1 := andi main_v63 main_v67
  let main_v69 : FVec F S256 .f32 := Host.absf main_arg18
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x1 .f32 := Host.absf main_arg19
  let main_cst_28 : FVec F S_ .f32 := constant S_ .f32 0x7F800000#32
  let main_v75 : FVec F S256x1 .f32 := broadcastInDim S256x1 ![] bcast_S_S256x1 main_cst_28
  let main_v76 : IVec S256x1 1 := cmpf .olt main_v74 main_v75
  let main_c_29 : IVec S_ 1 := constantI S_ 1 1#1
  let main_v77 : IVec S_ 1 := (fun x v => Host.reduce IntOp.andi x v reducesTo_S256x1_S_d0_1 h_S_) main_v76 main_c_29
  let main_v78 : IVec S_ 1 := andi main_v73 main_v77
  let main_v79 : FVec F S1 .f32 := Host.absf main_arg20
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_c_32 : IVec S_ 32 := constantI S_ 32 0#32
  let main_v84 : IVec S50000x9 32 := broadcastInDim S50000x9 ![] bcast_S_S50000x9 main_c_32
  fn_part5 (F := F) main_arg0 main_arg2 main_v83 main_v84

def fn_part3 {F : FTy → Type} [FloatOps F] (main_arg0 : IVec S50000x9 32) (main_arg2 : IVec S640000x3 32) (main_arg15 : FVec F S328x512 .f32) (main_arg16 : FVec F S512 .f32) (main_arg17 : FVec F S512x256 .f32) (main_arg18 : FVec F S256 .f32) (main_arg19 : FVec F S256x1 .f32) (main_arg20 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S328x512 .f32 := Host.absf main_arg15
  let main_cst_20 : FVec F S_ .f32 := constant S_ .f32 0x7F800000#32
  let main_v55 : FVec F S328x512 .f32 := broadcastInDim S328x512 ![] bcast_S_S328x512 main_cst_20
  let main_v56 : IVec S328x512 1 := cmpf .olt main_v54 main_v55
  let main_c_21 : IVec S_ 1 := constantI S_ 1 1#1
  let main_v57 : IVec S_ 1 := (fun x v => Host.reduce IntOp.andi x v reducesTo_S328x512_S_d0_1 h_S_) main_v56 main_c_21
  let main_v58 : IVec S_ 1 := andi main_v53 main_v57
  let main_v59 : FVec F S512 .f32 := Host.absf main_arg16
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x256 .f32 := Host.absf main_arg17
  let main_cst_24 : FVec F S_ .f32 := constant S_ .f32 0x7F800000#32
  let main_v65 : FVec F S512x256 .f32 := broadcastInDim S512x256 ![] bcast_S_S512x256 main_cst_24
  let main_v66 : IVec S512x256 1 := cmpf .olt main_v64 main_v65
  let main_c_25 : IVec S_ 1 := constantI S_ 1 1#1
  let main_v67 : IVec S_ 1 := (fun x v => Host.reduce IntOp.andi x v reducesTo_S512x256_S_d0_1 h_S_) main_v66 main_c_25
  fn_part4 (F := F) main_arg0 main_arg2 main_arg18 main_arg19 main_arg20 main_v63 main_v67

def fn_part2 {F : FTy → Type} [FloatOps F] (main_arg0 : IVec S50000x9 32) (main_arg2 : IVec S640000x3 32) (main_arg11 : FVec F S128x128 .f32) (main_arg12 : FVec F S128 .f32) (main_arg13 : FVec F S128x128 .f32) (main_arg14 : FVec F S128 .f32) (main_arg15 : FVec F S328x512 .f32) (main_arg16 : FVec F S512 .f32) (main_arg17 : FVec F S512x256 .f32) (main_arg18 : FVec F S256 .f32) (main_arg19 : FVec F S256x1 .f32) (main_arg20 : FVec F S1 .f32) (main_v33 : IVec S_ 1) : IVec S_ 1 :=
  let main_v34 : FVec F S128x128 .f32 := Host.absf main_arg11
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg12
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg13
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg14
  let main_cst_18 : FVec F S_ .f32 := constant S_ .f32 0x7F800000#32
  let main_v50 : FVec F S128 .f32 := broadcastInDim S128 ![] bcast_S_S128 main_cst_18
  fn_part3 (F := F) main_arg0 main_arg2 main_arg15 main_arg16 main_arg17 main_arg18 main_arg19 main_arg20 main_v48 main_v49 main_v50

def fn_part1 {F : FTy → Type} [FloatOps F] (main_arg0 : IVec S50000x9 32) (main_arg2 : IVec S640000x3 32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S328x512 .f32) (main_arg16 : FVec F S512 .f32) (main_arg17 : FVec F S512x256 .f32) (main_arg18 : FVec F S256 .f32) (main_arg19 : FVec F S256x1 .f32) (main_arg20 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg9
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg0 main_arg2 main_arg11 main_arg12 main_arg13 main_arg14 main_arg15 main_arg16 main_arg17 main_arg18 main_arg19 main_arg20 main_v33

def fn {F : FTy → Type} [FloatOps F] (main_arg0 : IVec S50000x9 32) (main_arg1 : IVec S2x640000 32) (main_arg2 : IVec S640000x3 32) (main_arg3 : IVec S50000 32) (main_arg4 : FVec F S1024x200 .f32) (main_arg5 : FVec F S9x64x128 .f32) (main_arg6 : FVec F S3x16x128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S328x512 .f32) (main_arg16 : FVec F S512 .f32) (main_arg17 : FVec F S512x256 .f32) (main_arg18 : FVec F S256 .f32) (main_arg19 : FVec F S256x1 .f32) (main_arg20 : FVec F S1 .f32) : IVec S_ 1 :=
  let main_v0 : FVec F S1024x200 .f32 := Host.absf main_arg4
  let main_cst : FVec F S_ .f32 := constant S_ .f32 0x7F800000#32
  let main_v1 : FVec F S1024x200 .f32 := broadcastInDim S1024x200 ![] bcast_S_S1024x200 main_cst
  let main_v2 : IVec S1024x200 1 := cmpf .olt main_v0 main_v1
  let main_c : IVec S_ 1 := constantI S_ 1 1#1
  let main_v3 : IVec S_ 1 := (fun x v => Host.reduce IntOp.andi x v reducesTo_S1024x200_S_d0_1 h_S_) main_v2 main_c
  let main_v4 : FVec F S9x64x128 .f32 := Host.absf main_arg5
  let main_cst_0 : FVec F S_ .f32 := constant S_ .f32 0x7F800000#32
  let main_v5 : FVec F S9x64x128 .f32 := broadcastInDim S9x64x128 ![] bcast_S_S9x64x128 main_cst_0
  let main_v6 : IVec S9x64x128 1 := cmpf .olt main_v4 main_v5
  let main_c_1 : IVec S_ 1 := constantI S_ 1 1#1
  let main_v7 : IVec S_ 1 := (fun x v => Host.reduce IntOp.andi x v reducesTo_S9x64x128_S_d0_1_2 h_S_) main_v6 main_c_1
  let main_v8 : IVec S_ 1 := andi main_v3 main_v7
  let main_v9 : FVec F S3x16x128 .f32 := Host.absf main_arg6
  let main_cst_2 : FVec F S_ .f32 := constant S_ .f32 0x7F800000#32
  let main_v10 : FVec F S3x16x128 .f32 := broadcastInDim S3x16x128 ![] bcast_S_S3x16x128 main_cst_2
  let main_v11 : IVec S3x16x128 1 := cmpf .olt main_v9 main_v10
  let main_c_3 : IVec S_ 1 := constantI S_ 1 1#1
  let main_v12 : IVec S_ 1 := (fun x v => Host.reduce IntOp.andi x v reducesTo_S3x16x128_S_d0_1_2 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg0 main_arg2 main_arg8 main_arg9 main_arg10 main_arg11 main_arg12 main_arg13 main_arg14 main_arg15 main_arg16 main_arg17 main_arg18 main_arg19 main_arg20 main_v13 main_v16
-- ==== Kernel.lean ====
abbrev S50000x9 : Shape := ⟨2, ![50000, 9]⟩
abbrev S2x640000 : Shape := ⟨2, ![2, 640000]⟩
abbrev S640000x3 : Shape := ⟨2, ![640000, 3]⟩
abbrev S50000 : Shape := ⟨1, ![50000]⟩
abbrev S1024x200 : Shape := ⟨2, ![1024, 200]⟩
abbrev S9x64x128 : Shape := ⟨3, ![9, 64, 128]⟩
abbrev S3x16x128 : Shape := ⟨3, ![3, 16, 128]⟩
abbrev S128x128 : Shape := ⟨2, ![128, 128]⟩
abbrev S128 : Shape := ⟨1, ![128]⟩
abbrev S328x512 : Shape := ⟨2, ![328, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S50000x128 : Shape := ⟨2, ![50000, 128]⟩
abbrev S5000x9 : Shape := ⟨2, ![5000, 9]⟩
abbrev S5000x128 : Shape := ⟨2, ![5000, 128]⟩
abbrev S5000x64 : Shape := ⟨2, ![5000, 64]⟩
abbrev S5000x1 : Shape := ⟨2, ![5000, 1]⟩
abbrev S1x64x128 : Shape := ⟨3, ![1, 64, 128]⟩
abbrev S64x128 : Shape := ⟨2, ![64, 128]⟩
abbrev S640000x128 : Shape := ⟨2, ![640000, 128]⟩
abbrev S10000x3 : Shape := ⟨2, ![10000, 3]⟩
abbrev S10000x128 : Shape := ⟨2, ![10000, 128]⟩
abbrev S10000x16 : Shape := ⟨2, ![10000, 16]⟩
abbrev S10000x1 : Shape := ⟨2, ![10000, 1]⟩
abbrev S1x16x128 : Shape := ⟨3, ![1, 16, 128]⟩
abbrev S16x128 : Shape := ⟨2, ![16, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1x128 : Shape := ⟨2, ![1, 128]⟩
abbrev S1024x128 : Shape := ⟨2, ![1024, 128]⟩
abbrev S50000x1 : Shape := ⟨2, ![50000, 1]⟩
abbrev S1024 : Shape := ⟨1, ![1024]⟩
abbrev S1024x1 : Shape := ⟨2, ![1024, 1]⟩
abbrev S1024x328 : Shape := ⟨2, ![1024, 328]⟩
abbrev S1024x512 : Shape := ⟨2, ![1024, 512]⟩
abbrev S1x512 : Shape := ⟨2, ![1, 512]⟩
abbrev S1024x256 : Shape := ⟨2, ![1024, 256]⟩
abbrev S1x256 : Shape := ⟨2, ![1, 256]⟩
abbrev S1x1 : Shape := ⟨2, ![1, 1]⟩

abbrev nBuf : Space → Nat
  | .hbm => 81
  | .vmem => 38
  | .smem => 0
  | _ => 0

abbrev bufTy : (tb : Table) → Fin (tcTables nBuf tb) → BufTy
  | .hbm, ⟨0, _⟩ => ⟨S50000x9, .i32⟩
  | .hbm, ⟨1, _⟩ => ⟨S2x640000, .i32⟩
  | .hbm, ⟨2, _⟩ => ⟨S640000x3, .i32⟩
  | .hbm, ⟨3, _⟩ => ⟨S50000, .i32⟩
  | .hbm, ⟨4, _⟩ => ⟨S1024x200, .f32⟩
  | .hbm, ⟨5, _⟩ => ⟨S9x64x128, .f32⟩
  | .hbm, ⟨6, _⟩ => ⟨S3x16x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S328x512, .f32⟩
  | .hbm, ⟨16, _⟩ => ⟨S512, .f32⟩
  | .hbm, ⟨17, _⟩ => ⟨S512x256, .f32⟩
  | .hbm, ⟨18, _⟩ => ⟨S256, .f32⟩
  | .hbm, ⟨19, _⟩ => ⟨S256x1, .f32⟩
  | .hbm, ⟨20, _⟩ => ⟨S1, .f32⟩
  | .hbm, ⟨21, _⟩ => ⟨S50000x128, .f32⟩
  | .hbm, ⟨22, _⟩ => ⟨S640000x128, .f32⟩
  | .hbm, ⟨23, _⟩ => ⟨S1x640000, .i32⟩
  | .hbm, ⟨24, _⟩ => ⟨S640000, .i32⟩
  | .hbm, ⟨25, _⟩ => ⟨S1x640000, .i32⟩
  | .hbm, ⟨26, _⟩ => ⟨S640000, .i32⟩
  | .hbm, ⟨27, _⟩ => ⟨S_, .i32⟩
  | .hbm, ⟨28, _⟩ => ⟨S640000, .i32⟩
  | .hbm, ⟨29, _⟩ => ⟨S640000, .i1⟩
  | .hbm, ⟨30, _⟩ => ⟨S_, .i32⟩
  | .hbm, ⟨31, _⟩ => ⟨S640000, .i32⟩
  | .hbm, ⟨32, _⟩ => ⟨S640000, .i32⟩
  | .hbm, ⟨33, _⟩ => ⟨S640000, .i32⟩
  | .hbm, ⟨34, _⟩ => ⟨S640000x1, .i32⟩
  | .hbm, ⟨35, _⟩ => ⟨S640000x128, .f32⟩
  | .hbm, ⟨36, _⟩ => ⟨S640000x128, .f32⟩
  | .hbm, ⟨37, _⟩ => ⟨S_, .f32⟩
  | .hbm, ⟨38, _⟩ => ⟨S640000x128, .f32⟩
  | .hbm, ⟨39, _⟩ => ⟨S640000x128, .f32⟩
  | .hbm, ⟨40, _⟩ => ⟨S_, .f32⟩
  | .hbm, ⟨41, _⟩ => ⟨S50000x128, .f32⟩
  | .hbm, ⟨42, _⟩ => ⟨S640000x1, .i32⟩
  | .hbm, ⟨43, _⟩ => ⟨S50000x128, .f32⟩
  | .hbm, ⟨44, _⟩ => ⟨S50000x128, .f32⟩
  | .hbm, ⟨45, _⟩ => ⟨S_, .i32⟩
  | .hbm, ⟨46, _⟩ => ⟨S640000, .i32⟩
  | .hbm, ⟨47, _⟩ => ⟨S640000, .i1⟩
  | .hbm, ⟨48, _⟩ => ⟨S_, .i32⟩
  | .hbm, ⟨49, _⟩ => ⟨S640000, .i32⟩
  | .hbm, ⟨50, _⟩ => ⟨S640000, .i32⟩
  | .hbm, ⟨51, _⟩ => ⟨S640000, .i32⟩
  | .hbm, ⟨52, _⟩ => ⟨S640000x1, .i32⟩
  | .hbm, ⟨53, _⟩ => ⟨S640000x128, .f32⟩
  | .hbm, ⟨54, _⟩ => ⟨S640000x128, .f32⟩
  | .hbm, ⟨55, _⟩ => ⟨S_, .f32⟩
  | .hbm, ⟨56, _⟩ => ⟨S640000x128, .f32⟩
  | .hbm, ⟨57, _⟩ => ⟨S640000x128, .f32⟩
  | .hbm, ⟨58, _⟩ => ⟨S_, .f32⟩
  | .hbm, ⟨59, _⟩ => ⟨S50000x128, .f32⟩
  | .hbm, ⟨60, _⟩ => ⟨S640000x1, .i32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S1024x128, .f32⟩
  | .hbm, ⟨65, _⟩ => ⟨S50000x1, .i32⟩
  | .hbm, ⟨66, _⟩ => ⟨S1024x128, .f32⟩
  | .hbm, ⟨67, _⟩ => ⟨S_, .f32⟩
  | .hbm, ⟨68, _⟩ => ⟨S50000, .f32⟩
  | .hbm, ⟨69, _⟩ => ⟨S_, .f32⟩
  | .hbm, ⟨70, _⟩ => ⟨S1024, .f32⟩
  | .hbm, ⟨71, _⟩ => ⟨S50000x1, .i32⟩
  | .hbm, ⟨72, _⟩ => ⟨S1024, .f32⟩
  | .hbm, ⟨73, _⟩ => ⟨S_, .f32⟩
  | .hbm, ⟨74, _⟩ => ⟨S1024, .f32⟩
  | .hbm, ⟨75, _⟩ => ⟨S1024, .f32⟩
  | .hbm, ⟨76, _⟩ => ⟨S1024x1, .f32⟩
  | .hbm, ⟨77, _⟩ => ⟨S1024x128, .f32⟩
  | .hbm, ⟨78, _⟩ => ⟨S1024x128, .f32⟩
  | .hbm, ⟨79, _⟩ => ⟨S1024x328, .f32⟩
  | .hbm, ⟨80, _⟩ => ⟨S1024x1, .f32⟩
  | .local _ .vmem, ⟨0, _⟩ => ⟨S5000x9, .i32⟩
  | .local _ .vmem, ⟨1, _⟩ => ⟨S5000x9, .i32⟩
  | .local _ .vmem, ⟨2, _⟩ => ⟨S9x64x128, .f32⟩
  | .local _ .vmem, ⟨3, _⟩ => ⟨S5000x128, .f32⟩
  | .local _ .vmem, ⟨4, _⟩ => ⟨S5000x128, .f32⟩
  | .local _ .vmem, ⟨5, _⟩ => ⟨S10000x3, .i32⟩
  | .local _ .vmem, ⟨6, _⟩ => ⟨S10000x3, .i32⟩
  | .local _ .vmem, ⟨7, _⟩ => ⟨S3x16x128, .f32⟩
  | .local _ .vmem, ⟨8, _⟩ => ⟨S10000x128, .f32⟩
  | .local _ .vmem, ⟨9, _⟩ => ⟨S10000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S128, .f32⟩
  | .local _ .vmem, ⟨16, _⟩ => ⟨S128x128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S128, .f32⟩
  | .local _ .vmem, ⟨26, _⟩ => ⟨S128x128, .f32⟩
  | .local _ .vmem, ⟨27, _⟩ => ⟨S128, .f32⟩
  | .local _ .vmem, ⟨28, _⟩ => ⟨S5000x128, .f32⟩
  | .local _ .vmem, ⟨29, _⟩ => ⟨S5000x128, .f32⟩
  | .local _ .vmem, ⟨30, _⟩ => ⟨S1024x328, .f32⟩
  | .local _ .vmem, ⟨31, _⟩ => ⟨S328x512, .f32⟩
  | .local _ .vmem, ⟨32, _⟩ => ⟨S512, .f32⟩
  | .local _ .vmem, ⟨33, _⟩ => ⟨S512x256, .f32⟩
  | .local _ .vmem, ⟨34, _⟩ => ⟨S256, .f32⟩
  | .local _ .vmem, ⟨35, _⟩ => ⟨S256x1, .f32⟩
  | .local _ .vmem, ⟨36, _⟩ => ⟨S1, .f32⟩
  | .local _ .vmem, ⟨37, _⟩ => ⟨S1024x1, .f32⟩
  | _, _ => ⟨S50000x9, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_c : Ref sig .tc := ⟨.hbm, 27, rfl⟩
abbrev main_v6 : Ref sig .tc := ⟨.hbm, 28, rfl⟩
abbrev main_v7 : Ref sig .tc := ⟨.hbm, 29, rfl⟩
abbrev main_c_0 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_call0_cst : Ref sig .tc := ⟨.hbm, 37, rfl⟩
abbrev main_call0_v0 : Ref sig .tc := ⟨.hbm, 38, rfl⟩
abbrev main_v14 : Ref sig .tc := ⟨.hbm, 39, rfl⟩
abbrev main_cst : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c_1 : Ref sig .tc := ⟨.hbm, 45, rfl⟩
abbrev main_v19 : Ref sig .tc := ⟨.hbm, 46, rfl⟩
abbrev main_v20 : Ref sig .tc := ⟨.hbm, 47, rfl⟩
abbrev main_c_2 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_call1_cst : Ref sig .tc := ⟨.hbm, 55, rfl⟩
abbrev main_call1_v0 : Ref sig .tc := ⟨.hbm, 56, rfl⟩
abbrev main_v27 : Ref sig .tc := ⟨.hbm, 57, rfl⟩
abbrev main_cst_3 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_4 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst_5 : Ref sig .tc := ⟨.hbm, 67, rfl⟩
abbrev main_v35 : Ref sig .tc := ⟨.hbm, 68, rfl⟩
abbrev main_cst_6 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_7 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg6_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc4_stg0_0 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg6_0 : Ref sig .tc := ⟨.vmem, 36, rfl⟩
abbrev cc4_stg7_0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem6_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29
abbrev cc4_sem0_0 : DmaSem sig := 30
abbrev cc4_sem1_0 : DmaSem sig := 31
abbrev cc4_sem2_0 : DmaSem sig := 32
abbrev cc4_sem3_0 : DmaSem sig := 33
abbrev cc4_sem4_0 : DmaSem sig := 34
abbrev cc4_sem5_0 : DmaSem sig := 35
abbrev cc4_sem6_0 : DmaSem sig := 36
abbrev cc4_sem7_0 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x9 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x3 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x16x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1024x328 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S328x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1024x1 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

class Facts₀ : Prop where
  iota_S5000x64_d1_w32 : S5000x64.Iotas .tc 32 [1]
  inb_S5000x9_S5000x1_0_0 : ∀ a, (![0, 0] : Fin 2 → Nat) a + S5000x1.size a ≤ S5000x9.size a
  h_S5000x1 : 0 < S5000x1.numel
  broadcasts_S5000x1_S5000x64 : S5000x1.Broadcasts S5000x64
  natLt_1_32 : 1 < 32
  bitsLt_bf16_f32 : FTy.bits .bf16 < FTy.bits .f32
  inb_S9x64x128_S1x64x128_0_0_0 : ∀ a, (![0, 0, 0] : Fin 3 → Nat) a + S1x64x128.size a ≤ S9x64x128.size a
  h_S1x64x128 : 0 < S1x64x128.numel
  shapeCasts_S1x64x128_S64x128 : S1x64x128.ShapeCasts S64x128
  inb_S5000x9_S5000x1_0_1 : ∀ a, (![0, 1] : Fin 2 → Nat) a + S5000x1.size a ≤ S5000x9.size a
  inb_S9x64x128_S1x64x128_1_0_0 : ∀ a, (![1, 0, 0] : Fin 3 → Nat) a + S1x64x128.size a ≤ S9x64x128.size a
  inb_S5000x9_S5000x1_0_2 : ∀ a, (![0, 2] : Fin 2 → Nat) a + S5000x1.size a ≤ S5000x9.size a
  inb_S9x64x128_S1x64x128_2_0_0 : ∀ a, (![2, 0, 0] : Fin 3 → Nat) a + S1x64x128.size a ≤ S9x64x128.size a
  inb_S5000x9_S5000x1_0_3 : ∀ a, (![0, 3] : Fin 2 → Nat) a + S5000x1.size a ≤ S5000x9.size a
  inb_S9x64x128_S1x64x128_3_0_0 : ∀ a, (![3, 0, 0] : Fin 3 → Nat) a + S1x64x128.size a ≤ S9x64x128.size a
  inb_S5000x9_S5000x1_0_4 : ∀ a, (![0, 4] : Fin 2 → Nat) a + S5000x1.size a ≤ S5000x9.size a
  inb_S9x64x128_S1x64x128_4_0_0 : ∀ a, (![4, 0, 0] : Fin 3 → Nat) a + S1x64x128.size a ≤ S9x64x128.size a
  inb_S5000x9_S5000x1_0_5 : ∀ a, (![0, 5] : Fin 2 → Nat) a + S5000x1.size a ≤ S5000x9.size a
  inb_S9x64x128_S1x64x128_5_0_0 : ∀ a, (![5, 0, 0] : Fin 3 → Nat) a + S1x64x128.size a ≤ S9x64x128.size a
  inb_S5000x9_S5000x1_0_6 : ∀ a, (![0, 6] : Fin 2 → Nat) a + S5000x1.size a ≤ S5000x9.size a
  inb_S9x64x128_S1x64x128_6_0_0 : ∀ a, (![6, 0, 0] : Fin 3 → Nat) a + S1x64x128.size a ≤ S9x64x128.size a
  inb_S5000x9_S5000x1_0_7 : ∀ a, (![0, 7] : Fin 2 → Nat) a + S5000x1.size a ≤ S5000x9.size a
  inb_S9x64x128_S1x64x128_7_0_0 : ∀ a, (![7, 0, 0] : Fin 3 → Nat) a + S1x64x128.size a ≤ S9x64x128.size a
  inb_S5000x9_S5000x1_0_8 : ∀ a, (![0, 8] : Fin 2 → Nat) a + S5000x1.size a ≤ S5000x9.size a
  inb_S9x64x128_S1x64x128_8_0_0 : ∀ a, (![8, 0, 0] : Fin 3 → Nat) a + S1x64x128.size a ≤ S9x64x128.size a
  inb_S5000x128_S5000x128_0_0 : ∀ a, (![0, 0] : Fin 2 → Nat) a + S5000x128.size a ≤ S5000x128.size a
  h_S5000x128 : 0 < S5000x128.numel
  iota_S10000x16_d1_w32 : S10000x16.Iotas .tc 32 [1]
  inb_S10000x3_S10000x1_0_0 : ∀ a, (![0, 0] : Fin 2 → Nat) a + S10000x1.size a ≤ S10000x3.size a
  h_S10000x1 : 0 < S10000x1.numel
  broadcasts_S10000x1_S10000x16 : S10000x1.Broadcasts S10000x16
  inb_S3x16x128_S1x16x128_0_0_0 : ∀ a, (![0, 0, 0] : Fin 3 → Nat) a + S1x16x128.size a ≤ S3x16x128.size a
  h_S1x16x128 : 0 < S1x16x128.numel
  shapeCasts_S1x16x128_S16x128 : S1x16x128.ShapeCasts S16x128
  inb_S10000x3_S10000x1_0_1 : ∀ a, (![0, 1] : Fin 2 → Nat) a + S10000x1.size a ≤ S10000x3.size a
  inb_S3x16x128_S1x16x128_1_0_0 : ∀ a, (![1, 0, 0] : Fin 3 → Nat) a + S1x16x128.size a ≤ S3x16x128.size a
  inb_S10000x3_S10000x1_0_2 : ∀ a, (![0, 2] : Fin 2 → Nat) a + S10000x1.size a ≤ S10000x3.size a
  inb_S3x16x128_S1x16x128_2_0_0 : ∀ a, (![2, 0, 0] : Fin 3 → Nat) a + S1x16x128.size a ≤ S3x16x128.size a
  inb_S10000x128_S10000x128_0_0 : ∀ a, (![0, 0] : Fin 2 → Nat) a + S10000x128.size a ≤ S10000x128.size a
  h_S10000x128 : 0 < S10000x128.numel
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x128 : S_.BroadcastsInDim S640000x128 (![] : Fin 0 → Fin S640000x128.rank)
  bcast_S_S50000x128 : S_.BroadcastsInDim S50000x128 (![] : Fin 0 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S1024x128 : S_.BroadcastsInDim S1024x128 (![] : Fin 0 → Fin S1024x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  concatenates_S1024x128_S1024x200_S1024x328_d1 : Shape.Concatenates [S1024x128, S1024x200] S1024x328 1
  inb_S1024x328_S1024x328_0_0 : ∀ a, (![0, 0] : Fin 2 → Nat) a + S1024x328.size a ≤ S1024x328.size a
  h_S1024x328 : 0 < S1024x328.numel
  shapeCasts_S1024x328_S1024x328 : S1024x328.ShapeCasts S1024x328
  inb_S328x512_S328x512_0_0 : ∀ a, (![0, 0] : Fin 2 → Nat) a + S328x512.size a ≤ S328x512.size a
  h_S328x512 : 0 < S328x512.numel
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S256x1_S256x1_0_0 : ∀ a, (![0, 0] : Fin 2 → Nat) a + S256x1.size a ≤ S256x1.size a
  h_S256x1 : 0 < S256x1.numel
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S5000x64_S64x128_S5000x128_1_0_0_1_n_n_wf : DotDims.WF S5000x64 S64x128 S5000x128 [1] [0] [0] [1] [] []
  dot_S10000x16_S16x128_S10000x128_1_0_0_1_n_n_wf : DotDims.WF S10000x16 S16x128 S10000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S5000x128_S128x128_S5000x128_1_0_0_1_n_n_wf : DotDims.WF S5000x128 S128x128 S5000x128 [1] [0] [0] [1] [] []
  scatter_S1024x128_S50000x1_S50000x128_1_0_0_1_wf : ScatterDims.WF S1024x128 S50000x1 S50000x128 [1] [0] [0] 1
  scatter_S1024_S50000x1_S50000_n_0_0_1_wf : ScatterDims.WF S1024 S50000x1 S50000 [] [0] [0] 1
  dot_S1024x328_S328x512_S1024x512_1_0_0_1_n_n_wf : DotDims.WF S1024x328 S328x512 S1024x512 [1] [0] [0] [1] [] []
  dot_S1024x512_S512x256_S1024x256_1_0_0_1_n_n_wf : DotDims.WF S1024x512 S512x256 S1024x256 [1] [0] [0] [1] [] []
  dot_S1024x256_S256x1_S1024x1_1_0_0_1_n_n_wf : DotDims.WF S1024x256 S256x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x9.size a ≤ S50000x9.size a
  hwx0_0 : ∀ i : grid0.Coords, EltTy.bits .i32 = 32 ∨ (Rect.block (s := S50000x9) S5000x9.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x64x128.size a ≤ S9x64x128.size a
  hwx0_1 : ∀ i : grid0.Coords, EltTy.bits .f32 = 32 ∨ (Rect.block (s := S9x64x128) S9x64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x3.size a ≤ S640000x3.size a
  hwx1_0 : ∀ i : grid1.Coords, EltTy.bits .i32 = 32 ∨ (Rect.block (s := S640000x3) S10000x3.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x16x128.size a ≤ S3x16x128.size a
  hwx1_1 : ∀ i : grid1.Coords, EltTy.bits .f32 = 32 ∨ (Rect.block (s := S3x16x128) S3x16x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S640000x128.size a
  hwx1_2 : ∀ i : grid1.Coords, EltTy.bits .f32 = 32 ∨ (Rect.block (s := S640000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1024x328.size a ≤ S1024x328.size a
  hwx4_0 : ∀ i : grid4.Coords, EltTy.bits .f32 = 32 ∨ (Rect.block (s := S1024x328) S1024x328.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S328x512.size a ≤ S328x512.size a
  hwx4_1 : ∀ i : grid4.Coords, EltTy.bits .f32 = 32 ∨ (Rect.block (s := S328x512) S328x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S512.size a ≤ S512.size a
  hwx4_2 : ∀ i : grid4.Coords, EltTy.bits .f32 = 32 ∨ (Rect.block (s := S512) S512.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S512x256.size a ≤ S512x256.size a
  hwx4_3 : ∀ i : grid4.Coords, EltTy.bits .f32 = 32 ∨ (Rect.block (s := S512x256) S512x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256.size a ≤ S256.size a
  hwx4_4 : ∀ i : grid4.Coords, EltTy.bits .f32 = 32 ∨ (Rect.block (s := S256) S256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x1.size a ≤ S256x1.size a
  hwx4_5 : ∀ i : grid4.Coords, EltTy.bits .f32 = 32 ∨ (Rect.block (s := S256x1) S256x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1.size a ≤ S1.size a
  hwx4_6 : ∀ i : grid4.Coords, EltTy.bits .f32 = 32 ∨ (Rect.block (s := S1) S1.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1024x1.size a ≤ S1024x1.size a
  hwx4_7 : ∀ i : grid4.Coords, EltTy.bits .f32 = 32 ∨ (Rect.block (s := S1024x1) S1024x1.size (cc4_transform_7 i) (hinb4_7 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S10000x16_S16x128_S10000x128_1_0_0_1_n_n : DotDims S10000x16 S16x128 S10000x128 where
  lhsContracting := [1]
  rhsContracting := [0]
  lhsNonContracting := [0]
  rhsNonContracting := [1]
  lhsBatch := []
  rhsBatch := []
  wf := dot_S10000x16_S16x128_S10000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S1024x128_S50000x1_S50000x128_1_0_0_1 : ScatterDims S1024x128 S50000x1 S50000x128 where
  updateWindowDims := [1]
  insertedWindowDims := [0]
  scatterDimsToOperandDims := [0]
  indexVectorDim := 1
  wf := scatter_S1024x128_S50000x1_S50000x128_1_0_0_1_wf
def scatter_S1024_S50000x1_S50000_n_0_0_1 : ScatterDims S1024 S50000x1 S50000 where
  updateWindowDims := []
  insertedWindowDims := [0]
  scatterDimsToOperandDims := [0]
  indexVectorDim := 1
  wf := scatter_S1024_S50000x1_S50000_n_0_0_1_wf
def dot_S1024x328_S328x512_S1024x512_1_0_0_1_n_n : DotDims S1024x328 S328x512 S1024x512 where
  lhsContracting := [1]
  rhsContracting := [0]
  lhsNonContracting := [0]
  rhsNonContracting := [1]
  lhsBatch := []
  rhsBatch := []
  wf := dot_S1024x328_S328x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf

abbrev win0_0 : Pipeline.Window sig grid0 :=
  Pipeline.Window.ofSpec (Memref.whole main_arg0) S5000x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S9x64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S10000x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S3x16x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v18) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v18) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg14) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v31) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v44) S1024x328.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg15) S328x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg16) S512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg17) S512x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg18) S256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg19) S256x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg20) S1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v45) S1024x1.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S50000x9 : Shape := ⟨2, ![50000, 9]⟩
abbrev S2x640000 : Shape := ⟨2, ![2, 640000]⟩
abbrev S640000x3 : Shape := ⟨2, ![640000, 3]⟩
abbrev S50000 : Shape := ⟨1, ![50000]⟩
abbrev S1024x200 : Shape := ⟨2, ![1024, 200]⟩
abbrev S9x64x128 : Shape := ⟨3, ![9, 64, 128]⟩
abbrev S3x16x128 : Shape := ⟨3, ![3, 16, 128]⟩
abbrev S128x128 : Shape := ⟨2, ![128, 128]⟩
abbrev S128 : Shape := ⟨1, ![128]⟩
abbrev S328x512 : Shape := ⟨2, ![328, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S9 : Shape := ⟨1, ![9]⟩
abbrev S1x9 : Shape := ⟨2, ![1, 9]⟩
abbrev S_ : Shape := ⟨0, ![]⟩
abbrev S50000x9x1 : Shape := ⟨3, ![50000, 9, 1]⟩
abbrev S50000x9x2 : Shape := ⟨3, ![50000, 9, 2]⟩
abbrev S50000x9x128 : Shape := ⟨3, ![50000, 9, 128]⟩
abbrev S50000x128 : Shape := ⟨2, ![50000, 128]⟩
abbrev S3 : Shape := ⟨1, ![3]⟩
abbrev S1x3 : Shape := ⟨2, ![1, 3]⟩
abbrev S640000x3x1 : Shape := ⟨3, ![640000, 3, 1]⟩
abbrev S640000x3x2 : Shape := ⟨3, ![640000, 3, 2]⟩
abbrev S640000x3x128 : Shape := ⟨3, ![640000, 3, 128]⟩
abbrev S640000x128 : Shape := ⟨2, ![640000, 128]⟩
abbrev S1x640000 : Shape := ⟨2, ![1, 640000]⟩
abbrev S640000 : Shape := ⟨1, ![640000]⟩
abbrev S640000x1 : Shape := ⟨2, ![640000, 1]⟩
abbrev S1x128 : Shape := ⟨2, ![1, 128]⟩
abbrev S1024x128 : Shape := ⟨2, ![1024, 128]⟩
abbrev S50000x1 : Shape := ⟨2, ![50000, 1]⟩
abbrev S1024 : Shape := ⟨1, ![1024]⟩
abbrev S1024x1 : Shape := ⟨2, ![1024, 1]⟩
abbrev S1024x328 : Shape := ⟨2, ![1024, 328]⟩
abbrev S1024x512 : Shape := ⟨2, ![1024, 512]⟩
abbrev S1x512 : Shape := ⟨2, ![1, 512]⟩
abbrev S1024x256 : Shape := ⟨2, ![1024, 256]⟩
abbrev S1x256 : Shape := ⟨2, ![1, 256]⟩
abbrev S1x1 : Shape := ⟨2, ![1, 1]⟩

abbrev nBuf : Space → Nat
  | .hbm => 174
  | .vmem => 0
  | .smem => 0
  | _ => 0

abbrev hbmTy0_0 (i : Nat) : BufTy := match i % 128 with
  | 0 => ⟨S50000x9, .i32⟩
  | 1 => ⟨S2x640000, .i32⟩
  | 2 => ⟨S640000x3, .i32⟩
  | 3 => ⟨S50000, .i32⟩
  | 4 => ⟨S1024x200, .f32⟩
  | 5 => ⟨S9x64x128, .f32⟩
  | 6 => ⟨S3x16x128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S328x512, .f32⟩
  | 16 => ⟨S512, .f32⟩
  | 17 => ⟨S512x256, .f32⟩
  | 18 => ⟨S256, .f32⟩
  | 19 => ⟨S256x1, .f32⟩
  | 20 => ⟨S1, .f32⟩
  | 21 => ⟨S9, .i32⟩
  | 22 => ⟨S1x9, .i32⟩
  | 23 => ⟨S_, .i32⟩
  | 24 => ⟨S1x9, .i32⟩
  | 25 => ⟨S1x9, .i1⟩
  | 26 => ⟨S_, .i32⟩
  | 27 => ⟨S1x9, .i32⟩
  | 28 => ⟨S1x9, .i32⟩
  | 29 => ⟨S1x9, .i32⟩
  | 30 => ⟨S_, .i32⟩
  | 31 => ⟨S50000x9, .i32⟩
  | 32 => ⟨S50000x9, .i1⟩
  | 33 => ⟨S_, .i32⟩
  | 34 => ⟨S50000x9, .i32⟩
  | 35 => ⟨S50000x9, .i32⟩
  | 36 => ⟨S50000x9, .i32⟩
  | 37 => ⟨S50000x9, .i32⟩
  | 38 => ⟨S50000x9x1, .i32⟩
  | 39 => ⟨S50000x9x1, .i32⟩
  | 40 => ⟨S50000x9x2, .i32⟩
  | 41 => ⟨S50000x9x128, .f32⟩
  | 42 => ⟨S_, .f32⟩
  | 43 => ⟨S50000x128, .f32⟩
  | 44 => ⟨S3, .i32⟩
  | 45 => ⟨S1x3, .i32⟩
  | 46 => ⟨S_, .i32⟩
  | 47 => ⟨S1x3, .i32⟩
  | 48 => ⟨S1x3, .i1⟩
  | 49 => ⟨S_, .i32⟩
  | 50 => ⟨S1x3, .i32⟩
  | 51 => ⟨S1x3, .i32⟩
  | 52 => ⟨S1x3, .i32⟩
  | 53 => ⟨S_, .i32⟩
  | 54 => ⟨S640000x3, .i32⟩
  | 55 => ⟨S640000x3, .i1⟩
  | 56 => ⟨S_, .i32⟩
  | 57 => ⟨S640000x3, .i32⟩
  | 58 => ⟨S640000x3, .i32⟩
  | 59 => ⟨S640000x3, .i32⟩
  | 60 => ⟨S640000x3, .i32⟩
  | 61 => ⟨S640000x3x1, .i32⟩
  | 62 => ⟨S640000x3x1, .i32⟩
  | 63 => ⟨S640000x3x2, .i32⟩
  | 64 => ⟨S640000x3x128, .f32⟩
  | 65 => ⟨S_, .f32⟩
  | 66 => ⟨S640000x128, .f32⟩
  | 67 => ⟨S1x640000, .i32⟩
  | 68 => ⟨S640000, .i32⟩
  | 69 => ⟨S1x640000, .i32⟩
  | 70 => ⟨S640000, .i32⟩
  | 71 => ⟨S_, .i32⟩
  | 72 => ⟨S640000, .i32⟩
  | 73 => ⟨S640000, .i1⟩
  | 74 => ⟨S_, .i32⟩
  | 75 => ⟨S640000, .i32⟩
  | 76 => ⟨S640000, .i32⟩
  | 77 => ⟨S640000, .i32⟩
  | 78 => ⟨S640000x1, .i32⟩
  | 79 => ⟨S640000x128, .f32⟩
  | 80 => ⟨S640000x128, .f32⟩
  | 81 => ⟨S_, .f32⟩
  | 82 => ⟨S640000x128, .f32⟩
  | 83 => ⟨S640000x128, .f32⟩
  | 84 => ⟨S_, .f32⟩
  | 85 => ⟨S50000x128, .f32⟩
  | 86 => ⟨S640000x1, .i32⟩
  | 87 => ⟨S50000x128, .f32⟩
  | 88 => ⟨S_, .f32⟩
  | 89 => ⟨S50000x128, .f32⟩
  | 90 => ⟨S50000x128, .f32⟩
  | 91 => ⟨S50000x128, .f32⟩
  | 92 => ⟨S50000x128, .f32⟩
  | 93 => ⟨S1x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S50000x128, .f32⟩
  | 100 => ⟨S1x128, .f32⟩
  | 101 => ⟨S50000x128, .f32⟩
  | 102 => ⟨S50000x128, .f32⟩
  | 103 => ⟨S1x640000, .i32⟩
  | 104 => ⟨S640000, .i32⟩
  | 105 => ⟨S1x640000, .i32⟩
  | 106 => ⟨S640000, .i32⟩
  | 107 => ⟨S_, .i32⟩
  | 108 => ⟨S640000, .i32⟩
  | 109 => ⟨S640000, .i1⟩
  | 110 => ⟨S_, .i32⟩
  | 111 => ⟨S640000, .i32⟩
  | 112 => ⟨S640000, .i32⟩
  | 113 => ⟨S640000, .i32⟩
  | 114 => ⟨S640000x1, .i32⟩
  | 115 => ⟨S640000x128, .f32⟩
  | 116 => ⟨S640000x128, .f32⟩
  | 117 => ⟨S_, .f32⟩
  | 118 => ⟨S640000x128, .f32⟩
  | 119 => ⟨S640000x128, .f32⟩
  | 120 => ⟨S_, .f32⟩
  | 121 => ⟨S50000x128, .f32⟩
  | 122 => ⟨S640000x1, .i32⟩
  | 123 => ⟨S50000x128, .f32⟩
  | 124 => ⟨S_, .f32⟩
  | 125 => ⟨S50000x128, .f32⟩
  | 126 => ⟨S50000x128, .f32⟩
  | 127 => ⟨S50000x128, .f32⟩
  | _ => ⟨S50000x9, .i32⟩

abbrev hbmTy0_1 (i : Nat) : BufTy := match i % 128 with
  | 0 => ⟨S50000x128, .f32⟩
  | 1 => ⟨S1x128, .f32⟩
  | 2 => ⟨S50000x128, .f32⟩
  | 3 => ⟨S50000x128, .f32⟩
  | 4 => ⟨S_, .f32⟩
  | 5 => ⟨S50000x128, .f32⟩
  | 6 => ⟨S50000x128, .f32⟩
  | 7 => ⟨S50000x128, .f32⟩
  | 8 => ⟨S1x128, .f32⟩
  | 9 => ⟨S50000x128, .f32⟩
  | 10 => ⟨S50000x128, .f32⟩
  | 11 => ⟨S_, .f32⟩
  | 12 => ⟨S1024x128, .f32⟩
  | 13 => ⟨S50000x1, .i32⟩
  | 14 => ⟨S1024x128, .f32⟩
  | 15 => ⟨S_, .f32⟩
  | 16 => ⟨S50000, .f32⟩
  | 17 => ⟨S_, .f32⟩
  | 18 => ⟨S1024, .f32⟩
  | 19 => ⟨S50000x1, .i32⟩
  | 20 => ⟨S1024, .f32⟩
  | 21 => ⟨S_, .f32⟩
  | 22 => ⟨S1024, .f32⟩
  | 23 => ⟨S1024, .f32⟩
  | 24 => ⟨S1024x1, .f32⟩
  | 25 => ⟨S1024x128, .f32⟩
  | 26 => ⟨S1024x128, .f32⟩
  | 27 => ⟨S1024x328, .f32⟩
  | 28 => ⟨S1024x512, .f32⟩
  | 29 => ⟨S1x512, .f32⟩
  | 30 => ⟨S1024x512, .f32⟩
  | 31 => ⟨S1024x512, .f32⟩
  | 32 => ⟨S_, .f32⟩
  | 33 => ⟨S1024x512, .f32⟩
  | 34 => ⟨S1024x512, .f32⟩
  | 35 => ⟨S1024x256, .f32⟩
  | 36 => ⟨S1x256, .f32⟩
  | 37 => ⟨S1024x256, .f32⟩
  | 38 => ⟨S1024x256, .f32⟩
  | 39 => ⟨S_, .f32⟩
  | 40 => ⟨S1024x256, .f32⟩
  | 41 => ⟨S1024x256, .f32⟩
  | 42 => ⟨S1024x1, .f32⟩
  | 43 => ⟨S1x1, .f32⟩
  | 44 => ⟨S1024x1, .f32⟩
  | 45 => ⟨S1024x1, .f32⟩
  | _ => ⟨S50000x9, .i32⟩

abbrev hbmTy (i : Nat) : BufTy := match i / 128 with
  | 0 => hbmTy0_0 i
  | 1 => hbmTy0_1 i
  | _ => ⟨S50000x9, .i32⟩

abbrev bufTy : (tb : Table) → Fin (tcTables nBuf tb) → BufTy
  | .hbm, ⟨i, _⟩ => hbmTy i
  | _, _ => ⟨S50000x9, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_c : Ref sig .tc := ⟨.hbm, 23, rfl⟩
abbrev main_v2 : Ref sig .tc := ⟨.hbm, 24, rfl⟩
abbrev main_v3 : Ref sig .tc := ⟨.hbm, 25, rfl⟩
abbrev main_c_0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_c_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_c_3 : Ref sig .tc := ⟨.hbm, 46, rfl⟩
abbrev main_v20 : Ref sig .tc := ⟨.hbm, 47, rfl⟩
abbrev main_v21 : Ref sig .tc := ⟨.hbm, 48, rfl⟩
abbrev main_c_4 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_5 : Ref sig .tc := ⟨.hbm, 53, rfl⟩
abbrev main_v25 : Ref sig .tc := ⟨.hbm, 54, rfl⟩
abbrev main_v26 : Ref sig .tc := ⟨.hbm, 55, rfl⟩
abbrev main_c_6 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_7 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_c_8 : Ref sig .tc := ⟨.hbm, 71, rfl⟩
abbrev main_v40 : Ref sig .tc := ⟨.hbm, 72, rfl⟩
abbrev main_v41 : Ref sig .tc := ⟨.hbm, 73, rfl⟩
abbrev main_c_9 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_call0_cst : Ref sig .tc := ⟨.hbm, 81, rfl⟩
abbrev main_call0_v0 : Ref sig .tc := ⟨.hbm, 82, rfl⟩
abbrev main_v48 : Ref sig .tc := ⟨.hbm, 83, rfl⟩
abbrev main_cst_10 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_11 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_call1_cst : Ref sig .tc := ⟨.hbm, 96, rfl⟩
abbrev main_call1_v0 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_c_12 : Ref sig .tc := ⟨.hbm, 107, rfl⟩
abbrev main_v68 : Ref sig .tc := ⟨.hbm, 108, rfl⟩
abbrev main_v69 : Ref sig .tc := ⟨.hbm, 109, rfl⟩
abbrev main_c_13 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_call2_cst : Ref sig .tc := ⟨.hbm, 117, rfl⟩
abbrev main_call2_v0 : Ref sig .tc := ⟨.hbm, 118, rfl⟩
abbrev main_v76 : Ref sig .tc := ⟨.hbm, 119, rfl⟩
abbrev main_cst_14 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_cst_15 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_call3_cst : Ref sig .tc := ⟨.hbm, 132, rfl⟩
abbrev main_call3_v0 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_cst_16 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_cst_17 : Ref sig .tc := ⟨.hbm, 143, rfl⟩
abbrev main_v95 : Ref sig .tc := ⟨.hbm, 144, rfl⟩
abbrev main_cst_18 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_cst_19 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_call4_cst : Ref sig .tc := ⟨.hbm, 160, rfl⟩
abbrev main_call4_v0 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_call5_cst : Ref sig .tc := ⟨.hbm, 167, rfl⟩
abbrev main_call5_v0 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩

abbrev nD : Nat := 1
abbrev τ : Topo := Topo.v7x

variable {F : FTy → Type} [FloatOps F]

class Facts₀ : Prop where
  bcast_S9_S1x9_1 : S9.BroadcastsInDim S1x9 (![1] : Fin 1 → Fin S1x9.rank)
  bcast_S_S1x9 : S_.BroadcastsInDim S1x9 (![] : Fin 0 → Fin S1x9.rank)
  bcast_S_S50000x9 : S_.BroadcastsInDim S50000x9 (![] : Fin 0 → Fin S50000x9.rank)
  bcast_S1x9_S50000x9_0_1 : S1x9.BroadcastsInDim S50000x9 (![0, 1] : Fin 2 → Fin S50000x9.rank)
  bcast_S50000x9_S50000x9x1_0_1 : S50000x9.BroadcastsInDim S50000x9x1 (![0, 1] : Fin 2 → Fin S50000x9x1.rank)
  concatenates_S50000x9x1_S50000x9x1_S50000x9x2_d2 : Shape.Concatenates [S50000x9x1, S50000x9x1] S50000x9x2 2
  reducesTo_S50000x9x128_S50000x128_d1 : S50000x9x128.ReducesTo [1] S50000x128
  h_S_ : 0 < S_.numel
  bcast_S3_S1x3_1 : S3.BroadcastsInDim S1x3 (![1] : Fin 1 → Fin S1x3.rank)
  bcast_S_S1x3 : S_.BroadcastsInDim S1x3 (![] : Fin 0 → Fin S1x3.rank)
  bcast_S_S640000x3 : S_.BroadcastsInDim S640000x3 (![] : Fin 0 → Fin S640000x3.rank)
  bcast_S1x3_S640000x3_0_1 : S1x3.BroadcastsInDim S640000x3 (![0, 1] : Fin 2 → Fin S640000x3.rank)
  bcast_S640000x3_S640000x3x1_0_1 : S640000x3.BroadcastsInDim S640000x3x1 (![0, 1] : Fin 2 → Fin S640000x3x1.rank)
  concatenates_S640000x3x1_S640000x3x1_S640000x3x2_d2 : Shape.Concatenates [S640000x3x1, S640000x3x1] S640000x3x2 2
  reducesTo_S640000x3x128_S640000x128_d1 : S640000x3x128.ReducesTo [1] S640000x128
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x128 : S_.BroadcastsInDim S640000x128 (![] : Fin 0 → Fin S640000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S1024x128 : S_.BroadcastsInDim S1024x128 (![] : Fin 0 → Fin S1024x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  concatenates_S1024x128_S1024x200_S1024x328_d1 : Shape.Concatenates [S1024x128, S1024x200] S1024x328 1
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S_S1024x512 : S_.BroadcastsInDim S1024x512 (![] : Fin 0 → Fin S1024x512.rank)
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  bcast_S_S1024x256 : S_.BroadcastsInDim S1024x256 (![] : Fin 0 → Fin S1024x256.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  gather_S9x64x128_S50000x9x2_S50000x9x128_2_01_n_n_01_2_11128_wf : GatherDims.WF S9x64x128 S50000x9x2 S50000x9x128 [2] [0, 1] [] [0, 1] [] 2 ![1, 1, 128]
  gather_S3x16x128_S640000x3x2_S640000x3x128_2_01_n_n_01_2_11128_wf : GatherDims.WF S3x16x128 S640000x3x2 S640000x3x128 [2] [0, 1] [] [0, 1] [] 2 ![1, 1, 128]
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S50000x128_S128x128_S50000x128_1_0_0_1_n_n_wf : DotDims.WF S50000x128 S128x128 S50000x128 [1] [0] [0] [1] [] []
  scatter_S1024x128_S50000x1_S50000x128_1_0_0_1_wf : ScatterDims.WF S1024x128 S50000x1 S50000x128 [1] [0] [0] 1
  scatter_S1024_S50000x1_S50000_n_0_0_1_wf : ScatterDims.WF S1024 S50000x1 S50000 [] [0] [0] 1
  dot_S1024x328_S328x512_S1024x512_1_0_0_1_n_n_wf : DotDims.WF S1024x328 S328x512 S1024x512 [1] [0] [0] [1] [] []
  dot_S1024x512_S512x256_S1024x256_1_0_0_1_n_n_wf : DotDims.WF S1024x512 S512x256 S1024x256 [1] [0] [0] [1] [] []
  dot_S1024x256_S256x1_S1024x1_1_0_0_1_n_n_wf : DotDims.WF S1024x256 S256x1 S1024x1 [1] [0] [0] [1] [] []

variable [Facts₀]

def gather_S9x64x128_S50000x9x2_S50000x9x128_2_01_n_n_01_2_11128 : GatherDims S9x64x128 S50000x9x2 S50000x9x128 where
  offsetDims := [2]
  collapsedSliceDims := [0, 1]
  operandBatchingDims := []
  startIndicesBatchingDims := []
  startIndexMap := [0, 1]
  indexVectorDim := 2
  sliceSizes := ![1, 1, 128]
  wf := gather_S9x64x128_S50000x9x2_S50000x9x128_2_01_n_n_01_2_11128_wf
def gather_S3x16x128_S640000x3x2_S640000x3x128_2_01_n_n_01_2_11128 : GatherDims S3x16x128 S640000x3x2 S640000x3x128 where
  offsetDims := [2]
  collapsedSliceDims := [0, 1]
  operandBatchingDims := []
  startIndicesBatchingDims := []
  startIndexMap := [0, 1]
  indexVectorDim := 2
  sliceSizes := ![1, 1, 128]
  wf := gather_S3x16x128_S640000x3x2_S640000x3x128_2_01_n_n_01_2_11128_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S1024x128_S50000x1_S50000x128_1_0_0_1 : ScatterDims S1024x128 S50000x1 S50000x128 where
  updateWindowDims := [1]
  insertedWindowDims := [0]
  scatterDimsToOperandDims := [0]
  indexVectorDim := 1
  wf := scatter_S1024x128_S50000x1_S50000x128_1_0_0_1_wf
def scatter_S1024_S50000x1_S50000_n_0_0_1 : ScatterDims S1024 S50000x1 S50000 where
  updateWindowDims := []
  insertedWindowDims := [0]
  scatterDimsToOperandDims := [0]
  indexVectorDim := 1
  wf := scatter_S1024_S50000x1_S50000_n_0_0_1_wf
def dot_S1024x328_S328x512_S1024x512_1_0_0_1_n_n : DotDims S1024x328 S328x512 S1024x512 where
  lhsContracting := [1]
  rhsContracting := [0]
  lhsNonContracting := [0]
  rhsNonContracting := [1]
  lhsBatch := []
  rhsBatch := []
  wf := dot_S1024x328_S328x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf

class Facts : Prop extends Facts₀ where

variable [Facts]
-- ==== Proof.PreRange.lean ====
import proofs.«412659_j22162031247392_2_alg».proof.Defs
import proofs.«412659_j22162031247392_2_alg».proof.Proof.Gen.Pre_finite_inputs
import Idealize.ShloMosaic.Lib.ReduceAll
import Idealize.ShloMosaic.Lib.ValueIdx
import Idealize.ShloMosaic.Lib.StableHlo.Predicate

noncomputable section

namespace Cert.PreRange

open Idealize.ShloMosaic Idealize.SL.Sem Idealize.ShloMosaic.ValueIdx Cert.Pre_finite_inputs

/-- A signed 32-bit word that is at least 0 and below the small bound `b` has value below `b`:
    were its top bit set its signed value would be negative, against the first comparison; with the top bit
    clear its signed value is its value, which the second comparison bounds. -/
theorem toNat_lt_of_sge_slt (x : BitVec 32) (b : Nat) (hb : b < 2 ^ 31)
    (h0 : IntOp.cmpi .sge x 0#32 = 1#1) (h1 : IntOp.cmpi .slt x (BitVec.ofNat 32 b) = 1#1) : x.toNat < b := by
  have h0' := IntOp.cmpi_sge.1 h0
  have h1' := IntOp.cmpi_slt.1 h1
  rw [StableHlo.Predicate.toInt_ofNat_small b hb] at h1'
  rw [show (0#32 : BitVec 32).toInt = 0 from by decide] at h0'
  have hx := x.isLt
  by_cases hc : 2 * x.toNat < 2 ^ 32
  · rw [BitVec.toInt_eq_toNat_cond, if_pos hc] at h1'
    omega
  · rw [BitVec.toInt_eq_toNat_cond, if_neg hc] at h0'
    omega

/-- The shape of a scalar has exactly one index. -/
theorem subsingleton_scalar_idx : Subsingleton S_.Idx := ⟨fun a b => funext fun d => d.elim0⟩

variable {F : FTy → Type} [FloatOps F]

/-- Where the printed precondition is all ones, every node-feature word is below 64 and every edge-feature word below 16.
    The predicate is a conjunction whose four outermost right operands are, in order, "all node words ≥ 0",
    "all node words < 64", "all edge words ≥ 0", "all edge words < 16", each an `and` over the whole array of a
    pointwise signed comparison with a broadcast scalar; the conjunction of everything before them is never opened. -/
theorem ranges_of_fn (a0 : IVec S50000x9 32) (a1 : IVec S2x640000 32) (a2 : IVec S640000x3 32) (a3 : IVec S50000 32)
    (a4 : FVec F S1024x200 .f32) (a5 : FVec F S9x64x128 .f32) (a6 : FVec F S3x16x128 .f32) (a7 : FVec F S128x128 .f32) (a8 : FVec F S128 .f32)
    (a9 : FVec F S128x128 .f32) (a10 : FVec F S128 .f32) (a11 : FVec F S128x128 .f32) (a12 : FVec F S128 .f32) (a13 : FVec F S128x128 .f32)
    (a14 : FVec F S128 .f32) (a15 : FVec F S328x512 .f32) (a16 : FVec F S512 .f32) (a17 : FVec F S512x256 .f32) (a18 : FVec F S256 .f32)
    (a19 : FVec F S256x1 .f32) (a20 : FVec F S1 .f32)
    (h : fn (F := F) a0 a1 a2 a3 a4 a5 a6 a7 a8 a9 a10 a11 a12 a13 a14 a15 a16 a17 a18 a19 a20 = fun _ => 1#1) :
    (∀ i, (a0 i).toNat < 64) ∧ (∀ i, (a2 i).toNat < 16) := by
  haveI := subsingleton_scalar_idx
  have h0 := congrFun h ValueIdx.ix0
  dsimp only [fn, fn_part1, fn_part2, fn_part3, fn_part4, fn_part5] at h0
  -- peel the four outermost conjuncts; what is left of the conjunction stays closed
  obtain ⟨h1, r4⟩ := IntOp.andi_eq_one.1 h0
  obtain ⟨h2, r3⟩ := IntOp.andi_eq_one.1 h1
  obtain ⟨h3, r2⟩ := IntOp.andi_eq_one.1 h2
  obtain ⟨h4, r1⟩ := IntOp.andi_eq_one.1 h3
  clear h0 h1 h2 h3 h4
  -- an `and` over all axes that came out 1 met a 1 at every index
  have e1 := Host.reduce_andi_all _ _ _ _ _ r1
  have e2 := Host.reduce_andi_all _ _ _ _ _ r2
  have e3 := Host.reduce_andi_all _ _ _ _ _ r3
  have e4 := Host.reduce_andi_all _ _ _ _ _ r4
  -- at an index the comparison is that of the word with the broadcast scalar itself
  exact ⟨fun i => toNat_lt_of_sge_slt (a0 i) 64 (by decide) (e1 i) (e2 i),
    fun i => toNat_lt_of_sge_slt (a2 i) 16 (by decide) (e3 i) (e4 i)⟩

/-- The same read off the idealized kernel's precondition (Defs.lean `Cert.Pre_KernelIdeal`), on every device. -/
theorem ranges_KernelIdeal (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, (m ((c.tc : Thread Cert.KernelIdeal.nD Cert.KernelIdeal.τ).loc Cert.KernelIdeal.main_arg0) i).toNat < 64)
    ∧ (∀ i, (m ((c.tc : Thread Cert.KernelIdeal.nD Cert.KernelIdeal.τ).loc Cert.KernelIdeal.main_arg2) i).toNat < 16) :=
  ranges_of_fn _ _ _ _ _ _ _ _ _ _ _ _ _ _ _ _ _ _ _ _ _ (h c)

end Cert.PreRange

end
-- ==== Proof.Spec.lean ====
/-
  The mathematics of the graph network, stated once, over the extended reals, index by index.

  * `embed`: a row of the node (or edge) feature table is the SUM over the categorical features `f` of the
    embedding row `emb[f, feat[n, f], :]`; the category read off a 32-bit word as its value modulo the vocabulary
    (inside the vocabulary that is the word's own value).
  * `gine`: the dense half of one message-passing layer, row by row:
    `out[n, c] = Σ_k max (Σ_j (x[n, j] + agg[n, j]) · w1[j, k] + b1[k]) 0 · w2[k, c] + b2[c]`.
  * `head`: the read-out network on the pooled graph features, row by row: two hidden layers with `max · 0`, then one
    output column.
  Both programs are shown to compute exactly these sums (no law of the extended reals beyond `0 · a = 0`, `1 · a = a`,
  `0 + a = a` is needed, so no input has to be finite).
-/
import Idealize.ShloMosaic.PureOps.Ideal
import Idealize.ShloMosaic.Lib.ValueIdx

noncomputable section

open scoped BigOperators

namespace Cert.Spec

open Idealize.ShloMosaic Idealize.ShloMosaic.ValueIdx

/-- The category a 32-bit feature word names in a vocabulary of `V` entries: its value modulo `V`. -/
def cat (V : Nat) [NeZero V] (w : BitVec 32) : Fin V := Fin.ofNat V w.toNat

theorem cat_val (V : Nat) [NeZero V] (w : BitVec 32) (h : w.toNat < V) : (cat V w).val = w.toNat := by
  unfold cat; simp [Fin.ofNat, Nat.mod_eq_of_lt h]

/-- Node features: 50000 nodes, 9 categorical features of vocabulary 64, embedded in 128 channels and summed. -/
def atomEmb (feat : (⟨2, ![50000, 9]⟩ : Shape).Idx → BitVec 32) (emb : (⟨3, ![9, 64, 128]⟩ : Shape).Idx → EReal) :
    (⟨2, ![50000, 128]⟩ : Shape).Idx → EReal :=
  fun i => ∑ f : Fin 9, emb (ix3 f (cat 64 (feat (ix2 (i 0) f))) (i 1))

/-- Edge features: 640000 edges, 3 categorical features of vocabulary 16, embedded in 128 channels and summed. -/
def bondEmb (feat : (⟨2, ![640000, 3]⟩ : Shape).Idx → BitVec 32) (emb : (⟨3, ![3, 16, 128]⟩ : Shape).Idx → EReal) :
    (⟨2, ![640000, 128]⟩ : Shape).Idx → EReal :=
  fun i => ∑ f : Fin 3, emb (ix3 f (cat 16 (feat (ix2 (i 0) f))) (i 1))

/-- One layer's dense transform of the node features `x` and the aggregated messages `a`, row by row. -/
def gine (x a : (⟨2, ![50000, 128]⟩ : Shape).Idx → EReal)
    (w1 : (⟨2, ![128, 128]⟩ : Shape).Idx → EReal) (b1 : (⟨1, ![128]⟩ : Shape).Idx → EReal)
    (w2 : (⟨2, ![128, 128]⟩ : Shape).Idx → EReal) (b2 : (⟨1, ![128]⟩ : Shape).Idx → EReal) :
    (⟨2, ![50000, 128]⟩ : Shape).Idx → EReal :=
  fun i => (∑ k : Fin 128, max ((∑ j : Fin 128, (x (ix2 (i 0) j) + a (ix2 (i 0) j)) * w1 (ix2 j k)) + b1 (ix1 k)) 0 * w2 (ix2 k (i 1)))
    + b2 (ix1 (i 1))

/-- The read-out network on the 1024 graphs' 328 pooled features, row by row. -/
def head (h : (⟨2, ![1024, 328]⟩ : Shape).Idx → EReal)
    (w1 : (⟨2, ![328, 512]⟩ : Shape).Idx → EReal) (b1 : (⟨1, ![512]⟩ : Shape).Idx → EReal)
    (w2 : (⟨2, ![512, 256]⟩ : Shape).Idx → EReal) (b2 : (⟨1, ![256]⟩ : Shape).Idx → EReal)
    (w3 : (⟨2, ![256, 1]⟩ : Shape).Idx → EReal) (b3 : (⟨1, ![1]⟩ : Shape).Idx → EReal) :
    (⟨2, ![1024, 1]⟩ : Shape).Idx → EReal :=
  fun i => (∑ k2 : Fin 256,
      max ((∑ k1 : Fin 512, max ((∑ j : Fin 328, h (ix2 (i 0) j) * w1 (ix2 j k1)) + b1 (ix1 k1)) 0 * w2 (ix2 k1 k2)) + b2 (ix1 k2)) 0
        * w3 (ix2 k2 (i 1)))
    + b3 (ix1 (i 1))

end Cert.Spec

end
-- ==== Proof.KReg0.lean ====
import proofs.«412659_j22162031247392_2_alg».proof.Proof.Gen.KernelIdeal.Frame
import proofs.«412659_j22162031247392_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KReg0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! Region 0 computes the node-feature embedding one grid point (5000 rows) at a time.

  For each of the nine features f the body builds the 5000 × 64 matrix onehot[r, v] = (feat[r, f] = v ? 1 : 0): the
  feature column spread along 64 lanes is compared, as integers, with the lane number; the bit is widened and converted
  to a float; changes of float format are the identity on the extended reals. It multiplies that matrix into the table
  slab emb[f] (64 × 128) from a zero accumulator:

      Σ_v onehot[r, v] · emb[f, v, c] = emb[f, feat[r, f], c],

  because exactly the term v = feat[r, f] survives: 0 · a = 0 and 1 · a = a hold for EVERY extended real, so nothing
  need be finite. This is where the word must be inside the vocabulary (its value below 64): outside it no lane matches
  and the product is 0, not a table row. The nine products are added onto a zero block in the order f = 0 … 8, which
  is the sum over the nine features of the specification. The feature words and the output move with the grid point
  (rows 5000 t …), the table is whole at every point, and the ten row blocks cover the 50000 rows. -/

/-- The column of feature words spread along the 64 lanes: entry (p, v) is the word of row p. -/
theorem lanes_apply (col : Vec Ideal S5000x1 .i32) (p : Fin 5000) (v : Fin 64) :
    broadcastTo S5000x64 col broadcasts_S5000x1_S5000x64 (ix2 p v) = col (ix2 p (0 : Fin 1)) := by
  refine broadcastTo_apply col broadcasts_S5000x1_S5000x64 (ix2 p v) (ix2 p (0 : Fin 1)) fun ax => ?_
  match ax with
  | ⟨0, _⟩ =>
    show p.val = if (5000 : Nat) = 1 then 0 else p.val
    rw [if_neg (by decide)]
  | ⟨1, _⟩ => rfl

/-- The lane counter: entry (p, v) is the number v. -/
theorem lane_iota_apply (p : Fin 5000) (v : Fin 64) :
    iota .tc S5000x64 32 [1] iota_S5000x64_d1_w32 (ix2 p v) = BitVec.ofNat 32 v.val := by
  show BitVec.ofNat 32 (0 * 64 + v.val) = _
  rw [Nat.zero_mul, Nat.zero_add]

/-- The integer compare for equality gives the bit 1 exactly on equal words. -/
theorem eq_bit_iff (a b : BitVec 32) : IntOp.cmpi .eq a b = 1#1 ↔ a = b := by
  show BitVec.ofBool (a == b) = 1#1 ↔ a = b
  by_cases h : a = b
  · rw [beq_iff_eq.mpr h]; exact ⟨fun _ => h, fun _ => rfl⟩
  · rw [show (a == b) = false from beq_eq_false_iff_ne.mpr h]
    exact ⟨fun h1 => absurd h1 (by decide), fun h1 => absurd h1 h⟩

/-- One entry of the one-hot matrix of a feature column: 1 where the lane number is the row's word, 0 elsewhere
    (an integer compare, widened, converted to a float; the narrowing of the float format changes no extended real). -/
theorem onehot_apply (col : Vec Ideal S5000x1 .i32) (p : Fin 5000) (v : Fin 64) :
    (truncf .bf16 (sitofp .f32 (extui 32 (cmpi .eq (broadcastTo S5000x64 col broadcasts_S5000x1_S5000x64) (iota .tc S5000x64 32 [1] iota_S5000x64_d1_w32)) natLt_1_32)) bitsLt_bf16_f32 : FVec Ideal S5000x64 .bf16) (ix2 p v)
      = if col (ix2 p (0 : Fin 1)) = BitVec.ofNat 32 v.val then 1 else 0 := by
  show ((((IntOp.cmpi .eq (broadcastTo S5000x64 col broadcasts_S5000x1_S5000x64 (ix2 p v)) (iota .tc S5000x64 32 [1] iota_S5000x64_d1_w32 (ix2 p v))).setWidth 32).toInt : ℝ) : EReal) = _
  rw [lanes_apply, lane_iota_apply]
  by_cases h : col (ix2 p (0 : Fin 1)) = BitVec.ofNat 32 v.val
  · rw [if_pos h, (eq_bit_iff _ _).mpr h]
    have e1 : ((1#1 : BitVec 1).setWidth 32).toInt = 1 := by decide
    rw [e1, Int.cast_one, EReal.coe_one]
  · rw [if_neg h, eq_zero_of_ne_one (fun h1 => h ((eq_bit_iff _ _).mp h1))]
    have e0 : ((0#1 : BitVec 1).setWidth 32).toInt = 0 := by decide
    rw [e0, Int.cast_zero, EReal.coe_zero]

theorem lhs_axis0 (i : S5000x128.Idx) (k : dot_S5000x64_S64x128_S5000x128_1_0_0_1_n_n.contr.Idx) :
    (dot_S5000x64_S64x128_S5000x128_1_0_0_1_n_n.lhsIdx i k 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhs_axis1 (i : S5000x128.Idx) (k : dot_S5000x64_S64x128_S5000x128_1_0_0_1_n_n.contr.Idx) :
    (dot_S5000x64_S64x128_S5000x128_1_0_0_1_n_n.lhsIdx i k 1).val = (k ⟨0, by decide⟩).val :=
  dot_S5000x64_S64x128_S5000x128_1_0_0_1_n_n.lhsIdx_val_of_single rfl i k
theorem rhs_axis0 (i : S5000x128.Idx) (k : dot_S5000x64_S64x128_S5000x128_1_0_0_1_n_n.contr.Idx) :
    (dot_S5000x64_S64x128_S5000x128_1_0_0_1_n_n.rhsIdx i k 0).val = (k ⟨0, by decide⟩).val :=
  dot_S5000x64_S64x128_S5000x128_1_0_0_1_n_n.rhsIdx_val_of_single rfl i k
theorem rhs_axis1 (i : S5000x128.Idx) (k : dot_S5000x64_S64x128_S5000x128_1_0_0_1_n_n.contr.Idx) :
    (dot_S5000x64_S64x128_S5000x128_1_0_0_1_n_n.rhsIdx i k 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- A product of a matrix whose row p is the indicator of the lane w with a table slab, from a zero accumulator,
    reads at (p, q) the slab's row w: only the term v = w of the contraction survives, the others are 0 · a = 0,
    and 1 · a = a; both hold for every extended real. -/
theorem pick_apply (oh : FVec Ideal S5000x64 .bf16) (slab : Vec Ideal S1x64x128 .f32) (p : Fin 5000) (q : Fin 128) (w : Fin 64)
    (hoh : ∀ v : Fin 64, oh (ix2 p v) = if v = w then 1 else 0) :
    matmul dot_S5000x64_S64x128_S5000x128_1_0_0_1_n_n none oh (truncf .bf16 (shapeCast S64x128 slab shapeCasts_S1x64x128_S64x128) bitsLt_bf16_f32) (constant S5000x128 .f32 0x00000000#32) (ix2 p q)
      = slab (ix3 (0 : Fin 1) w q) := by
  show FloatOps.matmul dot_S5000x64_S64x128_S5000x128_1_0_0_1_n_n none oh (truncf .bf16 (shapeCast S64x128 slab shapeCasts_S1x64x128_S64x128) bitsLt_bf16_f32) (constant S5000x128 .f32 0x00000000#32) (ix2 p q) = _
  rw [Ideal.matmul_constant_zero_apply, ← Equiv.sum_comp (contrEquiv1 dot_S5000x64_S64x128_S5000x128_1_0_0_1_n_n 64 rfl rfl).symm]
  have hterm : ∀ k : Fin 64,
      oh (dot_S5000x64_S64x128_S5000x128_1_0_0_1_n_n.lhsIdx (ix2 p q) ((contrEquiv1 dot_S5000x64_S64x128_S5000x128_1_0_0_1_n_n 64 rfl rfl).symm k))
        * (truncf .bf16 (shapeCast S64x128 slab shapeCasts_S1x64x128_S64x128) bitsLt_bf16_f32 : FVec Ideal S64x128 .bf16) (dot_S5000x64_S64x128_S5000x128_1_0_0_1_n_n.rhsIdx (ix2 p q) ((contrEquiv1 dot_S5000x64_S64x128_S5000x128_1_0_0_1_n_n 64 rfl rfl).symm k))
      = (if k = w then 1 else 0) * slab (ix3 (0 : Fin 1) k q) := by
    intro k
    have hk := contrEquiv1_symm_val dot_S5000x64_S64x128_S5000x128_1_0_0_1_n_n 64 rfl rfl k
    have el : dot_S5000x64_S64x128_S5000x128_1_0_0_1_n_n.lhsIdx (ix2 p q) ((contrEquiv1 dot_S5000x64_S64x128_S5000x128_1_0_0_1_n_n 64 rfl rfl).symm k) = ix2 p k := funext fun a => Fin.ext (by
      match a with
      | ⟨0, _⟩ => exact lhs_axis0 _ _
      | ⟨1, _⟩ => exact (lhs_axis1 _ _).trans hk)
    have er : dot_S5000x64_S64x128_S5000x128_1_0_0_1_n_n.rhsIdx (ix2 p q) ((contrEquiv1 dot_S5000x64_S64x128_S5000x128_1_0_0_1_n_n 64 rfl rfl).symm k) = ix2 k q := funext fun a => Fin.ext (by
      match a with
      | ⟨0, _⟩ => exact (rhs_axis0 _ _).trans hk
      | ⟨1, _⟩ => exact rhs_axis1 _ _)
    rw [el, er, hoh k, truncf_apply, shapeCast_1ab_ab_apply]
  rw [Finset.sum_congr rfl (fun k _ => hterm k), Finset.sum_eq_single w]
  · rw [if_pos rfl, one_mul]
  · intro k _ hkw
    rw [if_neg hkw, zero_mul]
  · intro hw
    exact absurd (Finset.mem_univ w) hw

/-- A word inside the vocabulary is the lane number v exactly when v is the category it names. -/
theorem word_eq_lane_iff (w : BitVec 32) (hw : w.toNat < 64) (v : Fin 64) :
    w = BitVec.ofNat 32 v.val ↔ v = Cert.Spec.cat 64 w := by
  have hc := Cert.Spec.cat_val 64 w hw
  have hv := v.isLt
  constructor
  · intro h
    apply Fin.ext
    rw [hc, h, BitVec.toNat_ofNat]
    omega
  · intro h
    apply BitVec.eq_of_toNat_eq
    rw [BitVec.toNat_ofNat, h, hc]
    omega

/-- One feature's term at (p, q): the one-hot matrix of the feature column times the feature's table slab, from a zero
    accumulator, is the slab's row named by the word of row p. The word must be inside the vocabulary: outside it no lane
    matches and the product would be 0. -/
theorem feature_apply (col : Vec Ideal S5000x1 .i32) (slab : Vec Ideal S1x64x128 .f32) (p : Fin 5000) (q : Fin 128)
    (hw : (col (ix2 p (0 : Fin 1))).toNat < 64) :
    matmul (F := Ideal) dot_S5000x64_S64x128_S5000x128_1_0_0_1_n_n none
        (truncf .bf16 (sitofp .f32 (extui 32 (cmpi .eq (broadcastTo S5000x64 col broadcasts_S5000x1_S5000x64) (iota .tc S5000x64 32 [1] iota_S5000x64_d1_w32)) natLt_1_32)) bitsLt_bf16_f32)
        (truncf .bf16 (shapeCast S64x128 slab shapeCasts_S1x64x128_S64x128) bitsLt_bf16_f32) (constant S5000x128 .f32 0x00000000#32) (ix2 p q)
      = slab (ix3 (0 : Fin 1) (Cert.Spec.cat 64 (col (ix2 p (0 : Fin 1)))) q) :=
  pick_apply _ slab p q _ fun v => by
    rw [onehot_apply]
    exact if_congr (word_eq_lane_iff _ hw v) rfl rfl

/-- A load of one column of the block of feature words: its entry at row p is the block's entry (p, f). -/
theorem column_apply (x0 : Vec Ideal S5000x9 .i32) (f : Fin 9) (off : Fin 2 → Nat)
    (inb : ∀ a, off a + S5000x1.size a ≤ S5000x9.size a) (h0 : off 0 = 0) (h1 : off 1 = f.val) (p : Fin 5000) :
    View.ld x0 (Rect.unit (s := S5000x9) off S5000x1.size inb) (ix2 p (0 : Fin 1)) = x0 (ix2 p f) := by
  show x0 _ = x0 _
  refine congrArg x0 (funext fun a => Fin.ext ?_)
  match a with
  | ⟨0, _⟩ => show off 0 + 1 * p.val = p.val; omega
  | ⟨1, _⟩ => show off 1 + 1 * 0 = f.val; omega

/-- A load of one feature's slab of the table: its entry (0, v, q) is the table's entry (f, v, q). -/
theorem slab_apply (x1 : Vec Ideal S9x64x128 .f32) (f : Fin 9) (off : Fin 3 → Nat)
    (inb : ∀ a, off a + S1x64x128.size a ≤ S9x64x128.size a) (h0 : off 0 = f.val) (h1 : off 1 = 0) (h2 : off 2 = 0)
    (v : Fin 64) (q : Fin 128) :
    View.ld x1 (Rect.unit (s := S9x64x128) off S1x64x128.size inb) (ix3 (0 : Fin 1) v q) = x1 (ix3 f v q) := by
  show x1 _ = x1 _
  refine congrArg x1 (funext fun a => Fin.ext ?_)
  match a with
  | ⟨0, _⟩ => show off 0 + 1 * 0 = f.val; omega
  | ⟨1, _⟩ => show off 1 + 1 * v.val = v.val; omega
  | ⟨2, _⟩ => show off 2 + 1 * q.val = q.val; omega

/-- One feature's term over the loaded column and slab, in the block's own entries. -/
theorem feature_of_block (x0 : Vec Ideal S5000x9 .i32) (x1 : Vec Ideal S9x64x128 .f32) (f : Fin 9)
    (off0 : Fin 2 → Nat) (inb0 : ∀ a, off0 a + S5000x1.size a ≤ S5000x9.size a) (h00 : off0 0 = 0) (h01 : off0 1 = f.val)
    (off1 : Fin 3 → Nat) (inb1 : ∀ a, off1 a + S1x64x128.size a ≤ S9x64x128.size a) (h10 : off1 0 = f.val) (h11 : off1 1 = 0) (h12 : off1 2 = 0)
    (p : Fin 5000) (q : Fin 128) (hw : (x0 (ix2 p f)).toNat < 64) :
    matmul (F := Ideal) dot_S5000x64_S64x128_S5000x128_1_0_0_1_n_n none
        (truncf .bf16 (sitofp .f32 (extui 32 (cmpi .eq (broadcastTo S5000x64 (View.ld x0 (Rect.unit (s := S5000x9) off0 S5000x1.size inb0)) broadcasts_S5000x1_S5000x64) (iota .tc S5000x64 32 [1] iota_S5000x64_d1_w32)) natLt_1_32)) bitsLt_bf16_f32)
        (truncf .bf16 (shapeCast S64x128 (View.ld x1 (Rect.unit (s := S9x64x128) off1 S1x64x128.size inb1)) shapeCasts_S1x64x128_S64x128) bitsLt_bf16_f32) (constant S5000x128 .f32 0x00000000#32) (ix2 p q)
      = x1 (ix3 f (Cert.Spec.cat 64 (x0 (ix2 p f))) q) := by
  have hc := column_apply x0 f off0 inb0 h00 h01 p
  rw [feature_apply _ _ p q (by rw [hc]; exact hw), hc, slab_apply x1 f off1 inb1 h10 h11 h12]

theorem zero_offsets : (![0, 0] : Fin 2 → Nat) = fun _ => 0 := funext fun a => by fin_cases a <;> rfl

/-- What the body leaves in the output block at (p, q), over any contents of the two input blocks whose feature words of
    row p are inside the vocabulary: the nine features' table rows added, in the order f = 0 … 8, onto a zero. -/
theorem out_apply (x0 : Vec Ideal S5000x9 .i32) (x1 : Vec Ideal S9x64x128 .f32) (p : Fin 5000) (q : Fin 128)
    (hx : ∀ f : Fin 9, (x0 (ix2 p f)).toNat < 64) :
    out0_2 (F := Ideal) x0 x1 (ix2 p q) = ∑ f : Fin 9, x1 (ix3 f (Cert.Spec.cat 64 (x0 (ix2 p f))) q) := by
  unfold out0_2
  rw [View.canon_unit_zero zero_offsets]
  unfold k0_pay1 k0_pay4 k0_pay2 k0_pay3 k0_pay5 k0_pay6
  simp only [addf_apply, broadcast_apply]
  rw [feature_of_block x0 x1 0 ![0, 0] _ rfl rfl ![0, 0, 0] _ rfl rfl rfl p q (hx 0)]
  rw [feature_of_block x0 x1 1 ![0, 1] _ rfl rfl ![1, 0, 0] _ rfl rfl rfl p q (hx 1)]
  rw [feature_of_block x0 x1 2 ![0, 2] _ rfl rfl ![2, 0, 0] _ rfl rfl rfl p q (hx 2)]
  rw [feature_of_block x0 x1 3 ![0, 3] _ rfl rfl ![3, 0, 0] _ rfl rfl rfl p q (hx 3)]
  rw [feature_of_block x0 x1 4 ![0, 4] _ rfl rfl ![4, 0, 0] _ rfl rfl rfl p q (hx 4)]
  rw [feature_of_block x0 x1 5 ![0, 5] _ rfl rfl ![5, 0, 0] _ rfl rfl rfl p q (hx 5)]
  rw [feature_of_block x0 x1 6 ![0, 6] _ rfl rfl ![6, 0, 0] _ rfl rfl rfl p q (hx 6)]
  rw [feature_of_block x0 x1 7 ![0, 7] _ rfl rfl ![7, 0, 0] _ rfl rfl rfl p q (hx 7)]
  rw [feature_of_block x0 x1 8 ![0, 8] _ rfl rfl ![8, 0, 0] _ rfl rfl rfl p q (hx 8)]
  rw [Ideal.ofBits_def, Ideal.ofBits_zero_f32, zero_add, Fin.sum_univ_castSucc, Fin.sum_univ_eight]
  rfl

/-- The index maps over the grid: the word block and the output block are at row block t, the table is whole. -/
theorem block_indices : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0 ∧ t.val < 10 :=
  (by decide +kernel : ∀ t : Fin grid0.N, _)

/-- The block of feature words at point t is rows 5000 t … of the array of words. -/
theorem words_block_apply (c : Dev nD) (t : Fin cfg0.N) (p : Fin 5000) (f : Fin 9) (r : Fin 50000)
    (hr : r.val = t.val * 5000 + p.val) :
    (iblk0 V c 0 t : Vec Ideal S5000x9 .i32) (ix2 p f) = (V c (Pipeline.arrRef spec0 0) : S50000x9.Idx → BitVec 32) (ix2 r f) := by
  obtain ⟨e0, e1, -⟩ := block_indices t
  unfold iblk0
  show (V c (Pipeline.arrRef spec0 0) : S50000x9.Idx → BitVec 32) (((cfg0.win 0).blk t).view.emb (ix2 p f)) = _
  refine congrArg _ (funext fun a => Fin.ext ?_)
  match a with
  | ⟨0, _⟩ => show win0_0.index t (0 : Fin 2) * 5000 + 1 * p.val = r.val; rw [e0, hr]; omega
  | ⟨1, _⟩ => show win0_0.index t (1 : Fin 2) * 9 + 1 * f.val = f.val; rw [e1]; omega

/-- The table's block at every point is the whole table. -/
theorem table_block_apply (c : Dev nD) (t : Fin cfg0.N) (f : Fin 9) (v : Fin 64) (q : Fin 128) :
    (iblk0 V c 1 t : Vec Ideal S9x64x128 .f32) (ix3 f v q) = (V c (Pipeline.arrRef spec0 1) : S9x64x128.Idx → EReal) (ix3 f v q) := by
  obtain ⟨-, -, e2, e3, e4, -⟩ := block_indices t
  unfold iblk0
  show (V c (Pipeline.arrRef spec0 1) : S9x64x128.Idx → EReal) (((cfg0.win 1).blk t).view.emb (ix3 f v q)) = _
  refine congrArg _ (funext fun a => Fin.ext ?_)
  match a with
  | ⟨0, _⟩ => show win0_1.index t (0 : Fin 3) * 9 + 1 * f.val = f.val; rw [e2]; omega
  | ⟨1, _⟩ => show win0_1.index t (1 : Fin 3) * 64 + 1 * v.val = v.val; rw [e3]; omega
  | ⟨2, _⟩ => show win0_1.index t (2 : Fin 3) * 128 + 1 * q.val = q.val; rw [e4]; omega

/-- What point t writes back is block t of the node embedding of the arrays as the region finds them. -/
theorem written_back_eq (c : Dev nD) (hx : ∀ i, (V c (Pipeline.arrRef spec0 0) i).toNat < 64) (t : Fin cfg0.N) :
    (dat0 (F := Ideal) V c).flushed 2 t
      = ((cfg0.win 2).blk t).view.read (Elt Ideal) (Cert.Spec.atomEmb (V c (Pipeline.arrRef spec0 0)) (V c (Pipeline.arrRef spec0 1))) := by
  show (cfg0.win 2).cut (grid0.coords t) ((dat0 V c).after 2 t) = _
  rw [after0_2]
  obtain ⟨-, -, -, -, -, e5, e6, ht⟩ := block_indices t
  funext y
  obtain ⟨p, q, rfl⟩ : ∃ (p : Fin 5000) (q : Fin 128), y = ix2 p q := ⟨y 0, y 1, eq_ix2 y⟩
  have hp := p.isLt
  have hrow : ((cfg0.win 2).blk t).view.emb (ix2 p q) = (ix2 (⟨t.val * 5000 + p.val, by omega⟩ : Fin 50000) q : S50000x128.Idx) := by
    funext a; apply Fin.ext
    match a with
    | ⟨0, _⟩ => show win0_2.index t (0 : Fin 2) * 5000 + 1 * p.val = t.val * 5000 + p.val; rw [e5]; omega
    | ⟨1, _⟩ => show win0_2.index t (1 : Fin 2) * 128 + 1 * q.val = q.val; rw [e6]; omega
  show out0_2 (iblk0 V c 0 t) (iblk0 V c 1 t) (ix2 p q) = Cert.Spec.atomEmb (V c (Pipeline.arrRef spec0 0)) (V c (Pipeline.arrRef spec0 1)) (((cfg0.win 2).blk t).view.emb (ix2 p q))
  rw [hrow, out_apply (iblk0 V c 0 t) (iblk0 V c 1 t) p q (fun f => by rw [words_block_apply V c t p f ⟨t.val * 5000 + p.val, by omega⟩ rfl]; exact hx _)]
  unfold Cert.Spec.atomEmb
  refine Finset.sum_congr rfl fun f _ => ?_
  exact (congrArg (fun w => (iblk0 V c 1 t : Vec Ideal S9x64x128 .f32) (ix3 f (Cert.Spec.cat 64 w) q))
    (words_block_apply V c t p f ⟨t.val * 5000 + p.val, by omega⟩ rfl)).trans (table_block_apply V c t f _ q)

/-- An index of the output array is in point t's block iff each coordinate is in the block's range on its axis. -/
theorem mem_row_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Every row block of the output is some point's. -/
theorem row_block_onto : ∀ b : Fin 10, ∃ t : Fin cfg0.N, win0_2.index t (0 : Fin 2) = b.val ∧ win0_2.index t (1 : Fin 2) = 0 :=
  (by decide +kernel : ∀ b : Fin 10, ∃ t : Fin grid0.N, win0_2.index t (0 : Fin 2) = b.val ∧ win0_2.index t (1 : Fin 2) = 0)

/-- Row r of the output is in the block of the point with row block r / 5000. -/
theorem rows_covered (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, q0, q1⟩ := row_block_onto ⟨(i 0).val / 5000, by omega⟩
  refine ⟨t, flush0_2 t, ?_⟩
  rw [mem_row_block]
  intro a
  match a with
  | ⟨0, _⟩ =>
    show win0_2.index t (0 : Fin 2) * 5000 ≤ (i 0).val ∧ (i 0).val < win0_2.index t (0 : Fin 2) * 5000 + 5000
    rw [q0]; show (i 0).val / 5000 * 5000 ≤ (i 0).val ∧ (i 0).val < (i 0).val / 5000 * 5000 + 5000; omega
  | ⟨1, _⟩ =>
    show win0_2.index t (1 : Fin 2) * 128 ≤ (i 1).val ∧ (i 1).val < win0_2.index t (1 : Fin 2) * 128 + 128
    rw [q1]; omega

/-- The array region 0 leaves: where every feature word is inside the vocabulary, a row is the sum over the nine
    features of the embedding rows the words name. -/
theorem final0 (c : Dev nD) (hx : ∀ i, (V c (Pipeline.arrRef spec0 0) i).toNat < 64) :
    (dat0 (F := Ideal) V c).arrAt 2 cfg0.N = Cert.Spec.atomEmb (V c (Pipeline.arrRef spec0 0)) (V c (Pipeline.arrRef spec0 1)) :=
  (dat0 (F := Ideal) V c).arrAt_eq_of_cover 2 _ (fun t _ => written_back_eq V c hx t) rows_covered

end Cert.KernelIdeal.KReg0

end
-- ==== Proof.KReg1.lean ====
import proofs.«412659_j22162031247392_2_alg».proof.Proof.Gen.KernelIdeal.Frame
import proofs.«412659_j22162031247392_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KReg1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! Region 1 computes the edge-feature embedding one grid point (10000 rows) at a time.

  For each of the three features f the body builds the 10000 × 16 matrix onehot[r, v] = (feat[r, f] = v ? 1 : 0): the
  feature column spread along 16 lanes is compared, as integers, with the lane number; the bit is widened and converted
  to a float; changes of float format are the identity on the extended reals. It multiplies that matrix into the table
  slab emb[f] (16 × 128) from a zero accumulator:

      Σ_v onehot[r, v] · emb[f, v, c] = emb[f, feat[r, f], c],

  because exactly the term v = feat[r, f] survives: 0 · a = 0 and 1 · a = a hold for EVERY extended real, so nothing
  need be finite. This is where the word must be inside the vocabulary (its value below 16): outside it no lane matches
  and the product is 0, not a table row. The three products are added onto a zero block in the order f = 0 … 2, which
  is the sum over the three features of the specification. The feature words and the output move with the grid point
  (rows 10000 t …), the table is whole at every point, and the 64 row blocks cover the 640000 rows. -/

/-- The column of feature words spread along the 16 lanes: entry (p, v) is the word of row p. -/
theorem lanes_apply (col : Vec Ideal S10000x1 .i32) (p : Fin 10000) (v : Fin 16) :
    broadcastTo S10000x16 col broadcasts_S10000x1_S10000x16 (ix2 p v) = col (ix2 p (0 : Fin 1)) := by
  refine broadcastTo_apply col broadcasts_S10000x1_S10000x16 (ix2 p v) (ix2 p (0 : Fin 1)) fun ax => ?_
  match ax with
  | ⟨0, _⟩ =>
    show p.val = if (10000 : Nat) = 1 then 0 else p.val
    rw [if_neg (by decide)]
  | ⟨1, _⟩ => rfl

/-- The lane counter: entry (p, v) is the number v. -/
theorem lane_iota_apply (p : Fin 10000) (v : Fin 16) :
    iota .tc S10000x16 32 [1] iota_S10000x16_d1_w32 (ix2 p v) = BitVec.ofNat 32 v.val := by
  show BitVec.ofNat 32 (0 * 16 + v.val) = _
  rw [Nat.zero_mul, Nat.zero_add]

/-- The integer compare for equality gives the bit 1 exactly on equal words. -/
theorem eq_bit_iff (a b : BitVec 32) : IntOp.cmpi .eq a b = 1#1 ↔ a = b := by
  show BitVec.ofBool (a == b) = 1#1 ↔ a = b
  by_cases h : a = b
  · rw [beq_iff_eq.mpr h]; exact ⟨fun _ => h, fun _ => rfl⟩
  · rw [show (a == b) = false from beq_eq_false_iff_ne.mpr h]
    exact ⟨fun h1 => absurd h1 (by decide), fun h1 => absurd h1 h⟩

/-- One entry of the one-hot matrix of a feature column: 1 where the lane number is the row's word, 0 elsewhere
    (an integer compare, widened, converted to a float; the narrowing of the float format changes no extended real). -/
theorem onehot_apply (col : Vec Ideal S10000x1 .i32) (p : Fin 10000) (v : Fin 16) :
    (truncf .bf16 (sitofp .f32 (extui 32 (cmpi .eq (broadcastTo S10000x16 col broadcasts_S10000x1_S10000x16) (iota .tc S10000x16 32 [1] iota_S10000x16_d1_w32)) natLt_1_32)) bitsLt_bf16_f32 : FVec Ideal S10000x16 .bf16) (ix2 p v)
      = if col (ix2 p (0 : Fin 1)) = BitVec.ofNat 32 v.val then 1 else 0 := by
  show ((((IntOp.cmpi .eq (broadcastTo S10000x16 col broadcasts_S10000x1_S10000x16 (ix2 p v)) (iota .tc S10000x16 32 [1] iota_S10000x16_d1_w32 (ix2 p v))).setWidth 32).toInt : ℝ) : EReal) = _
  rw [lanes_apply, lane_iota_apply]
  by_cases h : col (ix2 p (0 : Fin 1)) = BitVec.ofNat 32 v.val
  · rw [if_pos h, (eq_bit_iff _ _).mpr h]
    have e1 : ((1#1 : BitVec 1).setWidth 32).toInt = 1 := by decide
    rw [e1, Int.cast_one, EReal.coe_one]
  · rw [if_neg h, eq_zero_of_ne_one (fun h1 => h ((eq_bit_iff _ _).mp h1))]
    have e0 : ((0#1 : BitVec 1).setWidth 32).toInt = 0 := by decide
    rw [e0, Int.cast_zero, EReal.coe_zero]

theorem lhs_axis0 (i : S10000x128.Idx) (k : dot_S10000x16_S16x128_S10000x128_1_0_0_1_n_n.contr.Idx) :
    (dot_S10000x16_S16x128_S10000x128_1_0_0_1_n_n.lhsIdx i k 0).val = (i 0).val := by
  unfold DotDims.lhsIdx
  rw [dif_neg (show ¬(0 : Fin S10000x16.rank) ∈ dot_S10000x16_S16x128_S10000x128_1_0_0_1_n_n.lhsBatch by decide), dif_pos (show (0 : Fin S10000x16.rank) ∈ dot_S10000x16_S16x128_S10000x128_1_0_0_1_n_n.lhsNonContracting by decide)]
  rfl
theorem lhs_axis1 (i : S10000x128.Idx) (k : dot_S10000x16_S16x128_S10000x128_1_0_0_1_n_n.contr.Idx) :
    (dot_S10000x16_S16x128_S10000x128_1_0_0_1_n_n.lhsIdx i k 1).val = (k ⟨0, by decide⟩).val :=
  dot_S10000x16_S16x128_S10000x128_1_0_0_1_n_n.lhsIdx_val_of_single rfl i k
theorem rhs_axis0 (i : S10000x128.Idx) (k : dot_S10000x16_S16x128_S10000x128_1_0_0_1_n_n.contr.Idx) :
    (dot_S10000x16_S16x128_S10000x128_1_0_0_1_n_n.rhsIdx i k 0).val = (k ⟨0, by decide⟩).val :=
  dot_S10000x16_S16x128_S10000x128_1_0_0_1_n_n.rhsIdx_val_of_single rfl i k
theorem rhs_axis1 (i : S10000x128.Idx) (k : dot_S10000x16_S16x128_S10000x128_1_0_0_1_n_n.contr.Idx) :
    (dot_S10000x16_S16x128_S10000x128_1_0_0_1_n_n.rhsIdx i k 1).val = (i 1).val := by
  unfold DotDims.rhsIdx
  rw [dif_neg (show ¬(1 : Fin S16x128.rank) ∈ dot_S10000x16_S16x128_S10000x128_1_0_0_1_n_n.rhsBatch by decide), dif_pos (show (1 : Fin S16x128.rank) ∈ dot_S10000x16_S16x128_S10000x128_1_0_0_1_n_n.rhsNonContracting by decide)]
  rfl

/-- A product of a matrix whose row p is the indicator of the lane w with a table slab, from a zero accumulator,
    reads at (p, q) the slab's row w: only the term v = w of the contraction survives, the others are 0 · a = 0,
    and 1 · a = a; both hold for every extended real. -/
theorem pick_apply (oh : FVec Ideal S10000x16 .bf16) (slab : Vec Ideal S1x16x128 .f32) (p : Fin 10000) (q : Fin 128) (w : Fin 16)
    (hoh : ∀ v : Fin 16, oh (ix2 p v) = if v = w then 1 else 0) :
    matmul dot_S10000x16_S16x128_S10000x128_1_0_0_1_n_n none oh (truncf .bf16 (shapeCast S16x128 slab shapeCasts_S1x16x128_S16x128) bitsLt_bf16_f32) (constant S10000x128 .f32 0x00000000#32) (ix2 p q)
      = slab (ix3 (0 : Fin 1) w q) := by
  show FloatOps.matmul dot_S10000x16_S16x128_S10000x128_1_0_0_1_n_n none oh (truncf .bf16 (shapeCast S16x128 slab shapeCasts_S1x16x128_S16x128) bitsLt_bf16_f32) (constant S10000x128 .f32 0x00000000#32) (ix2 p q) = _
  rw [Ideal.matmul_constant_zero_apply, ← Equiv.sum_comp (contrEquiv1 dot_S10000x16_S16x128_S10000x128_1_0_0_1_n_n 16 rfl rfl).symm]
  have hterm : ∀ k : Fin 16,
      oh (dot_S10000x16_S16x128_S10000x128_1_0_0_1_n_n.lhsIdx (ix2 p q) ((contrEquiv1 dot_S10000x16_S16x128_S10000x128_1_0_0_1_n_n 16 rfl rfl).symm k))
        * (truncf .bf16 (shapeCast S16x128 slab shapeCasts_S1x16x128_S16x128) bitsLt_bf16_f32 : FVec Ideal S16x128 .bf16) (dot_S10000x16_S16x128_S10000x128_1_0_0_1_n_n.rhsIdx (ix2 p q) ((contrEquiv1 dot_S10000x16_S16x128_S10000x128_1_0_0_1_n_n 16 rfl rfl).symm k))
      = (if k = w then 1 else 0) * slab (ix3 (0 : Fin 1) k q) := by
    intro k
    have hk := contrEquiv1_symm_val dot_S10000x16_S16x128_S10000x128_1_0_0_1_n_n 16 rfl rfl k
    have el : dot_S10000x16_S16x128_S10000x128_1_0_0_1_n_n.lhsIdx (ix2 p q) ((contrEquiv1 dot_S10000x16_S16x128_S10000x128_1_0_0_1_n_n 16 rfl rfl).symm k) = ix2 p k := funext fun a => Fin.ext (by
      match a with
      | ⟨0, _⟩ => exact lhs_axis0 _ _
      | ⟨1, _⟩ => exact (lhs_axis1 _ _).trans hk)
    have er : dot_S10000x16_S16x128_S10000x128_1_0_0_1_n_n.rhsIdx (ix2 p q) ((contrEquiv1 dot_S10000x16_S16x128_S10000x128_1_0_0_1_n_n 16 rfl rfl).symm k) = ix2 k q := funext fun a => Fin.ext (by
      match a with
      | ⟨0, _⟩ => exact (rhs_axis0 _ _).trans hk
      | ⟨1, _⟩ => exact rhs_axis1 _ _)
    rw [el, er, hoh k, truncf_apply, shapeCast_1ab_ab_apply]
  rw [Finset.sum_congr rfl (fun k _ => hterm k), Finset.sum_eq_single w]
  · rw [if_pos rfl, one_mul]
  · intro k _ hkw
    rw [if_neg hkw, zero_mul]
  · intro hw
    exact absurd (Finset.mem_univ w) hw

/-- A word inside the vocabulary is the lane number v exactly when v is the category it names. -/
theorem word_eq_lane_iff (w : BitVec 32) (hw : w.toNat < 16) (v : Fin 16) :
    w = BitVec.ofNat 32 v.val ↔ v = Cert.Spec.cat 16 w := by
  have hc := Cert.Spec.cat_val 16 w hw
  have hv := v.isLt
  constructor
  · intro h
    apply Fin.ext
    rw [hc, h, BitVec.toNat_ofNat]
    omega
  · intro h
    apply BitVec.eq_of_toNat_eq
    rw [BitVec.toNat_ofNat, h, hc]
    omega

/-- One feature's term at (p, q): the one-hot matrix of the feature column times the feature's table slab, from a zero
    accumulator, is the slab's row named by the word of row p. The word must be inside the vocabulary: outside it no lane
    matches and the product would be 0. -/
theorem feature_apply (col : Vec Ideal S10000x1 .i32) (slab : Vec Ideal S1x16x128 .f32) (p : Fin 10000) (q : Fin 128)
    (hw : (col (ix2 p (0 : Fin 1))).toNat < 16) :
    matmul (F := Ideal) dot_S10000x16_S16x128_S10000x128_1_0_0_1_n_n none
        (truncf .bf16 (sitofp .f32 (extui 32 (cmpi .eq (broadcastTo S10000x16 col broadcasts_S10000x1_S10000x16) (iota .tc S10000x16 32 [1] iota_S10000x16_d1_w32)) natLt_1_32)) bitsLt_bf16_f32)
        (truncf .bf16 (shapeCast S16x128 slab shapeCasts_S1x16x128_S16x128) bitsLt_bf16_f32) (constant S10000x128 .f32 0x00000000#32) (ix2 p q)
      = slab (ix3 (0 : Fin 1) (Cert.Spec.cat 16 (col (ix2 p (0 : Fin 1)))) q) :=
  pick_apply _ slab p q _ fun v => by
    rw [onehot_apply]
    exact if_congr (word_eq_lane_iff _ hw v) rfl rfl

/-- A load of one column of the block of feature words: its entry at row p is the block's entry (p, f). -/
theorem column_apply (x0 : Vec Ideal S10000x3 .i32) (f : Fin 3) (off : Fin 2 → Nat)
    (inb : ∀ a, off a + S10000x1.size a ≤ S10000x3.size a) (h0 : off 0 = 0) (h1 : off 1 = f.val) (p : Fin 10000) :
    View.ld x0 (Rect.unit (s := S10000x3) off S10000x1.size inb) (ix2 p (0 : Fin 1)) = x0 (ix2 p f) := by
  show x0 _ = x0 _
  refine congrArg x0 (funext fun a => Fin.ext ?_)
  match a with
  | ⟨0, _⟩ => show off 0 + 1 * p.val = p.val; omega
  | ⟨1, _⟩ => show off 1 + 1 * 0 = f.val; omega

/-- A load of one feature's slab of the table: its entry (0, v, q) is the table's entry (f, v, q). -/
theorem slab_apply (x1 : Vec Ideal S3x16x128 .f32) (f : Fin 3) (off : Fin 3 → Nat)
    (inb : ∀ a, off a + S1x16x128.size a ≤ S3x16x128.size a) (h0 : off 0 = f.val) (h1 : off 1 = 0) (h2 : off 2 = 0)
    (v : Fin 16) (q : Fin 128) :
    View.ld x1 (Rect.unit (s := S3x16x128) off S1x16x128.size inb) (ix3 (0 : Fin 1) v q) = x1 (ix3 f v q) := by
  show x1 _ = x1 _
  refine congrArg x1 (funext fun a => Fin.ext ?_)
  match a with
  | ⟨0, _⟩ => show off 0 + 1 * 0 = f.val; omega
  | ⟨1, _⟩ => show off 1 + 1 * v.val = v.val; omega
  | ⟨2, _⟩ => show off 2 + 1 * q.val = q.val; omega

/-- One feature's term over the loaded column and slab, in the block's own entries. -/
theorem feature_of_block (x0 : Vec Ideal S10000x3 .i32) (x1 : Vec Ideal S3x16x128 .f32) (f : Fin 3)
    (off0 : Fin 2 → Nat) (inb0 : ∀ a, off0 a + S10000x1.size a ≤ S10000x3.size a) (h00 : off0 0 = 0) (h01 : off0 1 = f.val)
    (off1 : Fin 3 → Nat) (inb1 : ∀ a, off1 a + S1x16x128.size a ≤ S3x16x128.size a) (h10 : off1 0 = f.val) (h11 : off1 1 = 0) (h12 : off1 2 = 0)
    (p : Fin 10000) (q : Fin 128) (hw : (x0 (ix2 p f)).toNat < 16) :
    matmul (F := Ideal) dot_S10000x16_S16x128_S10000x128_1_0_0_1_n_n none
        (truncf .bf16 (sitofp .f32 (extui 32 (cmpi .eq (broadcastTo S10000x16 (View.ld x0 (Rect.unit (s := S10000x3) off0 S10000x1.size inb0)) broadcasts_S10000x1_S10000x16) (iota .tc S10000x16 32 [1] iota_S10000x16_d1_w32)) natLt_1_32)) bitsLt_bf16_f32)
        (truncf .bf16 (shapeCast S16x128 (View.ld x1 (Rect.unit (s := S3x16x128) off1 S1x16x128.size inb1)) shapeCasts_S1x16x128_S16x128) bitsLt_bf16_f32) (constant S10000x128 .f32 0x00000000#32) (ix2 p q)
      = x1 (ix3 f (Cert.Spec.cat 16 (x0 (ix2 p f))) q) := by
  have hc := column_apply x0 f off0 inb0 h00 h01 p
  rw [feature_apply _ _ p q (by rw [hc]; exact hw), hc, slab_apply x1 f off1 inb1 h10 h11 h12]

theorem zero_offsets : (![0, 0] : Fin 2 → Nat) = fun _ => 0 := funext fun a => by fin_cases a <;> rfl

/-- What the body leaves in the output block at (p, q), over any contents of the two input blocks whose feature words of
    row p are inside the vocabulary: the three features' table rows added, in the order f = 0 … 2, onto a zero. -/
theorem out_apply (x0 : Vec Ideal S10000x3 .i32) (x1 : Vec Ideal S3x16x128 .f32) (p : Fin 10000) (q : Fin 128)
    (hx : ∀ f : Fin 3, (x0 (ix2 p f)).toNat < 16) :
    out1_2 (F := Ideal) x0 x1 (ix2 p q) = ∑ f : Fin 3, x1 (ix3 f (Cert.Spec.cat 16 (x0 (ix2 p f))) q) := by
  unfold out1_2
  rw [View.canon_unit_zero zero_offsets]
  unfold k1_pay1
  simp only [addf_apply, broadcast_apply]
  rw [feature_of_block x0 x1 0 ![0, 0] _ rfl rfl ![0, 0, 0] _ rfl rfl rfl p q (hx 0)]
  rw [feature_of_block x0 x1 1 ![0, 1] _ rfl rfl ![1, 0, 0] _ rfl rfl rfl p q (hx 1)]
  rw [feature_of_block x0 x1 2 ![0, 2] _ rfl rfl ![2, 0, 0] _ rfl rfl rfl p q (hx 2)]
  rw [Ideal.ofBits_def, Ideal.ofBits_zero_f32, zero_add, Fin.sum_univ_castSucc, Fin.sum_univ_two]
  rfl

/-- The index maps over the grid: the word block and the output block are at row block t, the table is whole. -/
theorem block_indices : ∀ t : Fin cfg1.N,
    win1_0.index t (0 : Fin 2) = t.val ∧ win1_0.index t (1 : Fin 2) = 0
    ∧ win1_1.index t (0 : Fin 3) = 0 ∧ win1_1.index t (1 : Fin 3) = 0 ∧ win1_1.index t (2 : Fin 3) = 0
    ∧ win1_2.index t (0 : Fin 2) = t.val ∧ win1_2.index t (1 : Fin 2) = 0 ∧ t.val < 64 :=
  (by decide +kernel : ∀ t : Fin grid1.N, _)

/-- The block of feature words at point t is rows 10000 t … of the array of words. -/
theorem words_block_apply (c : Dev nD) (t : Fin cfg1.N) (p : Fin 10000) (f : Fin 3) (r : Fin 640000)
    (hr : r.val = t.val * 10000 + p.val) :
    (iblk1 V c 0 t : Vec Ideal S10000x3 .i32) (ix2 p f) = (V c (Pipeline.arrRef spec1 0) : S640000x3.Idx → BitVec 32) (ix2 r f) := by
  obtain ⟨e0, e1, -⟩ := block_indices t
  unfold iblk1
  show (V c (Pipeline.arrRef spec1 0) : S640000x3.Idx → BitVec 32) (((cfg1.win 0).blk t).view.emb (ix2 p f)) = _
  refine congrArg _ (funext fun a => Fin.ext ?_)
  match a with
  | ⟨0, _⟩ => show win1_0.index t (0 : Fin 2) * 10000 + 1 * p.val = r.val; rw [e0, hr]; omega
  | ⟨1, _⟩ => show win1_0.index t (1 : Fin 2) * 3 + 1 * f.val = f.val; rw [e1]; omega

/-- The table's block at every point is the whole table. -/
theorem table_block_apply (c : Dev nD) (t : Fin cfg1.N) (f : Fin 3) (v : Fin 16) (q : Fin 128) :
    (iblk1 V c 1 t : Vec Ideal S3x16x128 .f32) (ix3 f v q) = (V c (Pipeline.arrRef spec1 1) : S3x16x128.Idx → EReal) (ix3 f v q) := by
  obtain ⟨-, -, e2, e3, e4, -⟩ := block_indices t
  unfold iblk1
  show (V c (Pipeline.arrRef spec1 1) : S3x16x128.Idx → EReal) (((cfg1.win 1).blk t).view.emb (ix3 f v q)) = _
  refine congrArg _ (funext fun a => Fin.ext ?_)
  match a with
  | ⟨0, _⟩ => show win1_1.index t (0 : Fin 3) * 3 + 1 * f.val = f.val; rw [e2]; omega
  | ⟨1, _⟩ => show win1_1.index t (1 : Fin 3) * 16 + 1 * v.val = v.val; rw [e3]; omega
  | ⟨2, _⟩ => show win1_1.index t (2 : Fin 3) * 128 + 1 * q.val = q.val; rw [e4]; omega

/-- What point t writes back is block t of the edge embedding of the arrays as the region finds them. -/
theorem written_back_eq (c : Dev nD) (hx : ∀ i, (V c (Pipeline.arrRef spec1 0) i).toNat < 16) (t : Fin cfg1.N) :
    (dat1 (F := Ideal) V c).flushed 2 t
      = ((cfg1.win 2).blk t).view.read (Elt Ideal) (Cert.Spec.bondEmb (V c (Pipeline.arrRef spec1 0)) (V c (Pipeline.arrRef spec1 1))) := by
  show (cfg1.win 2).cut (grid1.coords t) ((dat1 V c).after 2 t) = _
  rw [after1_2]
  obtain ⟨-, -, -, -, -, e5, e6, ht⟩ := block_indices t
  funext y
  obtain ⟨p, q, rfl⟩ : ∃ (p : Fin 10000) (q : Fin 128), y = ix2 p q := ⟨y 0, y 1, eq_ix2 y⟩
  have hp := p.isLt
  have hrow : ((cfg1.win 2).blk t).view.emb (ix2 p q) = (ix2 (⟨t.val * 10000 + p.val, by omega⟩ : Fin 640000) q : S640000x128.Idx) := by
    funext a; apply Fin.ext
    match a with
    | ⟨0, _⟩ => show win1_2.index t (0 : Fin 2) * 10000 + 1 * p.val = t.val * 10000 + p.val; rw [e5]; omega
    | ⟨1, _⟩ => show win1_2.index t (1 : Fin 2) * 128 + 1 * q.val = q.val; rw [e6]; omega
  show out1_2 (iblk1 V c 0 t) (iblk1 V c 1 t) (ix2 p q) = Cert.Spec.bondEmb (V c (Pipeline.arrRef spec1 0)) (V c (Pipeline.arrRef spec1 1)) (((cfg1.win 2).blk t).view.emb (ix2 p q))
  rw [hrow, out_apply (iblk1 V c 0 t) (iblk1 V c 1 t) p q (fun f => by rw [words_block_apply V c t p f ⟨t.val * 10000 + p.val, by omega⟩ rfl]; exact hx _)]
  unfold Cert.Spec.bondEmb
  refine Finset.sum_congr rfl fun f _ => ?_
  exact (congrArg (fun w => (iblk1 V c 1 t : Vec Ideal S3x16x128 .f32) (ix3 f (Cert.Spec.cat 16 w) q))
    (words_block_apply V c t p f ⟨t.val * 10000 + p.val, by omega⟩ rfl)).trans (table_block_apply V c t f _ q)

/-- An index of the output array is in point t's block iff each coordinate is in the block's range on its axis. -/
theorem mem_row_block (t : Fin cfg1.N) (i : S640000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v1).slice (win1_2.rect t)).set ↔ _
  rw [View.set_slice_whole, Rect.mem_set_unit]
  exact Iff.rfl

/-- Every row block of the output is some point's. -/
theorem row_block_onto : ∀ b : Fin 64, ∃ t : Fin cfg1.N, win1_2.index t (0 : Fin 2) = b.val ∧ win1_2.index t (1 : Fin 2) = 0 :=
  (by decide +kernel : ∀ b : Fin 64, ∃ t : Fin grid1.N, win1_2.index t (0 : Fin 2) = b.val ∧ win1_2.index t (1 : Fin 2) = 0)

/-- Row r of the output is in the block of the point with row block r / 10000. -/
theorem rows_covered (i : S640000x128.Idx) : ∃ t : Fin cfg1.N, (cfg1.win 2).flush t = true ∧ i ∈ ((cfg1.win 2).blk t).view.set := by
  have hi0 : (i 0).val < 640000 := (i 0).isLt
  have hi1 : (i 1).val < 128 := (i 1).isLt
  obtain ⟨t, q0, q1⟩ := row_block_onto ⟨(i 0).val / 10000, by omega⟩
  refine ⟨t, flush1_2 t, ?_⟩
  rw [mem_row_block]
  intro a
  match a with
  | ⟨0, _⟩ =>
    show win1_2.index t (0 : Fin 2) * 10000 ≤ (i 0).val ∧ (i 0).val < win1_2.index t (0 : Fin 2) * 10000 + 10000
    rw [q0]; show (i 0).val / 10000 * 10000 ≤ (i 0).val ∧ (i 0).val < (i 0).val / 10000 * 10000 + 10000; omega
  | ⟨1, _⟩ =>
    show win1_2.index t (1 : Fin 2) * 128 ≤ (i 1).val ∧ (i 1).val < win1_2.index t (1 : Fin 2) * 128 + 128
    rw [q1]; omega

/-- The array region 1 leaves: where every feature word is inside the vocabulary, a row is the sum over the three
    features of the embedding rows the words name. -/
theorem final1 (c : Dev nD) (hx : ∀ i, (V c (Pipeline.arrRef spec1 0) i).toNat < 16) :
    (dat1 (F := Ideal) V c).arrAt 2 cfg1.N = Cert.Spec.bondEmb (V c (Pipeline.arrRef spec1 0)) (V c (Pipeline.arrRef spec1 1)) :=
  (dat1 (F := Ideal) V c).arrAt_eq_of_cover 2 _ (fun t _ => written_back_eq V c hx t) rows_covered

end Cert.KernelIdeal.KReg1

end
-- ==== Proof.KReg2.lean ====
/-
  The value of kernel region 2: the dense transform of one message-passing layer, block by block and then as one array.

  At each of the 10 grid points the body reads a block of 5000 rows of the node features x and of the aggregated
  messages a, the two 128 × 128 weight matrices w1, w2 and the two bias vectors b1, b2 whole, and writes the block

      out[r, c] = Σ_k max (Σ_j (x[r, j] + a[r, j]) · w1[j, k] + b1[k]) 0 · w2[k, c] + b2[c].

  On the extended reals the changes of number format to bf16 are the identity, and a matrix product accumulated
  onto the zero matrix is the plain sum over the inner index. Point t's blocks are rows 5000 t … 5000 t + 4999, so the
  ten write-backs are the ten row blocks of one function of the arrays, and row r lies in the block of point r / 5000.
-/
import proofs.«412659_j22162031247392_2_alg».proof.Proof.Gen.KernelIdeal.Frame
import proofs.«412659_j22162031247392_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KReg2

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product of a 5000×128 block with a 128×128 matrix accumulated onto zero is, entry by entry, the plain sum over the inner index. -/
theorem matmul_zero_at {φ₁ φ₂ : FTy} (a : FVec Ideal S5000x128 φ₁) (b : FVec Ideal S128x128 φ₂) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- A length-128 vector laid along the columns of every row reads, at (p, q), its entry q. -/
theorem bias_at {α : Type} (v : S128.Idx → α) (h1 : S128.ShapeCasts S1x128) (h2 : S1x128.Broadcasts S5000x128) (p : Fin 5000) (q : Fin 128) :
    broadcastTo S5000x128 (shapeCast S1x128 v h1) h2 (ix2 p q) = v (ix1 q) := by
  rw [broadcastTo_1b_ab_apply, shapeCast_a_1a_apply]

/-- The block's payload, entry by entry: the first product with its bias, cut below at zero, then the second product with its bias. -/
theorem payload_at (x a : Vec Ideal S5000x128 .f32) (w1 : Vec Ideal S128x128 .f32) (b1 : Vec Ideal S128 .f32)
    (w2 : Vec Ideal S128x128 .f32) (b2 : Vec Ideal S128 .f32) (p : Fin 5000) (q : Fin 128) :
    k2_pay1 (F := Ideal) x a w1 b1 w2 b2 (ix2 p q)
      = (∑ k : Fin 128, max ((∑ j : Fin 128, (x (ix2 p j) + a (ix2 p j)) * w1 (ix2 j k)) + b1 (ix1 k)) 0 * w2 (ix2 k q)) + b2 (ix1 q) := by
  unfold k2_pay1
  simp only [shapeCast_self]
  rw [addf_apply, matmul_zero_at, bias_at]
  refine congrArg (· + b2 (ix1 q)) (Finset.sum_congr rfl fun k _ => ?_)
  rw [truncf_apply, truncf_apply, maximumf_apply, addf_apply, matmul_zero_at, bias_at, broadcast_apply]
  refine congrArg₂ (· * ·) (congrArg₂ max (congrArg (· + b1 (ix1 k)) (Finset.sum_congr rfl fun j _ => ?_)) ?_) rfl
  · rw [truncf_apply, truncf_apply, addf_apply]
  · exact Ideal.ofBits_zero_f32

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The printed index maps over the grid: the row windows sit at block row t, column block 0; the weight and bias windows at block 0. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- The output block of point t puts its entry (p, q) at row 5000 t + p, column q of the array. -/
theorem out_emb (t : Fin cfg2.N) (p : Fin 5000) (q : Fin 128) (r : Fin 50000) (hr : r.val = t.val * 5000 + p.val) :
    ((cfg2.win 6).blk t).view.emb (ix2 p q) = ix2 r q := by
  obtain ⟨-, -, -, -, -, -, -, -, -, -, e0, e1⟩ := index_facts t
  funext a; apply Fin.ext
  match a with
  | ⟨0, _⟩ => show win2_6.index t (0 : Fin 2) * 5000 + 1 * p.val = r.val; omega
  | ⟨1, _⟩ => show win2_6.index t (1 : Fin 2) * 128 + 1 * q.val = q.val; omega

/-- The node-feature block of point t is rows 5000 t … 5000 t + 4999 of its array. -/
theorem x_block (c : Dev nD) (t : Fin cfg2.N) (p : Fin 5000) (j : Fin 128) (r : Fin 50000) (hr : r.val = t.val * 5000 + p.val) :
    iblk2 V c 0 t (ix2 p j) = V c (Pipeline.arrRef spec2 0) (ix2 r j) := by
  obtain ⟨e0, e1, -⟩ := index_facts t
  show V c (Pipeline.arrRef spec2 0) (((cfg2.win 0).blk t).view.emb (ix2 p j)) = _
  refine congrArg _ (funext fun a => Fin.ext ?_)
  match a with
  | ⟨0, _⟩ => show win2_0.index t (0 : Fin 2) * 5000 + 1 * p.val = r.val; omega
  | ⟨1, _⟩ => show win2_0.index t (1 : Fin 2) * 128 + 1 * j.val = j.val; omega

/-- The aggregated-message block of point t is the same rows of its array. -/
theorem a_block (c : Dev nD) (t : Fin cfg2.N) (p : Fin 5000) (j : Fin 128) (r : Fin 50000) (hr : r.val = t.val * 5000 + p.val) :
    iblk2 V c 1 t (ix2 p j) = V c (Pipeline.arrRef spec2 1) (ix2 r j) := by
  obtain ⟨-, -, e0, e1, -⟩ := index_facts t
  show V c (Pipeline.arrRef spec2 1) (((cfg2.win 1).blk t).view.emb (ix2 p j)) = _
  refine congrArg _ (funext fun a => Fin.ext ?_)
  match a with
  | ⟨0, _⟩ => show win2_1.index t (0 : Fin 2) * 5000 + 1 * p.val = r.val; omega
  | ⟨1, _⟩ => show win2_1.index t (1 : Fin 2) * 128 + 1 * j.val = j.val; omega

/-- The first weight window is the whole matrix at every point. -/
theorem w1_block (c : Dev nD) (t : Fin cfg2.N) (j k : Fin 128) :
    iblk2 V c 2 t (ix2 j k) = V c (Pipeline.arrRef spec2 2) (ix2 j k) := by
  obtain ⟨-, -, -, -, e0, e1, -⟩ := index_facts t
  show V c (Pipeline.arrRef spec2 2) (((cfg2.win 2).blk t).view.emb (ix2 j k)) = _
  refine congrArg _ (funext fun a => Fin.ext ?_)
  match a with
  | ⟨0, _⟩ => show win2_2.index t (0 : Fin 2) * 128 + 1 * j.val = j.val; omega
  | ⟨1, _⟩ => show win2_2.index t (1 : Fin 2) * 128 + 1 * k.val = k.val; omega

/-- The first bias window is the whole vector at every point. -/
theorem b1_block (c : Dev nD) (t : Fin cfg2.N) (k : Fin 128) :
    iblk2 V c 3 t (ix1 k) = V c (Pipeline.arrRef spec2 3) (ix1 k) := by
  obtain ⟨-, -, -, -, -, -, e0, -⟩ := index_facts t
  show V c (Pipeline.arrRef spec2 3) (((cfg2.win 3).blk t).view.emb (ix1 k)) = _
  refine congrArg _ (funext fun a => Fin.ext ?_)
  match a with
  | ⟨0, _⟩ => show win2_3.index t (0 : Fin 1) * 128 + 1 * k.val = k.val; omega

/-- The second weight window is the whole matrix at every point. -/
theorem w2_block (c : Dev nD) (t : Fin cfg2.N) (k q : Fin 128) :
    iblk2 V c 4 t (ix2 k q) = V c (Pipeline.arrRef spec2 4) (ix2 k q) := by
  obtain ⟨-, -, -, -, -, -, -, e0, e1, -⟩ := index_facts t
  show V c (Pipeline.arrRef spec2 4) (((cfg2.win 4).blk t).view.emb (ix2 k q)) = _
  refine congrArg _ (funext fun a => Fin.ext ?_)
  match a with
  | ⟨0, _⟩ => show win2_4.index t (0 : Fin 2) * 128 + 1 * k.val = k.val; omega
  | ⟨1, _⟩ => show win2_4.index t (1 : Fin 2) * 128 + 1 * q.val = q.val; omega

/-- The second bias window is the whole vector at every point. -/
theorem b2_block (c : Dev nD) (t : Fin cfg2.N) (q : Fin 128) :
    iblk2 V c 5 t (ix1 q) = V c (Pipeline.arrRef spec2 5) (ix1 q) := by
  obtain ⟨-, -, -, -, -, -, -, -, -, e0, -⟩ := index_facts t
  show V c (Pipeline.arrRef spec2 5) (((cfg2.win 5).blk t).view.emb (ix1 q)) = _
  refine congrArg _ (funext fun a => Fin.ext ?_)
  match a with
  | ⟨0, _⟩ => show win2_5.index t (0 : Fin 1) * 128 + 1 * q.val = q.val; omega

/-- What point t writes back is block t of the layer's dense transform of the arrays the region found. -/
theorem flushed_eq (c : Dev nD) (t : Fin cfg2.N) :
    (dat2 (F := Ideal) V c).flushed 6 t = ((cfg2.win 6).blk t).view.read (Elt Ideal)
      (Cert.Spec.gine (V c (Pipeline.arrRef spec2 0)) (V c (Pipeline.arrRef spec2 1))
        (V c (Pipeline.arrRef spec2 2)) (V c (Pipeline.arrRef spec2 3)) (V c (Pipeline.arrRef spec2 4)) (V c (Pipeline.arrRef spec2 5))) := by
  show (cfg2.win 6).cut (grid2.coords t) ((dat2 V c).after 6 t) = _
  rw [after2_6]
  unfold out2_6
  rw [View.canon_unit_zero zero2]
  simp only [View.ld_unit_zero (S := S5000x128) zero2, View.ld_unit_zero (S := S128x128) zero2, View.ld_unit_zero (S := S128) zero1]
  funext y
  obtain ⟨p, q, rfl⟩ : ∃ (p : Fin 5000) (q : Fin 128), y = ix2 p q := ⟨y 0, y 1, eq_ix2 y⟩
  have ht : t.val < 10 := lt_of_lt_of_eq t.isLt N_2
  obtain ⟨r, hr⟩ : ∃ r : Fin 50000, r.val = t.val * 5000 + p.val := ⟨⟨t.val * 5000 + p.val, by have := p.isLt; omega⟩, rfl⟩
  show k2_pay1 (F := Ideal) (iblk2 V c 0 t) (iblk2 V c 1 t) (iblk2 V c 2 t) (iblk2 V c 3 t) (iblk2 V c 4 t) (iblk2 V c 5 t) (ix2 p q)
    = Cert.Spec.gine (V c (Pipeline.arrRef spec2 0)) (V c (Pipeline.arrRef spec2 1))
        (V c (Pipeline.arrRef spec2 2)) (V c (Pipeline.arrRef spec2 3)) (V c (Pipeline.arrRef spec2 4)) (V c (Pipeline.arrRef spec2 5))
        (((cfg2.win 6).blk t).view.emb (ix2 p q))
  rw [payload_at, out_emb t p q r hr]
  unfold Cert.Spec.gine
  simp only [x_block V c t p _ r hr, a_block V c t p _ r hr, w1_block V c t, b1_block V c t, w2_block V c t, b2_block V c t]

/-- An index of the array lies in point t's block exactly when each coordinate lies in the block's range on its axis. -/
theorem mem_block (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole (Pipeline.arrRef spec2 6)).slice (win2_6.rect t)).set ↔ _
  rw [View.set_slice_whole, Rect.mem_set_unit]
  exact Iff.rfl

/-- Row r of the array lies in the block of point r / 5000. -/
theorem covered (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  obtain ⟨-, -, -, -, -, -, -, -, -, -, e0, e1⟩ := index_facts t
  have e0' : win2_6.index t (0 : Fin 2) = (i 0).val / 5000 := e0
  refine ⟨t, flush2_6 t, ?_⟩
  rw [mem_block]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- The array region 2 leaves: the layer's dense transform of the node features and the aggregated messages it found, row by row. -/
theorem final2 (c : Dev nD) :
    (dat2 (F := Ideal) V c).arrAt 6 cfg2.N = Cert.Spec.gine (V c (Pipeline.arrRef spec2 0)) (V c (Pipeline.arrRef spec2 1))
      (V c (Pipeline.arrRef spec2 2)) (V c (Pipeline.arrRef spec2 3)) (V c (Pipeline.arrRef spec2 4)) (V c (Pipeline.arrRef spec2 5)) :=
  (dat2 (F := Ideal) V c).arrAt_eq_of_cover 6 _ (fun t _ => flushed_eq V c t) covered

end Cert.KernelIdeal.KReg2

end
-- ==== Proof.KReg3.lean ====
/-
  The value of kernel region 3: the dense transform of one message-passing layer, block by block and then as one array.

  At each of the 10 grid points the body reads a block of 5000 rows of the node features x and of the aggregated
  messages a, the two 128 × 128 weight matrices w1, w2 and the two bias vectors b1, b2 whole, and writes the block

      out[r, c] = Σ_k max (Σ_j (x[r, j] + a[r, j]) · w1[j, k] + b1[k]) 0 · w2[k, c] + b2[c].

  On the extended reals the changes of number format to bf16 are the identity, and a matrix product accumulated
  onto the zero matrix is the plain sum over the inner index. Point t's blocks are rows 5000 t … 5000 t + 4999, so the
  ten write-backs are the ten row blocks of one function of the arrays, and row r lies in the block of point r / 5000.
-/
import proofs.«412659_j22162031247392_2_alg».proof.Proof.Gen.KernelIdeal.Frame
import proofs.«412659_j22162031247392_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KReg3

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product of a 5000×128 block with a 128×128 matrix accumulated onto zero is, entry by entry, the plain sum over the inner index. -/
theorem matmul_zero_at {φ₁ φ₂ : FTy} (a : FVec Ideal S5000x128 φ₁) (b : FVec Ideal S128x128 φ₂) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- A length-128 vector laid along the columns of every row reads, at (p, q), its entry q. -/
theorem bias_at {α : Type} (v : S128.Idx → α) (h1 : S128.ShapeCasts S1x128) (h2 : S1x128.Broadcasts S5000x128) (p : Fin 5000) (q : Fin 128) :
    broadcastTo S5000x128 (shapeCast S1x128 v h1) h2 (ix2 p q) = v (ix1 q) := by
  rw [broadcastTo_1b_ab_apply, shapeCast_a_1a_apply]

/-- The block's payload, entry by entry: the first product with its bias, cut below at zero, then the second product with its bias. -/
theorem payload_at (x a : Vec Ideal S5000x128 .f32) (w1 : Vec Ideal S128x128 .f32) (b1 : Vec Ideal S128 .f32)
    (w2 : Vec Ideal S128x128 .f32) (b2 : Vec Ideal S128 .f32) (p : Fin 5000) (q : Fin 128) :
    k3_pay1 (F := Ideal) x a w1 b1 w2 b2 (ix2 p q)
      = (∑ k : Fin 128, max ((∑ j : Fin 128, (x (ix2 p j) + a (ix2 p j)) * w1 (ix2 j k)) + b1 (ix1 k)) 0 * w2 (ix2 k q)) + b2 (ix1 q) := by
  unfold k3_pay1
  simp only [shapeCast_self]
  rw [addf_apply, matmul_zero_at, bias_at]
  refine congrArg (· + b2 (ix1 q)) (Finset.sum_congr rfl fun k _ => ?_)
  rw [truncf_apply, truncf_apply, maximumf_apply, addf_apply, matmul_zero_at, bias_at, broadcast_apply]
  refine congrArg₂ (· * ·) (congrArg₂ max (congrArg (· + b1 (ix1 k)) (Finset.sum_congr rfl fun j _ => ?_)) ?_) rfl
  · rw [truncf_apply, truncf_apply, addf_apply]
  · exact Ideal.ofBits_zero_f32

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The printed index maps over the grid: the row windows sit at block row t, column block 0; the weight and bias windows at block 0. -/
theorem index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 1) = 0
    ∧ win3_6.index t (0 : Fin 2) = t.val ∧ win3_6.index t (1 : Fin 2) = 0 :=
  (by decide +kernel : ∀ t : Fin grid3.N, _)

/-- The output block of point t puts its entry (p, q) at row 5000 t + p, column q of the array. -/
theorem out_emb (t : Fin cfg3.N) (p : Fin 5000) (q : Fin 128) (r : Fin 50000) (hr : r.val = t.val * 5000 + p.val) :
    ((cfg3.win 6).blk t).view.emb (ix2 p q) = ix2 r q := by
  obtain ⟨-, -, -, -, -, -, -, -, -, -, e0, e1⟩ := index_facts t
  funext a; apply Fin.ext
  match a with
  | ⟨0, _⟩ => show win3_6.index t (0 : Fin 2) * 5000 + 1 * p.val = r.val; omega
  | ⟨1, _⟩ => show win3_6.index t (1 : Fin 2) * 128 + 1 * q.val = q.val; omega

/-- The node-feature block of point t is rows 5000 t … 5000 t + 4999 of its array. -/
theorem x_block (c : Dev nD) (t : Fin cfg3.N) (p : Fin 5000) (j : Fin 128) (r : Fin 50000) (hr : r.val = t.val * 5000 + p.val) :
    iblk3 V c 0 t (ix2 p j) = V c (Pipeline.arrRef spec3 0) (ix2 r j) := by
  obtain ⟨e0, e1, -⟩ := index_facts t
  show V c (Pipeline.arrRef spec3 0) (((cfg3.win 0).blk t).view.emb (ix2 p j)) = _
  refine congrArg _ (funext fun a => Fin.ext ?_)
  match a with
  | ⟨0, _⟩ => show win3_0.index t (0 : Fin 2) * 5000 + 1 * p.val = r.val; omega
  | ⟨1, _⟩ => show win3_0.index t (1 : Fin 2) * 128 + 1 * j.val = j.val; omega

/-- The aggregated-message block of point t is the same rows of its array. -/
theorem a_block (c : Dev nD) (t : Fin cfg3.N) (p : Fin 5000) (j : Fin 128) (r : Fin 50000) (hr : r.val = t.val * 5000 + p.val) :
    iblk3 V c 1 t (ix2 p j) = V c (Pipeline.arrRef spec3 1) (ix2 r j) := by
  obtain ⟨-, -, e0, e1, -⟩ := index_facts t
  show V c (Pipeline.arrRef spec3 1) (((cfg3.win 1).blk t).view.emb (ix2 p j)) = _
  refine congrArg _ (funext fun a => Fin.ext ?_)
  match a with
  | ⟨0, _⟩ => show win3_1.index t (0 : Fin 2) * 5000 + 1 * p.val = r.val; omega
  | ⟨1, _⟩ => show win3_1.index t (1 : Fin 2) * 128 + 1 * j.val = j.val; omega

/-- The first weight window is the whole matrix at every point. -/
theorem w1_block (c : Dev nD) (t : Fin cfg3.N) (j k : Fin 128) :
    iblk3 V c 2 t (ix2 j k) = V c (Pipeline.arrRef spec3 2) (ix2 j k) := by
  obtain ⟨-, -, -, -, e0, e1, -⟩ := index_facts t
  show V c (Pipeline.arrRef spec3 2) (((cfg3.win 2).blk t).view.emb (ix2 j k)) = _
  refine congrArg _ (funext fun a => Fin.ext ?_)
  match a with
  | ⟨0, _⟩ => show win3_2.index t (0 : Fin 2) * 128 + 1 * j.val = j.val; omega
  | ⟨1, _⟩ => show win3_2.index t (1 : Fin 2) * 128 + 1 * k.val = k.val; omega

/-- The first bias window is the whole vector at every point. -/
theorem b1_block (c : Dev nD) (t : Fin cfg3.N) (k : Fin 128) :
    iblk3 V c 3 t (ix1 k) = V c (Pipeline.arrRef spec3 3) (ix1 k) := by
  obtain ⟨-, -, -, -, -, -, e0, -⟩ := index_facts t
  show V c (Pipeline.arrRef spec3 3) (((cfg3.win 3).blk t).view.emb (ix1 k)) = _
  refine congrArg _ (funext fun a => Fin.ext ?_)
  match a with
  | ⟨0, _⟩ => show win3_3.index t (0 : Fin 1) * 128 + 1 * k.val = k.val; omega

/-- The second weight window is the whole matrix at every point. -/
theorem w2_block (c : Dev nD) (t : Fin cfg3.N) (k q : Fin 128) :
    iblk3 V c 4 t (ix2 k q) = V c (Pipeline.arrRef spec3 4) (ix2 k q) := by
  obtain ⟨-, -, -, -, -, -, -, e0, e1, -⟩ := index_facts t
  show V c (Pipeline.arrRef spec3 4) (((cfg3.win 4).blk t).view.emb (ix2 k q)) = _
  refine congrArg _ (funext fun a => Fin.ext ?_)
  match a with
  | ⟨0, _⟩ => show win3_4.index t (0 : Fin 2) * 128 + 1 * k.val = k.val; omega
  | ⟨1, _⟩ => show win3_4.index t (1 : Fin 2) * 128 + 1 * q.val = q.val; omega

/-- The second bias window is the whole vector at every point. -/
theorem b2_block (c : Dev nD) (t : Fin cfg3.N) (q : Fin 128) :
    iblk3 V c 5 t (ix1 q) = V c (Pipeline.arrRef spec3 5) (ix1 q) := by
  obtain ⟨-, -, -, -, -, -, -, -, -, e0, -⟩ := index_facts t
  show V c (Pipeline.arrRef spec3 5) (((cfg3.win 5).blk t).view.emb (ix1 q)) = _
  refine congrArg _ (funext fun a => Fin.ext ?_)
  match a with
  | ⟨0, _⟩ => show win3_5.index t (0 : Fin 1) * 128 + 1 * q.val = q.val; omega

/-- What point t writes back is block t of the layer's dense transform of the arrays the region found. -/
theorem flushed_eq (c : Dev nD) (t : Fin cfg3.N) :
    (dat3 (F := Ideal) V c).flushed 6 t = ((cfg3.win 6).blk t).view.read (Elt Ideal)
      (Cert.Spec.gine (V c (Pipeline.arrRef spec3 0)) (V c (Pipeline.arrRef spec3 1))
        (V c (Pipeline.arrRef spec3 2)) (V c (Pipeline.arrRef spec3 3)) (V c (Pipeline.arrRef spec3 4)) (V c (Pipeline.arrRef spec3 5))) := by
  show (cfg3.win 6).cut (grid3.coords t) ((dat3 V c).after 6 t) = _
  rw [after3_6]
  unfold out3_6
  rw [View.canon_unit_zero zero2]
  simp only [View.ld_unit_zero (S := S5000x128) zero2, View.ld_unit_zero (S := S128x128) zero2, View.ld_unit_zero (S := S128) zero1]
  funext y
  obtain ⟨p, q, rfl⟩ : ∃ (p : Fin 5000) (q : Fin 128), y = ix2 p q := ⟨y 0, y 1, eq_ix2 y⟩
  have ht : t.val < 10 := lt_of_lt_of_eq t.isLt N_3
  obtain ⟨r, hr⟩ : ∃ r : Fin 50000, r.val = t.val * 5000 + p.val := ⟨⟨t.val * 5000 + p.val, by have := p.isLt; omega⟩, rfl⟩
  show k3_pay1 (F := Ideal) (iblk3 V c 0 t) (iblk3 V c 1 t) (iblk3 V c 2 t) (iblk3 V c 3 t) (iblk3 V c 4 t) (iblk3 V c 5 t) (ix2 p q)
    = Cert.Spec.gine (V c (Pipeline.arrRef spec3 0)) (V c (Pipeline.arrRef spec3 1))
        (V c (Pipeline.arrRef spec3 2)) (V c (Pipeline.arrRef spec3 3)) (V c (Pipeline.arrRef spec3 4)) (V c (Pipeline.arrRef spec3 5))
        (((cfg3.win 6).blk t).view.emb (ix2 p q))
  rw [payload_at, out_emb t p q r hr]
  unfold Cert.Spec.gine
  simp only [x_block V c t p _ r hr, a_block V c t p _ r hr, w1_block V c t, b1_block V c t, w2_block V c t, b2_block V c t]

/-- An index of the array lies in point t's block exactly when each coordinate lies in the block's range on its axis. -/
theorem mem_block (t : Fin cfg3.N) (i : S50000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole (Pipeline.arrRef spec3 6)).slice (win3_6.rect t)).set ↔ _
  rw [View.set_slice_whole, Rect.mem_set_unit]
  exact Iff.rfl

/-- Row r of the array lies in the block of point r / 5000. -/
theorem covered (i : S50000x128.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨-, -, -, -, -, -, -, -, -, -, e0, e1⟩ := index_facts t
  have e0' : win3_6.index t (0 : Fin 2) = (i 0).val / 5000 := e0
  refine ⟨t, flush3_6 t, ?_⟩
  rw [mem_block]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 128 ≤ (i 1).val ∧ (i 1).val < win3_6.index t (1 : Fin 2) * 128 + 128; omega

/-- The array region 3 leaves: the layer's dense transform of the node features and the aggregated messages it found, row by row. -/
theorem final3 (c : Dev nD) :
    (dat3 (F := Ideal) V c).arrAt 6 cfg3.N = Cert.Spec.gine (V c (Pipeline.arrRef spec3 0)) (V c (Pipeline.arrRef spec3 1))
      (V c (Pipeline.arrRef spec3 2)) (V c (Pipeline.arrRef spec3 3)) (V c (Pipeline.arrRef spec3 4)) (V c (Pipeline.arrRef spec3 5)) :=
  (dat3 (F := Ideal) V c).arrAt_eq_of_cover 6 _ (fun t _ => flushed_eq V c t) covered

end Cert.KernelIdeal.KReg3

end
-- ==== Proof.KReg4.lean ====
import proofs.«412659_j22162031247392_2_alg».proof.Proof.Gen.KernelIdeal.Frame
import proofs.«412659_j22162031247392_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KReg4

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-!
# The read-out network, as region 4 of the kernel computes it

Region 4 has one grid point, and every window's block is its whole array. On the 1024 graphs' pooled features `h`
(328 per graph) the body computes, row by row,

* `h1[n, k1] = max (Σ_j h[n, j] · w1[j, k1] + b1[k1]) 0`   (512 hidden units),
* `h2[n, k2] = max (Σ_k1 h1[n, k1] · w2[k1, k2] + b2[k2]) 0` (256 hidden units),
* `out[n, 0] = Σ_k2 h2[n, k2] · w3[k2, 0] + b3[0]`,

each product a plain sum over the contracted axis. On the extended reals a change of format to bf16 is the identity,
a product accumulated into the zero array is the plain sum (`0 + a = a`), a bias `[n] → [1, n] → [1024, n]` read at
`(p, c)` is the bias at `c`, and the word of zeros denotes `0`. So what the one point writes back is the whole of
`Cert.Spec.head` of the seven arrays, and its block covers the result array.
-/

/-! ## The three contractions: operand indices of output `(p, c)` at contraction coordinate `k` are `(p, k)` and `(k, c)` -/

theorem lhs1_row (i : S1024x512.Idx) (q : dot_S1024x328_S328x512_S1024x512_1_0_0_1_n_n.contr.Idx) :
    (dot_S1024x328_S328x512_S1024x512_1_0_0_1_n_n.lhsIdx i q 0).val = (i 0).val := by
  unfold DotDims.lhsIdx
  rw [dif_neg (show ¬(0 : Fin S1024x328.rank) ∈ dot_S1024x328_S328x512_S1024x512_1_0_0_1_n_n.lhsBatch by decide), dif_pos (show (0 : Fin S1024x328.rank) ∈ dot_S1024x328_S328x512_S1024x512_1_0_0_1_n_n.lhsNonContracting by decide)]
  rfl
theorem lhs1_contr (i : S1024x512.Idx) (q : dot_S1024x328_S328x512_S1024x512_1_0_0_1_n_n.contr.Idx) :
    (dot_S1024x328_S328x512_S1024x512_1_0_0_1_n_n.lhsIdx i q 1).val = (q ⟨0, by decide⟩).val :=
  dot_S1024x328_S328x512_S1024x512_1_0_0_1_n_n.lhsIdx_val_of_single rfl i q
theorem rhs1_contr (i : S1024x512.Idx) (q : dot_S1024x328_S328x512_S1024x512_1_0_0_1_n_n.contr.Idx) :
    (dot_S1024x328_S328x512_S1024x512_1_0_0_1_n_n.rhsIdx i q 0).val = (q ⟨0, by decide⟩).val :=
  dot_S1024x328_S328x512_S1024x512_1_0_0_1_n_n.rhsIdx_val_of_single rfl i q
theorem rhs1_col (i : S1024x512.Idx) (q : dot_S1024x328_S328x512_S1024x512_1_0_0_1_n_n.contr.Idx) :
    (dot_S1024x328_S328x512_S1024x512_1_0_0_1_n_n.rhsIdx i q 1).val = (i 1).val := by
  unfold DotDims.rhsIdx
  rw [dif_neg (show ¬(1 : Fin S328x512.rank) ∈ dot_S1024x328_S328x512_S1024x512_1_0_0_1_n_n.rhsBatch by decide), dif_pos (show (1 : Fin S328x512.rank) ∈ dot_S1024x328_S328x512_S1024x512_1_0_0_1_n_n.rhsNonContracting by decide)]
  rfl

theorem lhs2_row (i : S1024x256.Idx) (q : dot_S1024x512_S512x256_S1024x256_1_0_0_1_n_n.contr.Idx) :
    (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
theorem lhs2_contr (i : S1024x256.Idx) (q : dot_S1024x512_S512x256_S1024x256_1_0_0_1_n_n.contr.Idx) :
    (dot_S1024x512_S512x256_S1024x256_1_0_0_1_n_n.lhsIdx i q 1).val = (q ⟨0, by decide⟩).val :=
  dot_S1024x512_S512x256_S1024x256_1_0_0_1_n_n.lhsIdx_val_of_single rfl i q
theorem rhs2_contr (i : S1024x256.Idx) (q : dot_S1024x512_S512x256_S1024x256_1_0_0_1_n_n.contr.Idx) :
    (dot_S1024x512_S512x256_S1024x256_1_0_0_1_n_n.rhsIdx i q 0).val = (q ⟨0, by decide⟩).val :=
  dot_S1024x512_S512x256_S1024x256_1_0_0_1_n_n.rhsIdx_val_of_single rfl i q
theorem rhs2_col (i : S1024x256.Idx) (q : dot_S1024x512_S512x256_S1024x256_1_0_0_1_n_n.contr.Idx) :
    (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl

theorem lhs3_row (i : S1024x1.Idx) (q : dot_S1024x256_S256x1_S1024x1_1_0_0_1_n_n.contr.Idx) :
    (dot_S1024x256_S256x1_S1024x1_1_0_0_1_n_n.lhsIdx i q 0).val = (i 0).val := by
  unfold DotDims.lhsIdx
  rw [dif_neg (show ¬(0 : Fin S1024x256.rank) ∈ dot_S1024x256_S256x1_S1024x1_1_0_0_1_n_n.lhsBatch by decide), dif_pos (show (0 : Fin S1024x256.rank) ∈ dot_S1024x256_S256x1_S1024x1_1_0_0_1_n_n.lhsNonContracting by decide)]
  rfl
theorem lhs3_contr (i : S1024x1.Idx) (q : dot_S1024x256_S256x1_S1024x1_1_0_0_1_n_n.contr.Idx) :
    (dot_S1024x256_S256x1_S1024x1_1_0_0_1_n_n.lhsIdx i q 1).val = (q ⟨0, by decide⟩).val :=
  dot_S1024x256_S256x1_S1024x1_1_0_0_1_n_n.lhsIdx_val_of_single rfl i q
theorem rhs3_contr (i : S1024x1.Idx) (q : dot_S1024x256_S256x1_S1024x1_1_0_0_1_n_n.contr.Idx) :
    (dot_S1024x256_S256x1_S1024x1_1_0_0_1_n_n.rhsIdx i q 0).val = (q ⟨0, by decide⟩).val :=
  dot_S1024x256_S256x1_S1024x1_1_0_0_1_n_n.rhsIdx_val_of_single rfl i q
theorem rhs3_col (i : S1024x1.Idx) (q : dot_S1024x256_S256x1_S1024x1_1_0_0_1_n_n.contr.Idx) :
    (dot_S1024x256_S256x1_S1024x1_1_0_0_1_n_n.rhsIdx i q 1).val = (i 1).val := by
  unfold DotDims.rhsIdx
  rw [dif_neg (show ¬(1 : Fin S256x1.rank) ∈ dot_S1024x256_S256x1_S1024x1_1_0_0_1_n_n.rhsBatch by decide), dif_pos (show (1 : Fin S256x1.rank) ∈ dot_S1024x256_S256x1_S1024x1_1_0_0_1_n_n.rhsNonContracting by decide)]
  rfl

/-! ## Each product into the zero accumulator is the plain sum over the contracted axis -/

/-- Pooled features times first weights: `Σ_j x[p, j] · w[j, c]` over the 328 features. -/
theorem product1_apply (x : FVec Ideal S1024x328 .bf16) (w : FVec Ideal S328x512 .bf16) (p : Fin 1024) (c : Fin 512) :
    matmul dot_S1024x328_S328x512_S1024x512_1_0_0_1_n_n none x w (constant (F := Ideal) S1024x512 .f32 0x00000000#32) (ix2 p c)
      = ∑ j : Fin 328, x (ix2 p j) * w (ix2 j c) := by
  show FloatOps.matmul dot_S1024x328_S328x512_S1024x512_1_0_0_1_n_n none x w (constant (F := Ideal) S1024x512 .f32 0x00000000#32) (ix2 p c) = _
  rw [Ideal.matmul_constant_zero_apply, ← Equiv.sum_comp (contrEquiv1 dot_S1024x328_S328x512_S1024x512_1_0_0_1_n_n 328 rfl rfl).symm]
  refine Finset.sum_congr rfl fun k _ => ?_
  have hk := contrEquiv1_symm_val dot_S1024x328_S328x512_S1024x512_1_0_0_1_n_n 328 rfl rfl k
  have el : dot_S1024x328_S328x512_S1024x512_1_0_0_1_n_n.lhsIdx (ix2 p c) ((contrEquiv1 dot_S1024x328_S328x512_S1024x512_1_0_0_1_n_n 328 rfl rfl).symm k) = ix2 p k := funext fun a => Fin.ext (by
    match a with
    | ⟨0, _⟩ => exact lhs1_row _ _
    | ⟨1, _⟩ => exact (lhs1_contr _ _).trans hk)
  have er : dot_S1024x328_S328x512_S1024x512_1_0_0_1_n_n.rhsIdx (ix2 p c) ((contrEquiv1 dot_S1024x328_S328x512_S1024x512_1_0_0_1_n_n 328 rfl rfl).symm k) = ix2 k c := funext fun a => Fin.ext (by
    match a with
    | ⟨0, _⟩ => exact (rhs1_contr _ _).trans hk
    | ⟨1, _⟩ => exact rhs1_col _ _)
  rw [el, er]

/-- First hidden layer times second weights: `Σ_j x[p, j] · w[j, c]` over the 512 hidden units. -/
theorem product2_apply (x : FVec Ideal S1024x512 .bf16) (w : FVec Ideal S512x256 .bf16) (p : Fin 1024) (c : Fin 256) :
    matmul dot_S1024x512_S512x256_S1024x256_1_0_0_1_n_n none x w (constant (F := Ideal) S1024x256 .f32 0x00000000#32) (ix2 p c)
      = ∑ j : Fin 512, x (ix2 p j) * w (ix2 j c) := by
  show FloatOps.matmul dot_S1024x512_S512x256_S1024x256_1_0_0_1_n_n none x w (constant (F := Ideal) S1024x256 .f32 0x00000000#32) (ix2 p c) = _
  rw [Ideal.matmul_constant_zero_apply, ← Equiv.sum_comp (contrEquiv1 dot_S1024x512_S512x256_S1024x256_1_0_0_1_n_n 512 rfl rfl).symm]
  refine Finset.sum_congr rfl fun k _ => ?_
  have hk := contrEquiv1_symm_val dot_S1024x512_S512x256_S1024x256_1_0_0_1_n_n 512 rfl rfl k
  have el : dot_S1024x512_S512x256_S1024x256_1_0_0_1_n_n.lhsIdx (ix2 p c) ((contrEquiv1 dot_S1024x512_S512x256_S1024x256_1_0_0_1_n_n 512 rfl rfl).symm k) = ix2 p k := funext fun a => Fin.ext (by
    match a with
    | ⟨0, _⟩ => exact lhs2_row _ _
    | ⟨1, _⟩ => exact (lhs2_contr _ _).trans hk)
  have er : dot_S1024x512_S512x256_S1024x256_1_0_0_1_n_n.rhsIdx (ix2 p c) ((contrEquiv1 dot_S1024x512_S512x256_S1024x256_1_0_0_1_n_n 512 rfl rfl).symm k) = ix2 k c := funext fun a => Fin.ext (by
    match a with
    | ⟨0, _⟩ => exact (rhs2_contr _ _).trans hk
    | ⟨1, _⟩ => exact rhs2_col _ _)
  rw [el, er]

/-- Second hidden layer times the output column: `Σ_j x[p, j] · w[j, c]` over the 256 hidden units. -/
theorem product3_apply (x : FVec Ideal S1024x256 .bf16) (w : FVec Ideal S256x1 .bf16) (p : Fin 1024) (c : Fin 1) :
    matmul dot_S1024x256_S256x1_S1024x1_1_0_0_1_n_n none x w (constant (F := Ideal) S1024x1 .f32 0x00000000#32) (ix2 p c)
      = ∑ j : Fin 256, x (ix2 p j) * w (ix2 j c) := by
  show FloatOps.matmul dot_S1024x256_S256x1_S1024x1_1_0_0_1_n_n none x w (constant (F := Ideal) S1024x1 .f32 0x00000000#32) (ix2 p c) = _
  rw [Ideal.matmul_constant_zero_apply, ← Equiv.sum_comp (contrEquiv1 dot_S1024x256_S256x1_S1024x1_1_0_0_1_n_n 256 rfl rfl).symm]
  refine Finset.sum_congr rfl fun k _ => ?_
  have hk := contrEquiv1_symm_val dot_S1024x256_S256x1_S1024x1_1_0_0_1_n_n 256 rfl rfl k
  have el : dot_S1024x256_S256x1_S1024x1_1_0_0_1_n_n.lhsIdx (ix2 p c) ((contrEquiv1 dot_S1024x256_S256x1_S1024x1_1_0_0_1_n_n 256 rfl rfl).symm k) = ix2 p k := funext fun a => Fin.ext (by
    match a with
    | ⟨0, _⟩ => exact lhs3_row _ _
    | ⟨1, _⟩ => exact (lhs3_contr _ _).trans hk)
  have er : dot_S1024x256_S256x1_S1024x1_1_0_0_1_n_n.rhsIdx (ix2 p c) ((contrEquiv1 dot_S1024x256_S256x1_S1024x1_1_0_0_1_n_n 256 rfl rfl).symm k) = ix2 k c := funext fun a => Fin.ext (by
    match a with
    | ⟨0, _⟩ => exact (rhs3_contr _ _).trans hk
    | ⟨1, _⟩ => exact rhs3_col _ _)
  rw [el, er]

/-! ## Biases and the zero word -/

/-- A bias vector laid along every row, `[n] → [1, n] → [a, n]`, read at `(p, c)` is the bias at `c`. -/
theorem bias_apply {a n : ℕ} (b : (⟨1, ![n]⟩ : Shape).Idx → EReal) (h1 : (⟨1, ![n]⟩ : Shape).ShapeCasts ⟨2, ![1, n]⟩)
    (h2 : (⟨2, ![1, n]⟩ : Shape).Broadcasts ⟨2, ![a, n]⟩) (p : Fin a) (c : Fin n) :
    broadcastTo ⟨2, ![a, n]⟩ (shapeCast ⟨2, ![1, n]⟩ b h1) h2 (ix2 p c) = b (ix1 c) := by
  rw [broadcastTo_1b_ab_apply, shapeCast_a_1a_apply]

/-- The word of zeros denotes `0`. -/
theorem zero_word : (Scalar.ofBits (F := Ideal) .f32 0x00000000#32 : EReal) = 0 := Ideal.ofBits_zero_f32

/-! ## The body's payload at an index -/

/-- What the body computes from its seven loaded blocks, at row `p` and the one column `q`: the read-out network's sums. -/
theorem readout_apply (x0 : FVec Ideal S1024x328 .f32) (x1 : FVec Ideal S328x512 .f32) (x2 : FVec Ideal S512 .f32)
    (x3 : FVec Ideal S512x256 .f32) (x4 : FVec Ideal S256 .f32) (x5 : FVec Ideal S256x1 .f32) (x6 : FVec Ideal S1 .f32)
    (p : Fin 1024) (q : Fin 1) :
    k4_pay1 (F := Ideal) x0 x1 x2 x3 x4 x5 x6 (ix2 p q)
      = (∑ k2 : Fin 256,
          max ((∑ k1 : Fin 512, max ((∑ j : Fin 328, x0 (ix2 p j) * x1 (ix2 j k1)) + x2 (ix1 k1)) 0 * x3 (ix2 k1 k2)) + x4 (ix1 k2)) 0
            * x5 (ix2 k2 q))
        + x6 (ix1 q) := by
  unfold k4_pay1
  rw [addf_apply, product3_apply, bias_apply]
  refine congrArg (· + x6 (ix1 q)) (Finset.sum_congr rfl fun k2 _ => ?_)
  rw [truncf_apply, truncf_apply, maximumf_apply, broadcast_apply, zero_word, addf_apply, product2_apply, bias_apply]
  refine congrArg (fun s => max (s + x4 (ix1 k2)) 0 * x5 (ix2 k2 q)) (Finset.sum_congr rfl fun k1 _ => ?_)
  rw [truncf_apply, truncf_apply, maximumf_apply, broadcast_apply, addf_apply, product1_apply, bias_apply, shapeCast_self]
  refine congrArg (fun s => max (s + x2 (ix1 k1)) 0 * x3 (ix2 k1 k2)) (Finset.sum_congr rfl fun j _ => ?_)
  rw [truncf_apply, truncf_apply]

/-! ## From the one point's block to the array -/

theorem origin2 : (![0, 0] : Fin 2 → Nat) = fun _ => 0 := funext fun a => by fin_cases a <;> rfl
theorem origin1 : (![0] : Fin 1 → Nat) = fun _ => 0 := funext fun a => by fin_cases a; rfl

/-- Every window's index map is constantly the first block, on every axis (decided over the grid's one point). -/
theorem index_zero : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = 0 ∧ win4_3.index t (1 : Fin 2) = 0
    ∧ win4_4.index t (0 : Fin 1) = 0
    ∧ win4_5.index t (0 : Fin 2) = 0 ∧ win4_5.index t (1 : Fin 2) = 0
    ∧ win4_6.index t (0 : Fin 1) = 0
    ∧ win4_7.index t (0 : Fin 2) = 0 ∧ win4_7.index t (1 : Fin 2) = 0 :=
  (by decide +kernel : ∀ t : Fin grid4.N, _)

/-! Each input window's block, a coordinate of which is index × size + 1 × the coordinate inside, is its whole array. -/

/-- The pooled features' block is the whole array. -/
theorem block0 (c : Dev nD) (t : Fin cfg4.N) : iblk4 (F := Ideal) V c 0 t = V c (Pipeline.arrRef spec4 0) := by
  obtain ⟨e0_0, e0_1, e1_0, e1_1, e2_0, e3_0, e3_1, e4_0, e5_0, e5_1, e6_0, e7_0, e7_1⟩ := index_zero t
  funext y
  show V c (Pipeline.arrRef spec4 0) (((cfg4.win 0).blk t).view.emb y) = V c (Pipeline.arrRef spec4 0) y
  refine congrArg _ (funext fun a => Fin.ext ?_)
  match a with
  | ⟨0, _⟩ => show win4_0.index t (0 : Fin 2) * 1024 + 1 * (y 0).val = (y 0).val; omega
  | ⟨1, _⟩ => show win4_0.index t (1 : Fin 2) * 328 + 1 * (y 1).val = (y 1).val; omega

/-- The first weights' block is the whole array. -/
theorem block1 (c : Dev nD) (t : Fin cfg4.N) : iblk4 (F := Ideal) V c 1 t = V c (Pipeline.arrRef spec4 1) := by
  obtain ⟨e0_0, e0_1, e1_0, e1_1, e2_0, e3_0, e3_1, e4_0, e5_0, e5_1, e6_0, e7_0, e7_1⟩ := index_zero t
  funext y
  show V c (Pipeline.arrRef spec4 1) (((cfg4.win 1).blk t).view.emb y) = V c (Pipeline.arrRef spec4 1) y
  refine congrArg _ (funext fun a => Fin.ext ?_)
  match a with
  | ⟨0, _⟩ => show win4_1.index t (0 : Fin 2) * 328 + 1 * (y 0).val = (y 0).val; omega
  | ⟨1, _⟩ => show win4_1.index t (1 : Fin 2) * 512 + 1 * (y 1).val = (y 1).val; omega

/-- The first bias's block is the whole array. -/
theorem block2 (c : Dev nD) (t : Fin cfg4.N) : iblk4 (F := Ideal) V c 2 t = V c (Pipeline.arrRef spec4 2) := by
  obtain ⟨e0_0, e0_1, e1_0, e1_1, e2_0, e3_0, e3_1, e4_0, e5_0, e5_1, e6_0, e7_0, e7_1⟩ := index_zero t
  funext y
  show V c (Pipeline.arrRef spec4 2) (((cfg4.win 2).blk t).view.emb y) = V c (Pipeline.arrRef spec4 2) y
  refine congrArg _ (funext fun a => Fin.ext ?_)
  match a with
  | ⟨0, _⟩ => show win4_2.index t (0 : Fin 1) * 512 + 1 * (y 0).val = (y 0).val; omega

/-- The second weights' block is the whole array. -/
theorem block3 (c : Dev nD) (t : Fin cfg4.N) : iblk4 (F := Ideal) V c 3 t = V c (Pipeline.arrRef spec4 3) := by
  obtain ⟨e0_0, e0_1, e1_0, e1_1, e2_0, e3_0, e3_1, e4_0, e5_0, e5_1, e6_0, e7_0, e7_1⟩ := index_zero t
  funext y
  show V c (Pipeline.arrRef spec4 3) (((cfg4.win 3).blk t).view.emb y) = V c (Pipeline.arrRef spec4 3) y
  refine congrArg _ (funext fun a => Fin.ext ?_)
  match a with
  | ⟨0, _⟩ => show win4_3.index t (0 : Fin 2) * 512 + 1 * (y 0).val = (y 0).val; omega
  | ⟨1, _⟩ => show win4_3.index t (1 : Fin 2) * 256 + 1 * (y 1).val = (y 1).val; omega

/-- The second bias's block is the whole array. -/
theorem block4 (c : Dev nD) (t : Fin cfg4.N) : iblk4 (F := Ideal) V c 4 t = V c (Pipeline.arrRef spec4 4) := by
  obtain ⟨e0_0, e0_1, e1_0, e1_1, e2_0, e3_0, e3_1, e4_0, e5_0, e5_1, e6_0, e7_0, e7_1⟩ := index_zero t
  funext y
  show V c (Pipeline.arrRef spec4 4) (((cfg4.win 4).blk t).view.emb y) = V c (Pipeline.arrRef spec4 4) y
  refine congrArg _ (funext fun a => Fin.ext ?_)
  match a with
  | ⟨0, _⟩ => show win4_4.index t (0 : Fin 1) * 256 + 1 * (y 0).val = (y 0).val; omega

/-- The output column's block is the whole array. -/
theorem block5 (c : Dev nD) (t : Fin cfg4.N) : iblk4 (F := Ideal) V c 5 t = V c (Pipeline.arrRef spec4 5) := by
  obtain ⟨e0_0, e0_1, e1_0, e1_1, e2_0, e3_0, e3_1, e4_0, e5_0, e5_1, e6_0, e7_0, e7_1⟩ := index_zero t
  funext y
  show V c (Pipeline.arrRef spec4 5) (((cfg4.win 5).blk t).view.emb y) = V c (Pipeline.arrRef spec4 5) y
  refine congrArg _ (funext fun a => Fin.ext ?_)
  match a with
  | ⟨0, _⟩ => show win4_5.index t (0 : Fin 2) * 256 + 1 * (y 0).val = (y 0).val; omega
  | ⟨1, _⟩ => show win4_5.index t (1 : Fin 2) * 1 + 1 * (y 1).val = (y 1).val; omega

/-- The output bias's block is the whole array. -/
theorem block6 (c : Dev nD) (t : Fin cfg4.N) : iblk4 (F := Ideal) V c 6 t = V c (Pipeline.arrRef spec4 6) := by
  obtain ⟨e0_0, e0_1, e1_0, e1_1, e2_0, e3_0, e3_1, e4_0, e5_0, e5_1, e6_0, e7_0, e7_1⟩ := index_zero t
  funext y
  show V c (Pipeline.arrRef spec4 6) (((cfg4.win 6).blk t).view.emb y) = V c (Pipeline.arrRef spec4 6) y
  refine congrArg _ (funext fun a => Fin.ext ?_)
  match a with
  | ⟨0, _⟩ => show win4_6.index t (0 : Fin 1) * 1 + 1 * (y 0).val = (y 0).val; omega

/-- The result window's block is the whole array too: a block index is the array index. -/
theorem result_emb (t : Fin cfg4.N) (p : Fin 1024) (q : Fin 1) : ((cfg4.win 7).blk t).view.emb (ix2 p q) = ix2 p q := by
  obtain ⟨e0_0, e0_1, e1_0, e1_1, e2_0, e3_0, e3_1, e4_0, e5_0, e5_1, e6_0, e7_0, e7_1⟩ := index_zero t
  refine funext fun a => Fin.ext ?_
  match a with
  | ⟨0, _⟩ => show win4_7.index t (0 : Fin 2) * 1024 + 1 * p.val = p.val; omega
  | ⟨1, _⟩ => show win4_7.index t (1 : Fin 2) * 1 + 1 * q.val = q.val; omega

/-- What the body leaves in the result window's buffer is the payload of the loaded blocks: one store over the whole
    buffer, every load through the whole block. -/
theorem stored_eq (x0 : Vec Ideal S1024x328 .f32) (x1 : Vec Ideal S328x512 .f32) (x2 : Vec Ideal S512 .f32)
    (x3 : Vec Ideal S512x256 .f32) (x4 : Vec Ideal S256 .f32) (x5 : Vec Ideal S256x1 .f32) (x6 : Vec Ideal S1 .f32) :
    out4_7 (F := Ideal) x0 x1 x2 x3 x4 x5 x6 = k4_pay1 (F := Ideal) x0 x1 x2 x3 x4 x5 x6 := by
  unfold out4_7
  rw [View.canon_unit_zero origin2]
  simp only [View.ld_unit_zero (S := S1024x328) origin2, View.ld_unit_zero (S := S328x512) origin2, View.ld_unit_zero (S := S512) origin1,
    View.ld_unit_zero (S := S512x256) origin2, View.ld_unit_zero (S := S256) origin1, View.ld_unit_zero (S := S256x1) origin2,
    View.ld_unit_zero (S := S1) origin1]

set_option maxHeartbeats 1000000 in
/-- WHAT THE ONE POINT WRITES BACK is its block of the read-out network of the seven arrays as the region finds them. -/
theorem written_back (c : Dev nD) (t : Fin cfg4.N) :
    (dat4 (F := Ideal) V c).flushed 7 t = ((cfg4.win 7).blk t).view.read (Elt Ideal)
      (Cert.Spec.head (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5)) (V c (Pipeline.arrRef spec4 6))) := by
  show (cfg4.win 7).cut (grid4.coords t) ((dat4 (F := Ideal) V c).after 7 t) = _
  rw [after4_7, block0, block1, block2, block3, block4, block5, block6]
  rw [stored_eq (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6))]
  funext y
  obtain ⟨p, q, rfl⟩ : ∃ (p : Fin 1024) (q : Fin 1), y = ix2 p q := ⟨y 0, y 1, eq_ix2 y⟩
  show k4_pay1 (F := Ideal) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (ix2 p q)
    = Cert.Spec.head (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (((cfg4.win 7).blk t).view.emb (ix2 p q))
  rw [result_emb t p q]
  exact readout_apply (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) p q

/-- An index of the result array is in the point's block iff each coordinate is in the block's range on its axis. -/
theorem mem_result_block (t : Fin cfg4.N) (i : S1024x1.Idx) :
    i ∈ ((cfg4.win 7).blk t).view.set ↔ ∀ a : Fin 2, win4_7.index t a * S1024x1.size a ≤ (i a).val ∧ (i a).val < win4_7.index t a * S1024x1.size a + S1024x1.size a := by
  show i ∈ ((View.whole main_v45).slice (win4_7.rect t)).set ↔ _
  rw [View.set_slice_whole, Rect.mem_set_unit]
  exact Iff.rfl

/-- The array region 4 leaves: the read-out network of the pooled features it found, row by row. -/
theorem final4 (c : Dev nD) :
    (dat4 (F := Ideal) V c).arrAt 7 cfg4.N = Cert.Spec.head (V c (Pipeline.arrRef spec4 0)) (V c (Pipeline.arrRef spec4 1))
      (V c (Pipeline.arrRef spec4 2)) (V c (Pipeline.arrRef spec4 3)) (V c (Pipeline.arrRef spec4 4)) (V c (Pipeline.arrRef spec4 5)) (V c (Pipeline.arrRef spec4 6)) :=
  (dat4 (F := Ideal) V c).arrAt_eq_of_cover 7 _ (fun t _ => written_back V c t) fun i => by
    have hN : 0 < cfg4.N := by decide
    refine ⟨⟨0, hN⟩, flush4_7 _, ?_⟩
    obtain ⟨e0_0, e0_1, e1_0, e1_1, e2_0, e3_0, e3_1, e4_0, e5_0, e5_1, e6_0, e7_0, e7_1⟩ := index_zero ⟨0, hN⟩
    rw [mem_result_block]
    intro a
    have h0 : (i 0).val < 1024 := (i 0).isLt
    have h1 : (i 1).val < 1 := (i 1).isLt
    match a with
    | ⟨0, _⟩ => show win4_7.index ⟨0, hN⟩ (0 : Fin 2) * 1024 ≤ (i 0).val ∧ (i 0).val < win4_7.index ⟨0, hN⟩ (0 : Fin 2) * 1024 + 1024; omega
    | ⟨1, _⟩ => show win4_7.index ⟨0, hN⟩ (1 : Fin 2) * 1 ≤ (i 1).val ∧ (i 1).val < win4_7.index ⟨0, hN⟩ (1 : Fin 2) * 1 + 1; omega

end Cert.KernelIdeal.KReg4

end
-- ==== Proof.KHost.lean ====
/-
  The array code the idealized kernel's program runs BETWEEN its dense blocks, read back as functions of the buffers it
  starts from. Between the embeddings and layer 1, and again between the layers: the edge list's two rows (source and
  destination node of every edge), the source row wrapped if negative, the source nodes' feature rows gathered, the edge
  features added, the sum cut off below at 0, and the result added into the destination nodes' rows of a zero array.
  Before the read-out: the node rows summed per graph, divided by the per-graph node count (at least 1), joined with the
  graph features. Each is ONE function of the three (or four) arrays it reads, whatever the other buffers hold.
-/
import proofs.«412659_j22162031247392_2_alg».proof.Proof.Gen.KernelIdeal.Frame
import Idealize.ShloMosaic.PureOps.Ideal
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.SL.Sem Idealize.ShloMosaic.StableHlo

variable {F : FTy → Type} [FloatOps F]

/-- Source node of every edge: row 0 of the edge list. -/
def srcIdx (ei : (⟨S2x640000, .i32⟩ : BufTy).Contents (Elt F)) : (⟨S640000, .i32⟩ : BufTy).Contents (Elt F) :=
  shapeCast S640000 (extractStridedSlice S1x640000 ![0, 0] ei slices_S2x640000_S1x640000_0_0) shapeCasts_S1x640000_S640000

/-- Destination node of every edge: row 1 of the edge list. -/
def dstIdx (ei : (⟨S2x640000, .i32⟩ : BufTy).Contents (Elt F)) : (⟨S640000, .i32⟩ : BufTy).Contents (Elt F) :=
  shapeCast S640000 (extractStridedSlice S1x640000 ![1, 0] ei slices_S2x640000_S1x640000_1_0) shapeCasts_S1x640000_S640000

/-- One layer's aggregated messages from node rows `X`, edge rows `EA`, sources `s` and destinations `d`. -/
def aggOf (X : (⟨S50000x128, .f32⟩ : BufTy).Contents (Elt F)) (EA : (⟨S640000x128, .f32⟩ : BufTy).Contents (Elt F)) (s d : (⟨S640000, .i32⟩ : BufTy).Contents (Elt F)) : (⟨S50000x128, .f32⟩ : BufTy).Contents (Elt F) :=
  Host.scatterAdd (F := F) scatter_S50000x128_S640000x1_S640000x128_1_0_0_1
    (broadcastInDim S50000x128 ![] bcast_S_S50000x128 (constant (F := F) S_ .f32 0x00000000#32))
    (broadcastInDim S640000x1 ![0] bcast_S640000_S640000x1_0 d)
    (maximumf (F := F)
      (addf (F := F)
        (Host.gather gather_S50000x128_S640000x1_S640000x128_1_0_n_n_0_1_1128 X
          (broadcastInDim S640000x1 ![0] bcast_S640000_S640000x1_0
            (select (cmpi .slt s (broadcastInDim S640000 ![] bcast_S_S640000 (constantI S_ 32 0#32)))
              (addi s (broadcastInDim S640000 ![] bcast_S_S640000 (constantI S_ 32 50000#32))) s)))
        EA)
      (broadcastInDim S640000x128 ![] bcast_S_S640000x128 (constant (F := F) S_ .f32 0x00000000#32)))

/-- The per-graph mean of the node rows `X` (graph index `b`) joined with the graph features `r`. -/
def poolOf (X : (⟨S50000x128, .f32⟩ : BufTy).Contents (Elt F)) (b : (⟨S50000, .i32⟩ : BufTy).Contents (Elt F)) (r : (⟨S1024x200, .f32⟩ : BufTy).Contents (Elt F)) : (⟨S1024x328, .f32⟩ : BufTy).Contents (Elt F) :=
  concatenate S1024x328 1
    [⟨S1024x128, Host.divf (F := F)
        (Host.scatterAdd (F := F) scatter_S1024x128_S50000x1_S50000x128_1_0_0_1
          (broadcastInDim S1024x128 ![] bcast_S_S1024x128 (constant (F := F) S_ .f32 0x00000000#32))
          (broadcastInDim S50000x1 ![0] bcast_S50000_S50000x1_0 b) X)
        (broadcastInDim S1024x128 ![0, 1] bcast_S1024x1_S1024x128_0_1
          (broadcastInDim S1024x1 ![0] bcast_S1024_S1024x1_0
            (maximumf (F := F)
              (Host.scatterAdd (F := F) scatter_S1024_S50000x1_S50000_n_0_0_1
                (broadcastInDim S1024 ![] bcast_S_S1024 (constant (F := F) S_ .f32 0x00000000#32))
                (broadcastInDim S50000x1 ![0] bcast_S50000_S50000x1_0 b)
                (broadcastInDim S50000 ![] bcast_S_S50000 (constant (F := F) S_ .f32 0x3F800000#32)))
              (broadcastInDim S1024 ![] bcast_S_S1024 (constant (F := F) S_ .f32 0x3F800000#32)))))⟩,
     ⟨S1024x200, r⟩] concatenates_S1024x128_S1024x200_S1024x328_d1

variable (W : Valuation τ sig (Elt F))

/-! ## The stretch before layer 1 -/

theorem s2_v3 : StableHlo.after hostOps2 W (Proc.devRef .tc main_v3) = srcIdx (W (Proc.devRef .tc main_arg1)) := by
  after_results; rfl
theorem s2_v5 : StableHlo.after hostOps2 W (Proc.devRef .tc main_v5) = dstIdx (W (Proc.devRef .tc main_arg1)) := by
  after_results; rfl
theorem s2_v13 : StableHlo.after hostOps2 W (Proc.devRef .tc main_v13)
    = addf (F := F) (φ := .f32) (Host.gather gather_S50000x128_S640000x1_S640000x128_1_0_n_n_0_1_1128 (W (Proc.devRef .tc main_v0))
        (broadcastInDim S640000x1 ![0] bcast_S640000_S640000x1_0
          (select (cmpi .slt (srcIdx (W (Proc.devRef .tc main_arg1))) (broadcastInDim S640000 ![] bcast_S_S640000 (constantI S_ 32 0#32)))
            (addi (srcIdx (W (Proc.devRef .tc main_arg1))) (broadcastInDim S640000 ![] bcast_S_S640000 (constantI S_ 32 50000#32))) (srcIdx (W (Proc.devRef .tc main_arg1))))))
      (W (Proc.devRef .tc main_v1)) := by
  after_results; rfl
theorem s21_v14 : StableHlo.after hostOps2_1 W (Proc.devRef .tc main_v14)
    = maximumf (F := F) (W (Proc.devRef .tc main_v13)) (broadcastInDim S640000x128 ![] bcast_S_S640000x128 (constant (F := F) S_ .f32 0x00000000#32)) := by
  after_results; rfl
theorem s21_v5 : StableHlo.after hostOps2_1 W (Proc.devRef .tc main_v5) = W (Proc.devRef .tc main_v5) := by
  after_results
theorem s22_v17 : StableHlo.after hostOps2_2 W (Proc.devRef .tc main_v17)
    = Host.scatterAdd (F := F) scatter_S50000x128_S640000x1_S640000x128_1_0_0_1
        (broadcastInDim S50000x128 ![] bcast_S_S50000x128 (constant (F := F) S_ .f32 0x00000000#32))
        (broadcastInDim S640000x1 ![0] bcast_S640000_S640000x1_0 (W (Proc.devRef .tc main_v5)))
        (W (Proc.devRef .tc main_v14)) := by
  after_results

/-- Through the three lists before layer 1 the messages are `aggOf` of the node rows, the edge rows and the edge list's rows. -/
theorem agg2 : StableHlo.after hostOps2_2 (StableHlo.after hostOps2_1 (StableHlo.after hostOps2 W)) (Proc.devRef .tc main_v17)
    = aggOf (W (Proc.devRef .tc main_v0)) (W (Proc.devRef .tc main_v1)) (srcIdx (W (Proc.devRef .tc main_arg1))) (dstIdx (W (Proc.devRef .tc main_arg1))) := by
  rw [s22_v17, s21_v5, s2_v5, s21_v14, s2_v13]; rfl

/-- The same three lists leave the edge list's two rows in their buffers (layer 2 reads them again). -/
theorem src2 : StableHlo.after hostOps2_2 (StableHlo.after hostOps2_1 (StableHlo.after hostOps2 W)) (Proc.devRef .tc main_v3)
    = srcIdx (W (Proc.devRef .tc main_arg1)) := by
  rw [show StableHlo.after hostOps2_2 (StableHlo.after hostOps2_1 (StableHlo.after hostOps2 W)) (Proc.devRef .tc main_v3)
      = StableHlo.after hostOps2 W (Proc.devRef .tc main_v3) from by after_results, s2_v3]
theorem dst2 : StableHlo.after hostOps2_2 (StableHlo.after hostOps2_1 (StableHlo.after hostOps2 W)) (Proc.devRef .tc main_v5)
    = dstIdx (W (Proc.devRef .tc main_arg1)) := by
  rw [show StableHlo.after hostOps2_2 (StableHlo.after hostOps2_1 (StableHlo.after hostOps2 W)) (Proc.devRef .tc main_v5)
      = StableHlo.after hostOps2 W (Proc.devRef .tc main_v5) from by after_results, s2_v5]

set_option maxHeartbeats 4000000 in
/-- What those three lists do not write they leave as it was. -/
theorem pass2 (b : Ref sig .tc) (hb : b ∈ [main_v0, main_v1, main_arg3, main_arg4, main_arg7, main_arg8, main_arg9, main_arg10, main_arg11, main_arg12, main_arg13, main_arg14, main_arg15, main_arg16, main_arg17, main_arg18, main_arg19, main_arg20]) :
    StableHlo.after hostOps2_2 (StableHlo.after hostOps2_1 (StableHlo.after hostOps2 W)) (Proc.devRef .tc b) = W (Proc.devRef .tc b) := by
  simp only [List.mem_cons, List.mem_nil_iff, or_false] at hb
  rcases hb with rfl | rfl | rfl | rfl | rfl | rfl | rfl | rfl | rfl | rfl | rfl | rfl | rfl | rfl | rfl | rfl | rfl | rfl
  all_goals after_results

/-! ## The stretch before layer 2 -/

theorem s3_v26 : StableHlo.after hostOps3 W (Proc.devRef .tc main_v26)
    = addf (F := F) (φ := .f32) (Host.gather gather_S50000x128_S640000x1_S640000x128_1_0_n_n_0_1_1128 (W (Proc.devRef .tc main_v18))
        (broadcastInDim S640000x1 ![0] bcast_S640000_S640000x1_0
          (select (cmpi .slt (W (Proc.devRef .tc main_v3)) (broadcastInDim S640000 ![] bcast_S_S640000 (constantI S_ 32 0#32)))
            (addi (W (Proc.devRef .tc main_v3)) (broadcastInDim S640000 ![] bcast_S_S640000 (constantI S_ 32 50000#32))) (W (Proc.devRef .tc main_v3)))))
      (W (Proc.devRef .tc main_v1)) := by
  after_results
theorem s3_v5 : StableHlo.after hostOps3 W (Proc.devRef .tc main_v5) = W (Proc.devRef .tc main_v5) := by
  after_results
theorem s31_v27 : StableHlo.after hostOps3_1 W (Proc.devRef .tc main_v27)
    = maximumf (F := F) (W (Proc.devRef .tc main_v26)) (broadcastInDim S640000x128 ![] bcast_S_S640000x128 (constant (F := F) S_ .f32 0x00000000#32)) := by
  after_results; rfl
theorem s31_v5 : StableHlo.after hostOps3_1 W (Proc.devRef .tc main_v5) = W (Proc.devRef .tc main_v5) := by
  after_results
theorem s32_v30 : StableHlo.after hostOps3_2 W (Proc.devRef .tc main_v30)
    = Host.scatterAdd (F := F) scatter_S50000x128_S640000x1_S640000x128_1_0_0_1
        (broadcastInDim S50000x128 ![] bcast_S_S50000x128 (constant (F := F) S_ .f32 0x00000000#32))
        (broadcastInDim S640000x1 ![0] bcast_S640000_S640000x1_0 (W (Proc.devRef .tc main_v5)))
        (W (Proc.devRef .tc main_v27)) := by
  after_results

/-- Through the three lists before layer 2 the messages are `aggOf` of layer 1's rows, the edge rows and the two index rows kept from before. -/
theorem agg3 : StableHlo.after hostOps3_2 (StableHlo.after hostOps3_1 (StableHlo.after hostOps3 W)) (Proc.devRef .tc main_v30)
    = aggOf (W (Proc.devRef .tc main_v18)) (W (Proc.devRef .tc main_v1)) (W (Proc.devRef .tc main_v3)) (W (Proc.devRef .tc main_v5)) := by
  rw [s32_v30, s31_v5, s3_v5, s31_v27, s3_v26]; rfl

set_option maxHeartbeats 4000000 in
theorem pass3 (b : Ref sig .tc) (hb : b ∈ [main_v18, main_arg3, main_arg4, main_arg11, main_arg12, main_arg13, main_arg14, main_arg15, main_arg16, main_arg17, main_arg18, main_arg19, main_arg20]) :
    StableHlo.after hostOps3_2 (StableHlo.after hostOps3_1 (StableHlo.after hostOps3 W)) (Proc.devRef .tc b) = W (Proc.devRef .tc b) := by
  simp only [List.mem_cons, List.mem_nil_iff, or_false] at hb
  rcases hb with rfl | rfl | rfl | rfl | rfl | rfl | rfl | rfl | rfl | rfl | rfl | rfl | rfl
  all_goals after_results

/-! ## The stretch before the read-out -/

set_option maxHeartbeats 4000000 in
theorem pool4 : StableHlo.after hostOps4 W (Proc.devRef .tc main_v44)
    = poolOf (W (Proc.devRef .tc main_v31)) (W (Proc.devRef .tc main_arg3)) (W (Proc.devRef .tc main_arg4)) := by
  after_results_simp
  rfl

set_option maxHeartbeats 4000000 in
theorem pass4 (b : Ref sig .tc) (hb : b ∈ [main_arg15, main_arg16, main_arg17, main_arg18, main_arg19, main_arg20]) :
    StableHlo.after hostOps4 W (Proc.devRef .tc b) = W (Proc.devRef .tc b) := by
  simp only [List.mem_cons, List.mem_nil_iff, or_false] at hb
  rcases hb with rfl | rfl | rfl | rfl | rfl | rfl
  all_goals after_results

end Cert.KernelIdeal.KHost

end
-- ==== Proof.KNet.lean ====
/-
  The idealized kernel's result as ONE function of its argument arrays: the regions' values (the dense blocks, each read
  back from its pipeline's write-backs) chained through the array code between them, every argument buffer unchanged
  all the way (no region and no list of operations writes one).
-/
import proofs.«412659_j22162031247392_2_alg».proof.Proof.Gen.KernelIdeal.Frame
import proofs.«412659_j22162031247392_2_alg».proof.Proof.Spec
import proofs.«412659_j22162031247392_2_alg».proof.Proof.KReg0
import proofs.«412659_j22162031247392_2_alg».proof.Proof.KReg1
import proofs.«412659_j22162031247392_2_alg».proof.Proof.KReg2
import proofs.«412659_j22162031247392_2_alg».proof.Proof.KReg3
import proofs.«412659_j22162031247392_2_alg».proof.Proof.KReg4
import proofs.«412659_j22162031247392_2_alg».proof.Proof.KHost

set_option maxRecDepth 16384

noncomputable section

namespace Cert.KernelIdeal.KNet

open Cert.KernelIdeal Cert.KernelIdeal.Gen Cert.KernelIdeal.KHost
open Idealize.ShloMosaic Idealize.ShloMosaic.TcCoe Idealize.SL.Sem Idealize.ShloMosaic.StableHlo

/-- Node features after layer 1, from the arguments. -/
def nodes1 (x0 : (⟨S50000x9, .i32⟩ : BufTy).Contents (Elt Ideal)) (x1 : (⟨S2x640000, .i32⟩ : BufTy).Contents (Elt Ideal)) (x2 : (⟨S640000x3, .i32⟩ : BufTy).Contents (Elt Ideal)) (x5 : (⟨S9x64x128, .f32⟩ : BufTy).Contents (Elt Ideal)) (x6 : (⟨S3x16x128, .f32⟩ : BufTy).Contents (Elt Ideal))
    (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) : (⟨S50000x128, .f32⟩ : BufTy).Contents (Elt Ideal) :=
  Cert.Spec.gine (Cert.Spec.atomEmb x0 x5) (aggOf (Cert.Spec.atomEmb x0 x5) (Cert.Spec.bondEmb x2 x6) (srcIdx x1) (dstIdx x1)) x7 x8 x9 x10

/-- Node features after layer 2, from the arguments. -/
def nodes2 (x0 : (⟨S50000x9, .i32⟩ : BufTy).Contents (Elt Ideal)) (x1 : (⟨S2x640000, .i32⟩ : BufTy).Contents (Elt Ideal)) (x2 : (⟨S640000x3, .i32⟩ : BufTy).Contents (Elt Ideal)) (x5 : (⟨S9x64x128, .f32⟩ : BufTy).Contents (Elt Ideal)) (x6 : (⟨S3x16x128, .f32⟩ : BufTy).Contents (Elt Ideal))
    (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal))
    (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) : (⟨S50000x128, .f32⟩ : BufTy).Contents (Elt Ideal) :=
  Cert.Spec.gine (nodes1 x0 x1 x2 x5 x6 x7 x8 x9 x10) (aggOf (nodes1 x0 x1 x2 x5 x6 x7 x8 x9 x10) (Cert.Spec.bondEmb x2 x6) (srcIdx x1) (dstIdx x1)) x11 x12 x13 x14

variable (m : (ℓ : Loc nD τ sig) → Buf (Elt Ideal) ℓ) (ρ : Dev nD → PrngReg) (c : Dev nD)

/-! ## Buffers nobody writes keep their launch contents -/

theorem lvl1 (b : Ref sig .tc) (h0 : ∀ w, Pipeline.arrRef spec0 w ≠ b) : W1 m ρ c (Proc.devRef .tc b) = m ((c : Thread nD τ).loc b) :=
  (W1_of_ne m ρ c b h0).trans rfl
theorem lvl2 (b : Ref sig .tc) (h0 : ∀ w, Pipeline.arrRef spec0 w ≠ b) (h1 : ∀ w, Pipeline.arrRef spec1 w ≠ b) :
    W2 m ρ c (Proc.devRef .tc b) = m ((c : Thread nD τ).loc b) :=
  (W2_of_ne m ρ c b h1).trans (lvl1 m ρ c b h0)
theorem lvl5 (b : Ref sig .tc) (hb : b ∈ [main_v0, main_v1, main_arg3, main_arg4, main_arg7, main_arg8, main_arg9, main_arg10, main_arg11, main_arg12, main_arg13, main_arg14, main_arg15, main_arg16, main_arg17, main_arg18, main_arg19, main_arg20])
    (h0 : ∀ w, Pipeline.arrRef spec0 w ≠ b) (h1 : ∀ w, Pipeline.arrRef spec1 w ≠ b) :
    W5 m ρ c (Proc.devRef .tc b) = m ((c : Thread nD τ).loc b) :=
  (pass2 (W2 m ρ c) b hb).trans (lvl2 m ρ c b h0 h1)
theorem lvl6 (b : Ref sig .tc) (hb : b ∈ [main_v0, main_v1, main_arg3, main_arg4, main_arg7, main_arg8, main_arg9, main_arg10, main_arg11, main_arg12, main_arg13, main_arg14, main_arg15, main_arg16, main_arg17, main_arg18, main_arg19, main_arg20])
    (h0 : ∀ w, Pipeline.arrRef spec0 w ≠ b) (h1 : ∀ w, Pipeline.arrRef spec1 w ≠ b) (h2 : ∀ w, Pipeline.arrRef spec2 w ≠ b) :
    W6 m ρ c (Proc.devRef .tc b) = m ((c : Thread nD τ).loc b) :=
  (W6_of_ne m ρ c b h2).trans (lvl5 m ρ c b hb h0 h1)
theorem lvl9 (b : Ref sig .tc) (hb : b ∈ [main_v0, main_v1, main_arg3, main_arg4, main_arg7, main_arg8, main_arg9, main_arg10, main_arg11, main_arg12, main_arg13, main_arg14, main_arg15, main_arg16, main_arg17, main_arg18, main_arg19, main_arg20])
    (hb3 : b ∈ [main_v18, main_arg3, main_arg4, main_arg11, main_arg12, main_arg13, main_arg14, main_arg15, main_arg16, main_arg17, main_arg18, main_arg19, main_arg20])
    (h0 : ∀ w, Pipeline.arrRef spec0 w ≠ b) (h1 : ∀ w, Pipeline.arrRef spec1 w ≠ b) (h2 : ∀ w, Pipeline.arrRef spec2 w ≠ b) :
    W9 m ρ c (Proc.devRef .tc b) = m ((c : Thread nD τ).loc b) :=
  (pass3 (W6 m ρ c) b hb3).trans (lvl6 m ρ c b hb h0 h1 h2)
theorem lvl10 (b : Ref sig .tc) (hb : b ∈ [main_v0, main_v1, main_arg3, main_arg4, main_arg7, main_arg8, main_arg9, main_arg10, main_arg11, main_arg12, main_arg13, main_arg14, main_arg15, main_arg16, main_arg17, main_arg18, main_arg19, main_arg20])
    (hb3 : b ∈ [main_v18, main_arg3, main_arg4, main_arg11, main_arg12, main_arg13, main_arg14, main_arg15, main_arg16, main_arg17, main_arg18, main_arg19, main_arg20])
    (h0 : ∀ w, Pipeline.arrRef spec0 w ≠ b) (h1 : ∀ w, Pipeline.arrRef spec1 w ≠ b) (h2 : ∀ w, Pipeline.arrRef spec2 w ≠ b) (h3 : ∀ w, Pipeline.arrRef spec3 w ≠ b) :
    W10 m ρ c (Proc.devRef .tc b) = m ((c : Thread nD τ).loc b) :=
  (W10_of_ne m ρ c b h3).trans (lvl9 m ρ c b hb hb3 h0 h1 h2)
theorem lvl11 (b : Ref sig .tc) (hb : b ∈ [main_v0, main_v1, main_arg3, main_arg4, main_arg7, main_arg8, main_arg9, main_arg10, main_arg11, main_arg12, main_arg13, main_arg14, main_arg15, main_arg16, main_arg17, main_arg18, main_arg19, main_arg20])
    (hb3 : b ∈ [main_v18, main_arg3, main_arg4, main_arg11, main_arg12, main_arg13, main_arg14, main_arg15, main_arg16, main_arg17, main_arg18, main_arg19, main_arg20])
    (hb4 : b ∈ [main_arg15, main_arg16, main_arg17, main_arg18, main_arg19, main_arg20])
    (h0 : ∀ w, Pipeline.arrRef spec0 w ≠ b) (h1 : ∀ w, Pipeline.arrRef spec1 w ≠ b) (h2 : ∀ w, Pipeline.arrRef spec2 w ≠ b) (h3 : ∀ w, Pipeline.arrRef spec3 w ≠ b) :
    W11 m ρ c (Proc.devRef .tc b) = m ((c : Thread nD τ).loc b) :=
  (pass4 (W10 m ρ c) b hb4).trans (lvl10 m ρ c b hb hb3 h0 h1 h2 h3)

/-! ## The values, region by region -/

variable (hx0 : ∀ i, (m ((c : Thread nD τ).loc main_arg0) i).toNat < 64) (hx2 : ∀ i, (m ((c : Thread nD τ).loc main_arg2) i).toNat < 16)
include hx0 hx2

/-- The embedded node features, as region 0 leaves them. -/
theorem nodes0_eq : W1 m ρ c (Proc.devRef .tc main_v0) = Cert.Spec.atomEmb (m ((c : Thread nD τ).loc main_arg0)) (m ((c : Thread nD τ).loc main_arg5)) :=
  (W1_arr m ρ c 2).trans (Cert.KernelIdeal.KReg0.final0 (V0 m ρ) c hx0)

/-- The embedded edge features, as region 1 leaves them. -/
theorem edges_eq : W2 m ρ c (Proc.devRef .tc main_v1) = Cert.Spec.bondEmb (m ((c : Thread nD τ).loc main_arg2)) (m ((c : Thread nD τ).loc main_arg6)) := by
  have e2 : V1 m ρ c main_arg2 = (m ((c : Thread nD τ).loc main_arg2)) := lvl1 m ρ c main_arg2 (by decide)
  have e6 : V1 m ρ c main_arg6 = (m ((c : Thread nD τ).loc main_arg6)) := lvl1 m ρ c main_arg6 (by decide)
  have h := Cert.KernelIdeal.KReg1.final1 (V1 m ρ) c (fun i => by
    have := hx2 i
    rw [← e2] at this
    exact this)
  refine (W2_arr m ρ c 2).trans (h.trans ?_)
  show Cert.Spec.bondEmb (V1 m ρ c main_arg2) (V1 m ρ c main_arg6) = _
  rw [e2, e6]

/-- The node features still in their buffer when layer 1 starts. -/
theorem nodes0_at2 : W2 m ρ c (Proc.devRef .tc main_v0) = (Cert.Spec.atomEmb (m ((c : Thread nD τ).loc main_arg0)) (m ((c : Thread nD τ).loc main_arg5))) :=
  (W2_of_ne m ρ c main_v0 (by decide)).trans (nodes0_eq m ρ c hx0 hx2)

/-- Layer 1's messages. -/
theorem agg1_eq : V5 m ρ c main_v17 = aggOf (Cert.Spec.atomEmb (m ((c : Thread nD τ).loc main_arg0)) (m ((c : Thread nD τ).loc main_arg5))) (Cert.Spec.bondEmb (m ((c : Thread nD τ).loc main_arg2)) (m ((c : Thread nD τ).loc main_arg6))) (srcIdx (m ((c : Thread nD τ).loc main_arg1))) (dstIdx (m ((c : Thread nD τ).loc main_arg1))) := by
  have h := agg2 (W2 m ρ c)
  rw [nodes0_at2 m ρ c hx0 hx2, edges_eq m ρ c hx0 hx2, lvl2 m ρ c main_arg1 (by decide) (by decide)] at h
  exact h

/-- Layer 1's output, as region 2 leaves it. -/
theorem nodes1_eq : W6 m ρ c (Proc.devRef .tc main_v18) = (nodes1 (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  have h := Cert.KernelIdeal.KReg2.final2 (V5 m ρ) c
  have e0 : V5 m ρ c main_v0 = (Cert.Spec.atomEmb (m ((c : Thread nD τ).loc main_arg0)) (m ((c : Thread nD τ).loc main_arg5))) := (pass2 (W2 m ρ c) main_v0 (by decide)).trans (nodes0_at2 m ρ c hx0 hx2)
  have e7 : V5 m ρ c main_arg7 = (m ((c : Thread nD τ).loc main_arg7)) := lvl5 m ρ c main_arg7 (by decide) (by decide) (by decide)
  have e8 : V5 m ρ c main_arg8 = (m ((c : Thread nD τ).loc main_arg8)) := lvl5 m ρ c main_arg8 (by decide) (by decide) (by decide)
  have e9 : V5 m ρ c main_arg9 = (m ((c : Thread nD τ).loc main_arg9)) := lvl5 m ρ c main_arg9 (by decide) (by decide) (by decide)
  have e10 : V5 m ρ c main_arg10 = (m ((c : Thread nD τ).loc main_arg10)) := lvl5 m ρ c main_arg10 (by decide) (by decide) (by decide)
  refine (W6_arr m ρ c 6).trans (h.trans ?_)
  show Cert.Spec.gine (V5 m ρ c main_v0) (V5 m ρ c main_v17) (V5 m ρ c main_arg7) (V5 m ρ c main_arg8) (V5 m ρ c main_arg9) (V5 m ρ c main_arg10) = _
  rw [e0, agg1_eq m ρ c hx0 hx2, e7, e8, e9, e10]
  rfl

/-- The edge features and the edge list's rows still in their buffers when layer 2 starts. -/
theorem edges_at6 : W6 m ρ c (Proc.devRef .tc main_v1) = (Cert.Spec.bondEmb (m ((c : Thread nD τ).loc main_arg2)) (m ((c : Thread nD τ).loc main_arg6))) :=
  (W6_of_ne m ρ c main_v1 (by decide)).trans ((pass2 (W2 m ρ c) main_v1 (by decide)).trans (edges_eq m ρ c hx0 hx2))
theorem src_at6 : W6 m ρ c (Proc.devRef .tc main_v3) = srcIdx (m ((c : Thread nD τ).loc main_arg1)) :=
  (W6_of_ne m ρ c main_v3 (by decide)).trans ((src2 (W2 m ρ c)).trans (congrArg srcIdx (lvl2 m ρ c main_arg1 (by decide) (by decide))))
theorem dst_at6 : W6 m ρ c (Proc.devRef .tc main_v5) = dstIdx (m ((c : Thread nD τ).loc main_arg1)) :=
  (W6_of_ne m ρ c main_v5 (by decide)).trans ((dst2 (W2 m ρ c)).trans (congrArg dstIdx (lvl2 m ρ c main_arg1 (by decide) (by decide))))

/-- Layer 2's messages. -/
theorem agg2_eq : V9 m ρ c main_v30 = aggOf (nodes1 (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (Cert.Spec.bondEmb (m ((c : Thread nD τ).loc main_arg2)) (m ((c : Thread nD τ).loc main_arg6))) (srcIdx (m ((c : Thread nD τ).loc main_arg1))) (dstIdx (m ((c : Thread nD τ).loc main_arg1))) := by
  have h := agg3 (W6 m ρ c)
  rw [nodes1_eq m ρ c hx0 hx2, edges_at6 m ρ c hx0 hx2, src_at6 m ρ c hx0 hx2, dst_at6 m ρ c hx0 hx2] at h
  exact h

/-- Layer 2's output, as region 3 leaves it. -/
theorem nodes2_eq : W10 m ρ c (Proc.devRef .tc main_v31) = (nodes2 (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  have h := Cert.KernelIdeal.KReg3.final3 (V9 m ρ) c
  have e0 : V9 m ρ c main_v18 = (nodes1 (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := (pass3 (W6 m ρ c) main_v18 (by decide)).trans (nodes1_eq m ρ c hx0 hx2)
  have e11 : V9 m ρ c main_arg11 = (m ((c : Thread nD τ).loc main_arg11)) := lvl9 m ρ c main_arg11 (by decide) (by decide) (by decide) (by decide) (by decide)
  have e12 : V9 m ρ c main_arg12 = (m ((c : Thread nD τ).loc main_arg12)) := lvl9 m ρ c main_arg12 (by decide) (by decide) (by decide) (by decide) (by decide)
  have e13 : V9 m ρ c main_arg13 = (m ((c : Thread nD τ).loc main_arg13)) := lvl9 m ρ c main_arg13 (by decide) (by decide) (by decide) (by decide) (by decide)
  have e14 : V9 m ρ c main_arg14 = (m ((c : Thread nD τ).loc main_arg14)) := lvl9 m ρ c main_arg14 (by decide) (by decide) (by decide) (by decide) (by decide)
  refine (W10_arr m ρ c 6).trans (h.trans ?_)
  show Cert.Spec.gine (V9 m ρ c main_v18) (V9 m ρ c main_v30) (V9 m ρ c main_arg11) (V9 m ρ c main_arg12) (V9 m ρ c main_arg13) (V9 m ρ c main_arg14) = _
  rw [e0, agg2_eq m ρ c hx0 hx2, e11, e12, e13, e14]
  rfl

/-- The pooled features the read-out starts from. -/
theorem pooled_eq : V11 m ρ c main_v44 = poolOf (nodes2 (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (m ((c : Thread nD τ).loc main_arg3)) (m ((c : Thread nD τ).loc main_arg4)) := by
  have h := pool4 (W10 m ρ c)
  rw [nodes2_eq m ρ c hx0 hx2, lvl10 m ρ c main_arg3 (by decide) (by decide) (by decide) (by decide) (by decide) (by decide),
    lvl10 m ρ c main_arg4 (by decide) (by decide) (by decide) (by decide) (by decide) (by decide)] at h
  exact h

/-- THE KERNEL'S RESULT: the read-out network of the pooled features, as region 4 leaves it. -/
theorem result_eq : W12 m ρ c (Proc.devRef .tc main_v45)
    = Cert.Spec.head (poolOf (nodes2 (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (m ((c : Thread nD τ).loc main_arg3)) (m ((c : Thread nD τ).loc main_arg4))) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  have h := Cert.KernelIdeal.KReg4.final4 (V11 m ρ) c
  have e15 : V11 m ρ c main_arg15 = (m ((c : Thread nD τ).loc main_arg15)) := lvl11 m ρ c main_arg15 (by decide) (by decide) (by decide) (by decide) (by decide) (by decide) (by decide)
  have e16 : V11 m ρ c main_arg16 = (m ((c : Thread nD τ).loc main_arg16)) := lvl11 m ρ c main_arg16 (by decide) (by decide) (by decide) (by decide) (by decide) (by decide) (by decide)
  have e17 : V11 m ρ c main_arg17 = (m ((c : Thread nD τ).loc main_arg17)) := lvl11 m ρ c main_arg17 (by decide) (by decide) (by decide) (by decide) (by decide) (by decide) (by decide)
  have e18 : V11 m ρ c main_arg18 = (m ((c : Thread nD τ).loc main_arg18)) := lvl11 m ρ c main_arg18 (by decide) (by decide) (by decide) (by decide) (by decide) (by decide) (by decide)
  have e19 : V11 m ρ c main_arg19 = (m ((c : Thread nD τ).loc main_arg19)) := lvl11 m ρ c main_arg19 (by decide) (by decide) (by decide) (by decide) (by decide) (by decide) (by decide)
  have e20 : V11 m ρ c main_arg20 = (m ((c : Thread nD τ).loc main_arg20)) := lvl11 m ρ c main_arg20 (by decide) (by decide) (by decide) (by decide) (by decide) (by decide) (by decide)
  refine (W12_arr m ρ c 7).trans (h.trans ?_)
  show Cert.Spec.head (V11 m ρ c main_v44) (V11 m ρ c main_arg15) (V11 m ρ c main_arg16) (V11 m ρ c main_arg17) (V11 m ρ c main_arg18) (V11 m ρ c main_arg19) (V11 m ρ c main_arg20) = _
  rw [pooled_eq m ρ c hx0 hx2, e15, e16, e17, e18, e19, e20]

end Cert.KernelIdeal.KNet

end
-- ==== Proof.Chains.lean ====
/-
  The two stretches of array code that BOTH programs run between the dense blocks, each named once as a function of
  the arrays it starts from, so that neither is ever opened:
  * `agg X EA ei`: the messages of one layer — for every edge the source node's row of `X` (the edge list's first row,
    a negative index wrapped, the row gathered) plus the edge's row of `EA`, cut off below at 0, added into the
    destination node's row (the edge list's second row) of a zero array;
  * `pool X b r`: the mean of the node rows of `X` per graph (sum by graph index `b` divided by the count, the count at
    least 1) joined along the columns with the graph features `r`.
  The reference's stages are these functions of its own earlier stages by unfolding names.
-/
import proofs.«412659_j22162031247392_2_alg».proof.Proof.Gen.ReferenceIdeal.Read

noncomputable section

namespace Cert.Chains

open Cert.ReferenceIdeal Cert.ReferenceIdeal.Gen Cert.ReferenceIdeal.Read Idealize.ShloMosaic Idealize.ShloMosaic.TcCoe Idealize.SL.Sem

variable {F : FTy → Type} [FloatOps F]

/-- One layer's aggregated messages from the node rows `X`, the edge rows `EA` and the edge list `ei`. -/
def agg (X : (⟨S50000x128, .f32⟩ : BufTy).Contents (Elt F)) (EA : (⟨S640000x128, .f32⟩ : BufTy).Contents (Elt F)) (ei : (⟨S2x640000, .i32⟩ : BufTy).Contents (Elt F)) : (⟨S50000x128, .f32⟩ : BufTy).Contents (Elt F) :=
  Host.scatterAdd (F := F) scatter_S50000x128_S640000x1_S640000x128_1_0_0_1 (val_main_v49 (F := F)) (val_main_v50 (F := F) ei)
    (maximumf (F := F) (addf (F := F) (Host.gather gather_S50000x128_S640000x1_S640000x128_1_0_n_n_0_1_1128 X (val_main_v45 (F := F) ei)) EA) (val_main_call0_v0 (F := F)))

/-- The per-graph mean of the node rows `X` (graph index `b`) joined with the graph features `r`. -/
def pool (X : (⟨S50000x128, .f32⟩ : BufTy).Contents (Elt F)) (b : (⟨S50000, .i32⟩ : BufTy).Contents (Elt F)) (r : (⟨S1024x200, .f32⟩ : BufTy).Contents (Elt F)) : (⟨S1024x328, .f32⟩ : BufTy).Contents (Elt F) :=
  concatenate S1024x328 1 [⟨S1024x128, Host.divf (F := F) (Host.scatterAdd (F := F) scatter_S1024x128_S50000x1_S50000x128_1_0_0_1 (val_main_v92 (F := F)) (val_main_v93 (F := F) b) X) (val_main_v102 (F := F) b)⟩, ⟨S1024x200, r⟩] concatenates_S1024x128_S1024x200_S1024x328_d1

/-- The reference's first aggregation is `agg` of its embedded node and edge features. -/
theorem v51_eq (x0 : (⟨S50000x9, .i32⟩ : BufTy).Contents (Elt F)) (x1 : (⟨S2x640000, .i32⟩ : BufTy).Contents (Elt F)) (x2 : (⟨S640000x3, .i32⟩ : BufTy).Contents (Elt F)) (x5 : (⟨S9x64x128, .f32⟩ : BufTy).Contents (Elt F)) (x6 : (⟨S3x16x128, .f32⟩ : BufTy).Contents (Elt F)) :
    val_main_v51 (F := F) x0 x1 x2 x5 x6 = agg (val_main_v17 (F := F) x0 x5) (val_main_v35 (F := F) x2 x6) x1 := rfl

/-- The reference's second aggregation is `agg` of its first layer's output and the same edge features. -/
theorem v79_eq (x0 : (⟨S50000x9, .i32⟩ : BufTy).Contents (Elt F)) (x1 : (⟨S2x640000, .i32⟩ : BufTy).Contents (Elt F)) (x2 : (⟨S640000x3, .i32⟩ : BufTy).Contents (Elt F)) (x5 : (⟨S9x64x128, .f32⟩ : BufTy).Contents (Elt F)) (x6 : (⟨S3x16x128, .f32⟩ : BufTy).Contents (Elt F))
    (x7 : (⟨S128x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) :
    val_main_v79 (F := F) x0 x1 x2 x5 x6 x7 x8 x9 x10 = agg (val_main_v63 (F := F) x0 x1 x2 x5 x6 x7 x8 x9 x10) (val_main_v35 (F := F) x2 x6) x1 := rfl

/-- The reference's pooled features are `pool` of its second layer's output. -/
theorem v104_eq (x0 : (⟨S50000x9, .i32⟩ : BufTy).Contents (Elt F)) (x1 : (⟨S2x640000, .i32⟩ : BufTy).Contents (Elt F)) (x2 : (⟨S640000x3, .i32⟩ : BufTy).Contents (Elt F)) (x3 : (⟨S50000, .i32⟩ : BufTy).Contents (Elt F)) (x4 : (⟨S1024x200, .f32⟩ : BufTy).Contents (Elt F)) (x5 : (⟨S9x64x128, .f32⟩ : BufTy).Contents (Elt F)) (x6 : (⟨S3x16x128, .f32⟩ : BufTy).Contents (Elt F))
    (x7 : (⟨S128x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F))
    (x11 : (⟨S128x128, .f32⟩ : BufTy).Contents (Elt F)) (x12 : (⟨S128, .f32⟩ : BufTy).Contents (Elt F)) (x13 : (⟨S128x128, .f32⟩ : BufTy).Contents (Elt F)) (x14 : (⟨S128, .f32⟩ : BufTy).Contents (Elt F)) :
    val_main_v104 (F := F) x0 x1 x2 x3 x4 x5 x6 x7 x8 x9 x10 x11 x12 x13 x14 = pool (val_main_v91 (F := F) x0 x1 x2 x5 x6 x7 x8 x9 x10 x11 x12 x13 x14) x3 x4 := rfl

end Cert.Chains

end
-- ==== Proof.REmb.lean ====
/-
  The reference's two embedding stages are the specification's sums.

  Indexing a table with the pair (arange over the features, feature words), table[arange(F)[None, :], feat], lowers to a
  gather whose start index at (n, f) is the pair (f, feat[n, f]). Each component is first wrapped if negative,
  select (x < 0) (x + size) x: the feature index f and a word below the vocabulary size are not negative read signed, so
  both are kept. The gather itself then clamps each component into its axis of the table, [0, F - 1] and [0, V - 1]:
  again the identity on f < F and on a word inside the vocabulary. The two table axes are collapsed (a slice of one)
  and the third, the 128 channels, is sliced whole, so result element (n, f, c) is channel c of the table's row
  (f, feat[n, f]). The sum over axis 1 from the initial value 0 is 0 + Σ_f of these, and the zero word denotes 0.
-/
import proofs.«412659_j22162031247392_2_alg».proof.Proof.Gen.ReferenceIdeal.Read
import proofs.«412659_j22162031247392_2_alg».proof.Proof.Spec
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

namespace Cert.REmb

open Cert.ReferenceIdeal Cert.ReferenceIdeal.Gen Cert.ReferenceIdeal.Read Idealize.ShloMosaic Idealize.ShloMosaic.ValueIdx

/-! ## Words inside a vocabulary -/

/-- The wrap of an index, select (w < 0) (w + size) w, keeps a word that is not negative read signed. -/
theorem wrap_nonneg (w s : BitVec 32) (hw : w.toNat < 2 ^ 31) :
    Scalar.select (IntOp.cmpi .slt w 0#32) (IntOp.addi w s) w = w := by
  have h : ¬ IntOp.cmpi .slt w 0#32 = 1#1 := by
    rw [StableHlo.Predicate.slt_iff_toNat hw (by decide)]
    exact Nat.not_lt_zero _
  rw [eq_zero_of_ne_one h, select_zero]

/-- A word read signed and clamped to [0, b] is its own value when that value is at most b (and b is below 2 ^ 31). -/
theorem clamp_small (w : BitVec 32) (b : Nat) (hw : w.toNat ≤ b) (hb : b < 2 ^ 31) :
    min w.toInt.toNat b = w.toNat := by
  rw [StableHlo.Predicate.toInt_eq_toNat_of_lt (by omega), Int.toNat_natCast]
  exact Nat.min_eq_left hw

/-! ## Node features: 50000 nodes, nine features, vocabulary 64 -/

section Atom

/-- The feature-index component of the start index at (n, f): the iota over the nine features, wrapped (never
    negative), broadcast along the nodes. -/
theorem v13_at (n : Fin 50000) (f : Fin 9) (c : Fin 1) :
    val_main_v13 (F := Ideal) (ix3 n f c) = BitVec.ofNat 32 f.val := by
  rw [val_main_v13_apply, val_main_v12_apply, val_main_v6_apply, val_main_v3_apply, val_main_v5_apply, val_main_v1_apply,
    val_main_v0_apply, val_main_v2_apply, val_main_c_apply, val_main_v4_apply, val_main_c_0_apply]
  show Scalar.select (IntOp.cmpi .slt (BitVec.ofNat 32 f.val) 0#32) (IntOp.addi (BitVec.ofNat 32 f.val) 9#32)
    (BitVec.ofNat 32 f.val) = _
  exact wrap_nonneg _ _ (by rw [BitVec.toNat_ofNat]; have := f.isLt; omega)

/-- The word component of the start index at (n, f): the feature word, wrapped (a word below 64 is not negative). -/
theorem v14_at (x0 : (⟨S50000x9, .i32⟩ : BufTy).Contents (Elt Ideal)) (hx : ∀ i, (x0 i).toNat < 64)
    (n : Fin 50000) (f : Fin 9) (c : Fin 1) :
    val_main_v14 (F := Ideal) x0 (ix3 n f c) = x0 (ix2 n f) := by
  have e : idx_main_v14 (ix3 n f c) = ix2 n f :=
    funext fun a => Fin.ext (by match a with | ⟨0, _⟩ => rfl | ⟨1, _⟩ => rfl)
  rw [val_main_v14_apply, val_main_v11_apply, val_main_v8_apply, val_main_v10_apply, val_main_v7_apply, val_main_v9_apply,
    val_main_c_1_apply, val_main_c_2_apply, e]
  exact wrap_nonneg _ _ (by have := hx (ix2 n f); omega)

/-- The start index at (n, f), first component: the feature index. -/
theorem v15_at0 (x0 : (⟨S50000x9, .i32⟩ : BufTy).Contents (Elt Ideal)) (n : Fin 50000) (f : Fin 9) :
    val_main_v15 (F := Ideal) x0 (ix3 n f (0 : Fin 2)) = BitVec.ofNat 32 f.val := by
  unfold val_main_v15
  rw [concatenate_pair_apply_left (t := S50000x9x2) (s₁ := S50000x9x1) (s₂ := S50000x9x1) (2 : Fin 3) _ _ _ (ix3 n f (0 : Fin 2)) rfl
    (ix3 n f (0 : Fin 1))
    (fun b => by match b with | ⟨0, _⟩ => rfl | ⟨1, _⟩ => rfl | ⟨2, _⟩ => rfl)]
  exact v13_at n f 0

/-- The start index at (n, f), second component: the feature word. -/
theorem v15_at1 (x0 : (⟨S50000x9, .i32⟩ : BufTy).Contents (Elt Ideal)) (hx : ∀ i, (x0 i).toNat < 64)
    (n : Fin 50000) (f : Fin 9) :
    val_main_v15 (F := Ideal) x0 (ix3 n f (1 : Fin 2)) = x0 (ix2 n f) := by
  unfold val_main_v15
  rw [concatenate_pair_apply_right (t := S50000x9x2) (s₁ := S50000x9x1) (s₂ := S50000x9x1) (2 : Fin 3) _ _ _ (ix3 n f (1 : Fin 2)) rfl rfl
    (ix3 n f (0 : Fin 1))
    (fun b hb => by
      match b with
      | ⟨0, _⟩ => rfl
      | ⟨1, _⟩ => rfl
      | ⟨2, _⟩ => exact absurd rfl hb)
    rfl]
  exact v14_at x0 hx n f 0

/-- The gather's operand index on the table's feature axis: the start index's first component, read signed and
    clamped into [0, 8] (the axis is collapsed: a slice of one). -/
theorem gatherA_axis0 (idx : IVec S50000x9x2 32) (j : S50000x9x128.Idx) :
    (gather_S9x64x128_S50000x9x2_S50000x9x128_2_01_n_n_01_2_11128.operandIdx j idx 0).val
      = min (idx (ix3 (j 0) (j 1) (0 : Fin 2))).toInt.toNat 8 := by
  show GatherDims.start _ j idx 0 + GatherDims.batchCoord _ j 0 + GatherDims.offCoord _ j 0 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin 3) ∈ gather_S9x64x128_S50000x9x2_S50000x9x128_2_01_n_n_01_2_11128.startIndexMap from by decide)]
  have hsi : gather_S9x64x128_S50000x9x2_S50000x9x128_2_01_n_n_01_2_11128.siIdx j
      ⟨List.idxOf (0 : Fin 3) gather_S9x64x128_S50000x9x2_S50000x9x128_2_01_n_n_01_2_11128.startIndexMap,
        List.idxOf_lt_length_iff.2 (by decide)⟩ = ix3 (j 0) (j 1) (0 : Fin 2) := by
    funext b; refine Fin.ext ?_
    match b with
    | ⟨0, _⟩ => rfl
    | ⟨1, _⟩ => rfl
    | ⟨2, _⟩ => rfl
  rw [hsi]
  rfl

/-- On the table's vocabulary axis: the start index's second component, read signed and clamped into [0, 63]. -/
theorem gatherA_axis1 (idx : IVec S50000x9x2 32) (j : S50000x9x128.Idx) :
    (gather_S9x64x128_S50000x9x2_S50000x9x128_2_01_n_n_01_2_11128.operandIdx j idx 1).val
      = min (idx (ix3 (j 0) (j 1) (1 : Fin 2))).toInt.toNat 63 := by
  show GatherDims.start _ j idx 1 + GatherDims.batchCoord _ j 1 + GatherDims.offCoord _ j 1 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (1 : Fin 3) ∈ gather_S9x64x128_S50000x9x2_S50000x9x128_2_01_n_n_01_2_11128.startIndexMap from by decide)]
  have hsi : gather_S9x64x128_S50000x9x2_S50000x9x128_2_01_n_n_01_2_11128.siIdx j
      ⟨List.idxOf (1 : Fin 3) gather_S9x64x128_S50000x9x2_S50000x9x128_2_01_n_n_01_2_11128.startIndexMap,
        List.idxOf_lt_length_iff.2 (by decide)⟩ = ix3 (j 0) (j 1) (1 : Fin 2) := by
    funext b; refine Fin.ext ?_
    match b with
    | ⟨0, _⟩ => rfl
    | ⟨1, _⟩ => rfl
    | ⟨2, _⟩ => rfl
  rw [hsi]
  rfl

/-- On the channel axis (the one offset axis, the whole of it sliced): the result's own channel. -/
theorem gatherA_axis2 (idx : IVec S50000x9x2 32) (j : S50000x9x128.Idx) :
    (gather_S9x64x128_S50000x9x2_S50000x9x128_2_01_n_n_01_2_11128.operandIdx j idx 2).val = (j 2).val := by
  show GatherDims.start _ j idx 2 + GatherDims.batchCoord _ j 2 + GatherDims.offCoord _ j 2 = _
  rw [GatherDims.batchCoord_eq_zero _ _ _ List.not_mem_nil]
  unfold GatherDims.start
  rw [dif_neg (show ¬ (2 : Fin 3) ∈ gather_S9x64x128_S50000x9x2_S50000x9x128_2_01_n_n_01_2_11128.startIndexMap from by decide)]
  unfold GatherDims.offCoord
  rw [dif_pos (show (2 : Fin 3) ∈ gather_S9x64x128_S50000x9x2_S50000x9x128_2_01_n_n_01_2_11128.sKept from by decide)]
  simp only [Nat.add_zero, Nat.zero_add]
  rfl

/-- The gathered element at (n, f, c): channel c of the table's row (f, feat[n, f]). -/
theorem v16_at (x0 : (⟨S50000x9, .i32⟩ : BufTy).Contents (Elt Ideal)) (x5 : (⟨S9x64x128, .f32⟩ : BufTy).Contents (Elt Ideal))
    (hx : ∀ i, (x0 i).toNat < 64) (n : Fin 50000) (f : Fin 9) (c : Fin 128) :
    val_main_v16 (F := Ideal) x0 x5 (ix3 n f c) = x5 (ix3 f (Cert.Spec.cat 64 (x0 (ix2 n f))) c) := by
  unfold val_main_v16 Host.gather
  refine congrArg x5 (funext fun a => Fin.ext ?_)
  match a with
  | ⟨0, _⟩ =>
    refine (gatherA_axis0 _ (ix3 n f c)).trans ?_
    show min (val_main_v15 (F := Ideal) x0 (ix3 n f (0 : Fin 2))).toInt.toNat 8 = f.val
    rw [v15_at0, clamp_small _ 8 (by rw [BitVec.toNat_ofNat]; have := f.isLt; omega) (by decide), BitVec.toNat_ofNat]
    have := f.isLt; omega
  | ⟨1, _⟩ =>
    refine (gatherA_axis1 _ (ix3 n f c)).trans ?_
    show min (val_main_v15 (F := Ideal) x0 (ix3 n f (1 : Fin 2))).toInt.toNat 63 = (Cert.Spec.cat 64 (x0 (ix2 n f))).val
    rw [v15_at1 x0 hx, clamp_small _ 63 (by have := hx (ix2 n f); omega) (by decide), Cert.Spec.cat_val 64 _ (hx _)]
  | ⟨2, _⟩ => exact gatherA_axis2 _ (ix3 n f c)

/-- The reference's node features: a gather of table rows at (feature, word) pairs, summed over the nine features. -/
theorem v17_eq (x0 : (⟨S50000x9, .i32⟩ : BufTy).Contents (Elt Ideal)) (x5 : (⟨S9x64x128, .f32⟩ : BufTy).Contents (Elt Ideal)) (hx : ∀ i, (x0 i).toNat < 64) :
    val_main_v17 (F := Ideal) x0 x5 = Cert.Spec.atomEmb x0 x5 := by
  funext i
  have e : ∀ k : Fin 9, idx_main_v17 i k = ix3 (i 0) k (i 1) := fun k =>
    funext fun a => Fin.ext (by match a with | ⟨0, _⟩ => rfl | ⟨1, _⟩ => rfl | ⟨2, _⟩ => rfl)
  rw [val_main_v17_apply, val_main_cst_apply]
  show Ideal.ofBits .f32 0x00000000#32 + _ = _
  rw [Ideal.ofBits_zero_f32, zero_add]
  unfold Cert.Spec.atomEmb
  refine Finset.sum_congr rfl fun k _ => ?_
  rw [e k]
  exact v16_at x0 x5 hx (i 0) k (i 1)

end Atom

/-! ## Edge features: 640000 edges, three features, vocabulary 16 -/

section Bond

/-- The feature-index component of the start index at (e, f): the iota over the three features, wrapped (never
    negative), broadcast along the edges. -/
theorem v31_at (e : Fin 640000) (f : Fin 3) (c : Fin 1) :
    val_main_v31 (F := Ideal) (ix3 e f c) = BitVec.ofNat 32 f.val := by
  rw [val_main_v31_apply, val_main_v30_apply, val_main_v24_apply, val_main_v21_apply, val_main_v23_apply, val_main_v19_apply,
    val_main_v18_apply, val_main_v20_apply, val_main_c_3_apply, val_main_v22_apply, val_main_c_4_apply]
  show Scalar.select (IntOp.cmpi .slt (BitVec.ofNat 32 f.val) 0#32) (IntOp.addi (BitVec.ofNat 32 f.val) 3#32)
    (BitVec.ofNat 32 f.val) = _
  exact wrap_nonneg _ _ (by rw [BitVec.toNat_ofNat]; have := f.isLt; omega)

/-- The word component of the start index at (e, f): the feature word, wrapped (a word below 16 is not negative). -/
theorem v32_at (x2 : (⟨S640000x3, .i32⟩ : BufTy).Contents (Elt Ideal)) (hx : ∀ i, (x2 i).toNat < 16)
    (e : Fin 640000) (f : Fin 3) (c : Fin 1) :
    val_main_v32 (F := Ideal) x2 (ix3 e f c) = x2 (ix2 e f) := by
  have h : idx_main_v32 (ix3 e f c) = ix2 e f :=
    funext fun a => Fin.ext (by match a with | ⟨0, _⟩ => rfl | ⟨1, _⟩ => rfl)
  rw [val_main_v32_apply, val_main_v29_apply, val_main_v26_apply, val_main_v28_apply, val_main_v25_apply, val_main_v27_apply,
    val_main_c_5_apply, val_main_c_6_apply, h]
  exact wrap_nonneg _ _ (by have := hx (ix2 e f); omega)

/-- The start index at (e, f), first component: the feature index. -/
theorem v33_at0 (x2 : (⟨S640000x3, .i32⟩ : BufTy).Contents (Elt Ideal)) (e : Fin 640000) (f : Fin 3) :
    val_main_v33 (F := Ideal) x2 (ix3 e f (0 : Fin 2)) = BitVec.ofNat 32 f.val := by
  unfold val_main_v33
  rw [concatenate_pair_apply_left (t := S640000x3x2) (s₁ := S640000x3x1) (s₂ := S640000x3x1) (2 : Fin 3) _ _ _ (ix3 e f (0 : Fin 2)) rfl
    (ix3 e f (0 : Fin 1))
    (fun b => by match b with | ⟨0, _⟩ => rfl | ⟨1, _⟩ => rfl | ⟨2, _⟩ => rfl)]
  exact v31_at e f 0

/-- The start index at (e, f), second component: the feature word. -/
theorem v33_at1 (x2 : (⟨S640000x3, .i32⟩ : BufTy).Contents (Elt Ideal)) (hx : ∀ i, (x2 i).toNat < 16)
    (e : Fin 640000) (f : Fin 3) :
    val_main_v33 (F := Ideal) x2 (ix3 e f (1 : Fin 2)) = x2 (ix2 e f) := by
  unfold val_main_v33
  rw [concatenate_pair_apply_right (t := S640000x3x2) (s₁ := S640000x3x1) (s₂ := S640000x3x1) (2 : Fin 3) _ _ _ (ix3 e f (1 : Fin 2)) rfl rfl
    (ix3 e f (0 : Fin 1))
    (fun b hb => by
      match b with
      | ⟨0, _⟩ => rfl
      | ⟨1, _⟩ => rfl
      | ⟨2, _⟩ => exact absurd rfl hb)
    rfl]
  exact v32_at x2 hx e f 0

/-- The gather's operand index on the table's feature axis: the start index's first component, read signed and
    clamped into [0, 2] (the axis is collapsed: a slice of one). -/
theorem gatherB_axis0 (idx : IVec S640000x3x2 32) (j : S640000x3x128.Idx) :
    (gather_S3x16x128_S640000x3x2_S640000x3x128_2_01_n_n_01_2_11128.operandIdx j idx 0).val
      = min (idx (ix3 (j 0) (j 1) (0 : Fin 2))).toInt.toNat 2 := by
  show GatherDims.start _ j idx 0 + GatherDims.batchCoord _ j 0 + GatherDims.offCoord _ j 0 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin 3) ∈ gather_S3x16x128_S640000x3x2_S640000x3x128_2_01_n_n_01_2_11128.startIndexMap from by decide)]
  have hsi : gather_S3x16x128_S640000x3x2_S640000x3x128_2_01_n_n_01_2_11128.siIdx j
      ⟨List.idxOf (0 : Fin 3) gather_S3x16x128_S640000x3x2_S640000x3x128_2_01_n_n_01_2_11128.startIndexMap,
        List.idxOf_lt_length_iff.2 (by decide)⟩ = ix3 (j 0) (j 1) (0 : Fin 2) := by
    funext b; refine Fin.ext ?_
    match b with
    | ⟨0, _⟩ => rfl
    | ⟨1, _⟩ => rfl
    | ⟨2, _⟩ => rfl
  rw [hsi]
  rfl

/-- On the table's vocabulary axis: the start index's second component, read signed and clamped into [0, 15]. -/
theorem gatherB_axis1 (idx : IVec S640000x3x2 32) (j : S640000x3x128.Idx) :
    (gather_S3x16x128_S640000x3x2_S640000x3x128_2_01_n_n_01_2_11128.operandIdx j idx 1).val
      = min (idx (ix3 (j 0) (j 1) (1 : Fin 2))).toInt.toNat 15 := by
  show GatherDims.start _ j idx 1 + GatherDims.batchCoord _ j 1 + GatherDims.offCoord _ j 1 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (1 : Fin 3) ∈ gather_S3x16x128_S640000x3x2_S640000x3x128_2_01_n_n_01_2_11128.startIndexMap from by decide)]
  have hsi : gather_S3x16x128_S640000x3x2_S640000x3x128_2_01_n_n_01_2_11128.siIdx j
      ⟨List.idxOf (1 : Fin 3) gather_S3x16x128_S640000x3x2_S640000x3x128_2_01_n_n_01_2_11128.startIndexMap,
        List.idxOf_lt_length_iff.2 (by decide)⟩ = ix3 (j 0) (j 1) (1 : Fin 2) := by
    funext b; refine Fin.ext ?_
    match b with
    | ⟨0, _⟩ => rfl
    | ⟨1, _⟩ => rfl
    | ⟨2, _⟩ => rfl
  rw [hsi]
  rfl

/-- On the channel axis (the one offset axis, the whole of it sliced): the result's own channel. -/
theorem gatherB_axis2 (idx : IVec S640000x3x2 32) (j : S640000x3x128.Idx) :
    (gather_S3x16x128_S640000x3x2_S640000x3x128_2_01_n_n_01_2_11128.operandIdx j idx 2).val = (j 2).val := by
  show GatherDims.start _ j idx 2 + GatherDims.batchCoord _ j 2 + GatherDims.offCoord _ j 2 = _
  rw [GatherDims.batchCoord_eq_zero _ _ _ List.not_mem_nil]
  unfold GatherDims.start
  rw [dif_neg (show ¬ (2 : Fin 3) ∈ gather_S3x16x128_S640000x3x2_S640000x3x128_2_01_n_n_01_2_11128.startIndexMap from by decide)]
  unfold GatherDims.offCoord
  rw [dif_pos (show (2 : Fin 3) ∈ gather_S3x16x128_S640000x3x2_S640000x3x128_2_01_n_n_01_2_11128.sKept from by decide)]
  simp only [Nat.add_zero, Nat.zero_add]
  rfl

/-- The gathered element at (e, f, c): channel c of the table's row (f, feat[e, f]). -/
theorem v34_at (x2 : (⟨S640000x3, .i32⟩ : BufTy).Contents (Elt Ideal)) (x6 : (⟨S3x16x128, .f32⟩ : BufTy).Contents (Elt Ideal))
    (hx : ∀ i, (x2 i).toNat < 16) (e : Fin 640000) (f : Fin 3) (c : Fin 128) :
    val_main_v34 (F := Ideal) x2 x6 (ix3 e f c) = x6 (ix3 f (Cert.Spec.cat 16 (x2 (ix2 e f))) c) := by
  unfold val_main_v34 Host.gather
  refine congrArg x6 (funext fun a => Fin.ext ?_)
  match a with
  | ⟨0, _⟩ =>
    refine (gatherB_axis0 _ (ix3 e f c)).trans ?_
    show min (val_main_v33 (F := Ideal) x2 (ix3 e f (0 : Fin 2))).toInt.toNat 2 = f.val
    rw [v33_at0, clamp_small _ 2 (by rw [BitVec.toNat_ofNat]; have := f.isLt; omega) (by decide), BitVec.toNat_ofNat]
    have := f.isLt; omega
  | ⟨1, _⟩ =>
    refine (gatherB_axis1 _ (ix3 e f c)).trans ?_
    show min (val_main_v33 (F := Ideal) x2 (ix3 e f (1 : Fin 2))).toInt.toNat 15 = (Cert.Spec.cat 16 (x2 (ix2 e f))).val
    rw [v33_at1 x2 hx, clamp_small _ 15 (by have := hx (ix2 e f); omega) (by decide), Cert.Spec.cat_val 16 _ (hx _)]
  | ⟨2, _⟩ => exact gatherB_axis2 _ (ix3 e f c)

/-- The reference's edge features: the same with three features and a vocabulary of 16. -/
theorem v35_eq (x2 : (⟨S640000x3, .i32⟩ : BufTy).Contents (Elt Ideal)) (x6 : (⟨S3x16x128, .f32⟩ : BufTy).Contents (Elt Ideal)) (hx : ∀ i, (x2 i).toNat < 16) :
    val_main_v35 (F := Ideal) x2 x6 = Cert.Spec.bondEmb x2 x6 := by
  funext i
  have h : ∀ k : Fin 3, idx_main_v35 i k = ix3 (i 0) k (i 1) := fun k =>
    funext fun a => Fin.ext (by match a with | ⟨0, _⟩ => rfl | ⟨1, _⟩ => rfl | ⟨2, _⟩ => rfl)
  rw [val_main_v35_apply, val_main_cst_7_apply]
  show Ideal.ofBits .f32 0x00000000#32 + _ = _
  rw [Ideal.ofBits_zero_f32, zero_add]
  unfold Cert.Spec.bondEmb
  refine Finset.sum_congr rfl fun k _ => ?_
  rw [h k]
  exact v34_at x2 x6 hx (i 0) k (i 1)

end Bond

end Cert.REmb

end
-- ==== Proof.RGine.lean ====
/-
  The dense half of each of the reference's two message-passing layers is the function `gine` of the
  specification, applied to the stages the layer starts from.

  Read one operation at a time, a layer multiplies its node features by the constant 1 (this is `1 + eps` with
  `eps = 0`; `1 · a = a` for every extended real `a`, finite or not), adds the aggregated messages, and applies two
  `dot_general`s — at the ideal instance each is the plain sum over the contracted axis — each followed by a bias
  row broadcast over the nodes, with `max · 0` between the two. Index by index that is
  `Σ_k max (Σ_j (x[n, j] + agg[n, j]) · w1[j, k] + b1[k]) 0 · w2[k, c] + b2[c]`, the specification's formula.
-/
import proofs.«412659_j22162031247392_2_alg».proof.Proof.Gen.ReferenceIdeal.Read
import proofs.«412659_j22162031247392_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.RGine

open Cert.ReferenceIdeal Cert.ReferenceIdeal.Gen Cert.ReferenceIdeal.Read Idealize.ShloMosaic Idealize.ShloMosaic.ValueIdx

/-- The single-precision word `0x3F800000` denotes the real number 1. -/
theorem ofBits_one_f32 : Ideal.ofBits .f32 0x3F800000#32 = 1 := by
  simp [Ideal.ofBits, Ideal.ieee, -EReal.coe_mul]; norm_num

/-- Layer 1 of the reference: `relu((1·x + agg) · w1 + b1) · w2 + b2` over its own node features `x` (stage 17) and messages `agg` (stage 51). -/
theorem v63_eq (x0 : (⟨S50000x9, .i32⟩ : BufTy).Contents (Elt Ideal)) (x1 : (⟨S2x640000, .i32⟩ : BufTy).Contents (Elt Ideal)) (x2 : (⟨S640000x3, .i32⟩ : BufTy).Contents (Elt Ideal)) (x5 : (⟨S9x64x128, .f32⟩ : BufTy).Contents (Elt Ideal)) (x6 : (⟨S3x16x128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    val_main_v63 (F := Ideal) x0 x1 x2 x5 x6 x7 x8 x9 x10
      = Cert.Spec.gine (val_main_v17 (F := Ideal) x0 x5) (val_main_v51 (F := Ideal) x0 x1 x2 x5 x6) x7 x8 x9 x10 := by
  funext i
  obtain ⟨n, c, rfl⟩ : ∃ (n : Fin 50000) (c : Fin 128), i = ix2 n c := ⟨i 0, i 1, eq_ix2 i⟩
  have e1 : ∀ k j : Fin 128, lidx_main_v55 (lidx_main_v60 (ix2 n c) k) j = ix2 n j := fun k j =>
    funext fun a => Fin.ext (by match a with | ⟨0, _⟩ => rfl | ⟨1, _⟩ => rfl)
  have e2 : ∀ k j : Fin 128, ridx_main_v55 (lidx_main_v60 (ix2 n c) k) j = ix2 j k := fun k j =>
    funext fun a => Fin.ext (by match a with | ⟨0, _⟩ => rfl | ⟨1, _⟩ => rfl)
  have e3 : ∀ k : Fin 128, idx_main_v56 (idx_main_v57 (lidx_main_v60 (ix2 n c) k)) = ix1 k := fun k =>
    funext fun a => Fin.ext (by match a with | ⟨0, _⟩ => rfl)
  have e4 : ∀ k : Fin 128, ridx_main_v60 (ix2 n c) k = ix2 k c := fun k =>
    funext fun a => Fin.ext (by match a with | ⟨0, _⟩ => rfl | ⟨1, _⟩ => rfl)
  have e5 : idx_main_v61 (idx_main_v62 (ix2 n c)) = ix1 c :=
    funext fun a => Fin.ext (by match a with | ⟨0, _⟩ => rfl)
  rw [val_main_v63_apply, val_main_v60_apply, val_main_v62_apply, val_main_v61_apply]
  simp only [val_main_v59_apply, val_main_v58_apply, val_main_v55_apply, val_main_v54_apply, val_main_v53_apply,
    val_main_v52_apply, val_main_cst_11_apply, val_main_v57_apply, val_main_v56_apply, val_main_call1_v0_apply,
    val_main_call1_cst_apply]
  generalize val_main_v17 (F := Ideal) x0 x5 = X
  generalize val_main_v51 (F := Ideal) x0 x1 x2 x5 x6 = A
  simp only [e1, e2, e3, e4, e5, Ideal.addf_def, Ideal.mulf_def, Ideal.maximumf_def, Ideal.ofBits_def, ofBits_one_f32,
    Ideal.ofBits_zero_f32, one_mul]
  rfl

/-- Layer 2 of the reference: the same over layer 1's output (stage 63) and the second messages (stage 79). -/
theorem v91_eq (x0 : (⟨S50000x9, .i32⟩ : BufTy).Contents (Elt Ideal)) (x1 : (⟨S2x640000, .i32⟩ : BufTy).Contents (Elt Ideal)) (x2 : (⟨S640000x3, .i32⟩ : BufTy).Contents (Elt Ideal)) (x5 : (⟨S9x64x128, .f32⟩ : BufTy).Contents (Elt Ideal)) (x6 : (⟨S3x16x128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) :
    val_main_v91 (F := Ideal) x0 x1 x2 x5 x6 x7 x8 x9 x10 x11 x12 x13 x14
      = Cert.Spec.gine (val_main_v63 (F := Ideal) x0 x1 x2 x5 x6 x7 x8 x9 x10) (val_main_v79 (F := Ideal) x0 x1 x2 x5 x6 x7 x8 x9 x10) x11 x12 x13 x14 := by
  funext i
  obtain ⟨n, c, rfl⟩ : ∃ (n : Fin 50000) (c : Fin 128), i = ix2 n c := ⟨i 0, i 1, eq_ix2 i⟩
  have e1 : ∀ k j : Fin 128, lidx_main_v83 (lidx_main_v88 (ix2 n c) k) j = ix2 n j := fun k j =>
    funext fun a => Fin.ext (by match a with | ⟨0, _⟩ => rfl | ⟨1, _⟩ => rfl)
  have e2 : ∀ k j : Fin 128, ridx_main_v83 (lidx_main_v88 (ix2 n c) k) j = ix2 j k := fun k j =>
    funext fun a => Fin.ext (by match a with | ⟨0, _⟩ => rfl | ⟨1, _⟩ => rfl)
  have e3 : ∀ k : Fin 128, idx_main_v84 (idx_main_v85 (lidx_main_v88 (ix2 n c) k)) = ix1 k := fun k =>
    funext fun a => Fin.ext (by match a with | ⟨0, _⟩ => rfl)
  have e4 : ∀ k : Fin 128, ridx_main_v88 (ix2 n c) k = ix2 k c := fun k =>
    funext fun a => Fin.ext (by match a with | ⟨0, _⟩ => rfl | ⟨1, _⟩ => rfl)
  have e5 : idx_main_v89 (idx_main_v90 (ix2 n c)) = ix1 c :=
    funext fun a => Fin.ext (by match a with | ⟨0, _⟩ => rfl)
  rw [val_main_v91_apply, val_main_v88_apply, val_main_v90_apply, val_main_v89_apply]
  simp only [val_main_v87_apply, val_main_v86_apply, val_main_v83_apply, val_main_v82_apply, val_main_v81_apply,
    val_main_v80_apply, val_main_cst_15_apply, val_main_v85_apply, val_main_v84_apply, val_main_call3_v0_apply,
    val_main_call3_cst_apply]
  generalize val_main_v63 (F := Ideal) x0 x1 x2 x5 x6 x7 x8 x9 x10 = X
  generalize val_main_v79 (F := Ideal) x0 x1 x2 x5 x6 x7 x8 x9 x10 = A
  simp only [e1, e2, e3, e4, e5, Ideal.addf_def, Ideal.mulf_def, Ideal.maximumf_def, Ideal.ofBits_def, ofBits_one_f32,
    Ideal.ofBits_zero_f32, one_mul]
  rfl

end Cert.RGine

end
-- ==== Proof.RHead.lean ====
/-
  The reference's read-out network is the function `head` of its pooled features.

  The last fourteen stages of the reference are three `dot_general`s; at the ideal instance each is the plain sum, over the
  contracted axis, of the products of a left row and a right column. Each is followed by a bias row, broadcast over the
  1024 graphs ([n] → [1, n] → [1024, n]) and added entry by entry; after the first two comes `max · 0` (the constant's zero
  word denotes the real 0). So an entry of each layer is a function of one row of the layer below it:

    first hidden layer   a[p, k1] = max (Σ_j  h[p, j]  · w1[j, k1]  + b1[k1]) 0      (j  < 328, k1 < 512)
    second hidden layer  c[p, k2] = max (Σ_k1 a[p, k1] · w2[k1, k2] + b2[k2]) 0      (k2 < 256)
    output column        o[p, q]  =      Σ_k2 c[p, k2] · w3[k2, q]  + b3[q]          (q < 1)

  and the three composed are `head h w1 b1 w2 b2 w3 b3`, with `h` the pooled features, which enter only as a parameter.
-/
import proofs.«412659_j22162031247392_2_alg».proof.Proof.Gen.ReferenceIdeal.Read
import proofs.«412659_j22162031247392_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RHead

open Cert.ReferenceIdeal Cert.ReferenceIdeal.Gen Cert.ReferenceIdeal.Read Idealize.ShloMosaic Idealize.ShloMosaic.ValueIdx

section layers

variable (x0 : (⟨S50000x9, .i32⟩ : BufTy).Contents (Elt Ideal)) (x1 : (⟨S2x640000, .i32⟩ : BufTy).Contents (Elt Ideal)) (x2 : (⟨S640000x3, .i32⟩ : BufTy).Contents (Elt Ideal)) (x3 : (⟨S50000, .i32⟩ : BufTy).Contents (Elt Ideal)) (x4 : (⟨S1024x200, .f32⟩ : BufTy).Contents (Elt Ideal)) (x5 : (⟨S9x64x128, .f32⟩ : BufTy).Contents (Elt Ideal)) (x6 : (⟨S3x16x128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S328x512, .f32⟩ : BufTy).Contents (Elt Ideal)) (x16 : (⟨S512, .f32⟩ : BufTy).Contents (Elt Ideal)) (x17 : (⟨S512x256, .f32⟩ : BufTy).Contents (Elt Ideal)) (x18 : (⟨S256, .f32⟩ : BufTy).Contents (Elt Ideal)) (x19 : (⟨S256x1, .f32⟩ : BufTy).Contents (Elt Ideal)) (x20 : (⟨S1, .f32⟩ : BufTy).Contents (Elt Ideal))

/-- First hidden layer: `a[p, k] = max (Σ_j h[p, j] · w1[j, k] + b1[k]) 0`. -/
theorem hidden1_entry (p : Fin 1024) (k : Fin 512) :
    val_main_v109 (F := Ideal) x0 x1 x2 x3 x4 x5 x6 x7 x8 x9 x10 x11 x12 x13 x14 x15 x16 (ix2 p k)
      = max ((∑ j : Fin 328, val_main_v104 (F := Ideal) x0 x1 x2 x3 x4 x5 x6 x7 x8 x9 x10 x11 x12 x13 x14 (ix2 p j) * x15 (ix2 j k)) + x16 (ix1 k)) 0 := by
  rw [val_main_v109_apply, val_main_v108_apply, val_main_v105_apply, val_main_v107_apply, val_main_v106_apply,
    val_main_call4_v0_apply, val_main_call4_cst_apply]
  generalize val_main_v104 (F := Ideal) x0 x1 x2 x3 x4 x5 x6 x7 x8 x9 x10 x11 x12 x13 x14 = h
  have el : ∀ j : Fin 328, lidx_main_v105 (ix2 p k) j = ix2 p j := fun j =>
    funext fun a => Fin.ext (by match a with | ⟨0, _⟩ => rfl | ⟨1, _⟩ => rfl)
  have er : ∀ j : Fin 328, ridx_main_v105 (ix2 p k) j = ix2 j k := fun j =>
    funext fun a => Fin.ext (by match a with | ⟨0, _⟩ => rfl | ⟨1, _⟩ => rfl)
  have eb : idx_main_v106 (idx_main_v107 (ix2 p k)) = ix1 k :=
    funext fun a => Fin.ext (by match a with | ⟨0, _⟩ => rfl)
  simp only [el, er, eb, Ideal.maximumf_def, Ideal.addf_def, Ideal.ofBits_def, Ideal.ofBits_zero_f32]

/-- Second hidden layer: `c[p, k] = max (Σ_k1 a[p, k1] · w2[k1, k] + b2[k]) 0`. -/
theorem hidden2_entry (p : Fin 1024) (k : Fin 256) :
    val_main_v114 (F := Ideal) x0 x1 x2 x3 x4 x5 x6 x7 x8 x9 x10 x11 x12 x13 x14 x15 x16 x17 x18 (ix2 p k)
      = max ((∑ k1 : Fin 512, val_main_v109 (F := Ideal) x0 x1 x2 x3 x4 x5 x6 x7 x8 x9 x10 x11 x12 x13 x14 x15 x16 (ix2 p k1) * x17 (ix2 k1 k)) + x18 (ix1 k)) 0 := by
  rw [val_main_v114_apply, val_main_v113_apply, val_main_v110_apply, val_main_v112_apply, val_main_v111_apply,
    val_main_call5_v0_apply, val_main_call5_cst_apply]
  generalize val_main_v109 (F := Ideal) x0 x1 x2 x3 x4 x5 x6 x7 x8 x9 x10 x11 x12 x13 x14 x15 x16 = a
  have el : ∀ j : Fin 512, lidx_main_v110 (ix2 p k) j = ix2 p j := fun j =>
    funext fun a => Fin.ext (by match a with | ⟨0, _⟩ => rfl | ⟨1, _⟩ => rfl)
  have er : ∀ j : Fin 512, ridx_main_v110 (ix2 p k) j = ix2 j k := fun j =>
    funext fun a => Fin.ext (by match a with | ⟨0, _⟩ => rfl | ⟨1, _⟩ => rfl)
  have eb : idx_main_v111 (idx_main_v112 (ix2 p k)) = ix1 k :=
    funext fun a => Fin.ext (by match a with | ⟨0, _⟩ => rfl)
  simp only [el, er, eb, Ideal.maximumf_def, Ideal.addf_def, Ideal.ofBits_def, Ideal.ofBits_zero_f32]

/-- Output column: `o[p, q] = Σ_k c[p, k] · w3[k, q] + b3[q]`. -/
theorem out_entry (p : Fin 1024) (q : Fin 1) :
    val_main_v118 (F := Ideal) x0 x1 x2 x3 x4 x5 x6 x7 x8 x9 x10 x11 x12 x13 x14 x15 x16 x17 x18 x19 x20 (ix2 p q)
      = (∑ k : Fin 256, val_main_v114 (F := Ideal) x0 x1 x2 x3 x4 x5 x6 x7 x8 x9 x10 x11 x12 x13 x14 x15 x16 x17 x18 (ix2 p k) * x19 (ix2 k q)) + x20 (ix1 q) := by
  rw [val_main_v118_apply, val_main_v115_apply, val_main_v117_apply, val_main_v116_apply]
  generalize val_main_v114 (F := Ideal) x0 x1 x2 x3 x4 x5 x6 x7 x8 x9 x10 x11 x12 x13 x14 x15 x16 x17 x18 = c
  have el : ∀ j : Fin 256, lidx_main_v115 (ix2 p q) j = ix2 p j := fun j =>
    funext fun a => Fin.ext (by match a with | ⟨0, _⟩ => rfl | ⟨1, _⟩ => rfl)
  have er : ∀ j : Fin 256, ridx_main_v115 (ix2 p q) j = ix2 j q := fun j =>
    funext fun a => Fin.ext (by match a with | ⟨0, _⟩ => rfl | ⟨1, _⟩ => rfl)
  have eb : idx_main_v116 (idx_main_v117 (ix2 p q)) = ix1 q :=
    funext fun a => Fin.ext (by match a with | ⟨0, _⟩ => exact (Fin.val_eq_zero q).symm)
  simp only [el, er, eb, Ideal.addf_def]

end layers

/-- The reference's last stages: `relu(relu(h · w1 + b1) · w2 + b2) · w3 + b3` over its pooled features `h` (stage 104). -/
theorem v118_eq (x0 : (⟨S50000x9, .i32⟩ : BufTy).Contents (Elt Ideal)) (x1 : (⟨S2x640000, .i32⟩ : BufTy).Contents (Elt Ideal)) (x2 : (⟨S640000x3, .i32⟩ : BufTy).Contents (Elt Ideal)) (x3 : (⟨S50000, .i32⟩ : BufTy).Contents (Elt Ideal)) (x4 : (⟨S1024x200, .f32⟩ : BufTy).Contents (Elt Ideal)) (x5 : (⟨S9x64x128, .f32⟩ : BufTy).Contents (Elt Ideal)) (x6 : (⟨S3x16x128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S328x512, .f32⟩ : BufTy).Contents (Elt Ideal)) (x16 : (⟨S512, .f32⟩ : BufTy).Contents (Elt Ideal)) (x17 : (⟨S512x256, .f32⟩ : BufTy).Contents (Elt Ideal)) (x18 : (⟨S256, .f32⟩ : BufTy).Contents (Elt Ideal)) (x19 : (⟨S256x1, .f32⟩ : BufTy).Contents (Elt Ideal)) (x20 : (⟨S1, .f32⟩ : BufTy).Contents (Elt Ideal)) :
    val_main_v118 (F := Ideal) x0 x1 x2 x3 x4 x5 x6 x7 x8 x9 x10 x11 x12 x13 x14 x15 x16 x17 x18 x19 x20
      = Cert.Spec.head (val_main_v104 (F := Ideal) x0 x1 x2 x3 x4 x5 x6 x7 x8 x9 x10 x11 x12 x13 x14) x15 x16 x17 x18 x19 x20 := by
  funext i
  obtain ⟨p, q, rfl⟩ : ∃ (p : Fin 1024) (q : Fin 1), i = ix2 p q := ⟨i 0, i 1, eq_ix2 i⟩
  rw [out_entry]
  simp only [hidden2_entry, hidden1_entry]
  generalize val_main_v104 (F := Ideal) x0 x1 x2 x3 x4 x5 x6 x7 x8 x9 x10 x11 x12 x13 x14 = h
  rfl

end Cert.RHead

end
-- ==== Proof.Net.lean ====
/-
  The whole network as ONE function of the twenty-one argument arrays, composed from the dense blocks (Spec.lean) and
  the two shared stretches of array code (Chains.lean): embed the node and edge features; two message-passing layers,
  each the aggregation followed by the dense transform; the per-graph mean joined with the graph features; the read-out.
  The reference's result is this function of its arguments wherever the feature words are inside their vocabularies.
-/
import proofs.«412659_j22162031247392_2_alg».proof.Proof.Spec
import proofs.«412659_j22162031247392_2_alg».proof.Proof.Chains
import proofs.«412659_j22162031247392_2_alg».proof.Proof.REmb
import proofs.«412659_j22162031247392_2_alg».proof.Proof.RGine
import proofs.«412659_j22162031247392_2_alg».proof.Proof.RHead

noncomputable section

namespace Cert.Net

open Cert.ReferenceIdeal Cert.ReferenceIdeal.Gen Cert.ReferenceIdeal.Read Idealize.ShloMosaic

/-- Node features after layer 1. -/
def nodes1 (x0 : (⟨S50000x9, .i32⟩ : BufTy).Contents (Elt Ideal)) (x1 : (⟨S2x640000, .i32⟩ : BufTy).Contents (Elt Ideal)) (x2 : (⟨S640000x3, .i32⟩ : BufTy).Contents (Elt Ideal)) (x5 : (⟨S9x64x128, .f32⟩ : BufTy).Contents (Elt Ideal)) (x6 : (⟨S3x16x128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) : (⟨S50000x128, .f32⟩ : BufTy).Contents (Elt Ideal) :=
  Cert.Spec.gine (Cert.Spec.atomEmb x0 x5) (Cert.Chains.agg (F := Ideal) (Cert.Spec.atomEmb x0 x5) (Cert.Spec.bondEmb x2 x6) x1) x7 x8 x9 x10

/-- Node features after layer 2. -/
def nodes2 (x0 : (⟨S50000x9, .i32⟩ : BufTy).Contents (Elt Ideal)) (x1 : (⟨S2x640000, .i32⟩ : BufTy).Contents (Elt Ideal)) (x2 : (⟨S640000x3, .i32⟩ : BufTy).Contents (Elt Ideal)) (x5 : (⟨S9x64x128, .f32⟩ : BufTy).Contents (Elt Ideal)) (x6 : (⟨S3x16x128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) : (⟨S50000x128, .f32⟩ : BufTy).Contents (Elt Ideal) :=
  Cert.Spec.gine (nodes1 x0 x1 x2 x5 x6 x7 x8 x9 x10) (Cert.Chains.agg (F := Ideal) (nodes1 x0 x1 x2 x5 x6 x7 x8 x9 x10) (Cert.Spec.bondEmb x2 x6) x1) x11 x12 x13 x14

/-- The network's output, one value per graph. -/
def out (x0 : (⟨S50000x9, .i32⟩ : BufTy).Contents (Elt Ideal)) (x1 : (⟨S2x640000, .i32⟩ : BufTy).Contents (Elt Ideal)) (x2 : (⟨S640000x3, .i32⟩ : BufTy).Contents (Elt Ideal)) (x3 : (⟨S50000, .i32⟩ : BufTy).Contents (Elt Ideal)) (x4 : (⟨S1024x200, .f32⟩ : BufTy).Contents (Elt Ideal)) (x5 : (⟨S9x64x128, .f32⟩ : BufTy).Contents (Elt Ideal)) (x6 : (⟨S3x16x128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S328x512, .f32⟩ : BufTy).Contents (Elt Ideal)) (x16 : (⟨S512, .f32⟩ : BufTy).Contents (Elt Ideal)) (x17 : (⟨S512x256, .f32⟩ : BufTy).Contents (Elt Ideal)) (x18 : (⟨S256, .f32⟩ : BufTy).Contents (Elt Ideal)) (x19 : (⟨S256x1, .f32⟩ : BufTy).Contents (Elt Ideal)) (x20 : (⟨S1, .f32⟩ : BufTy).Contents (Elt Ideal)) : (⟨S1024x1, .f32⟩ : BufTy).Contents (Elt Ideal) :=
  Cert.Spec.head (Cert.Chains.pool (F := Ideal) (nodes2 x0 x1 x2 x5 x6 x7 x8 x9 x10 x11 x12 x13 x14) x3 x4) x15 x16 x17 x18 x19 x20

/-- The reference's result is the network function of its arguments, the feature words inside their vocabularies. -/
theorem reference_eq (x0 : (⟨S50000x9, .i32⟩ : BufTy).Contents (Elt Ideal)) (x1 : (⟨S2x640000, .i32⟩ : BufTy).Contents (Elt Ideal)) (x2 : (⟨S640000x3, .i32⟩ : BufTy).Contents (Elt Ideal)) (x3 : (⟨S50000, .i32⟩ : BufTy).Contents (Elt Ideal)) (x4 : (⟨S1024x200, .f32⟩ : BufTy).Contents (Elt Ideal)) (x5 : (⟨S9x64x128, .f32⟩ : BufTy).Contents (Elt Ideal)) (x6 : (⟨S3x16x128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S328x512, .f32⟩ : BufTy).Contents (Elt Ideal)) (x16 : (⟨S512, .f32⟩ : BufTy).Contents (Elt Ideal)) (x17 : (⟨S512x256, .f32⟩ : BufTy).Contents (Elt Ideal)) (x18 : (⟨S256, .f32⟩ : BufTy).Contents (Elt Ideal)) (x19 : (⟨S256x1, .f32⟩ : BufTy).Contents (Elt Ideal)) (x20 : (⟨S1, .f32⟩ : BufTy).Contents (Elt Ideal))
    (h0 : ∀ i, (x0 i).toNat < 64) (h2 : ∀ i, (x2 i).toNat < 16) :
    val_main_v118 (F := Ideal) x0 x1 x2 x3 x4 x5 x6 x7 x8 x9 x10 x11 x12 x13 x14 x15 x16 x17 x18 x19 x20
      = out x0 x1 x2 x3 x4 x5 x6 x7 x8 x9 x10 x11 x12 x13 x14 x15 x16 x17 x18 x19 x20 := by
  have e17 := Cert.REmb.v17_eq x0 x5 h0
  have e35 := Cert.REmb.v35_eq x2 x6 h2
  have e51 : val_main_v51 (F := Ideal) x0 x1 x2 x5 x6 = Cert.Chains.agg (F := Ideal) (Cert.Spec.atomEmb x0 x5) (Cert.Spec.bondEmb x2 x6) x1 := by
    rw [Cert.Chains.v51_eq, e17, e35]
  have e63 : val_main_v63 (F := Ideal) x0 x1 x2 x5 x6 x7 x8 x9 x10 = nodes1 x0 x1 x2 x5 x6 x7 x8 x9 x10 := by
    rw [Cert.RGine.v63_eq, e17, e51]; rfl
  have e79 : val_main_v79 (F := Ideal) x0 x1 x2 x5 x6 x7 x8 x9 x10 = Cert.Chains.agg (F := Ideal) (nodes1 x0 x1 x2 x5 x6 x7 x8 x9 x10) (Cert.Spec.bondEmb x2 x6) x1 := by
    rw [Cert.Chains.v79_eq, e63, e35]
  have e91 : val_main_v91 (F := Ideal) x0 x1 x2 x5 x6 x7 x8 x9 x10 x11 x12 x13 x14 = nodes2 x0 x1 x2 x5 x6 x7 x8 x9 x10 x11 x12 x13 x14 := by
    rw [Cert.RGine.v91_eq, e63, e79]; rfl
  rw [Cert.RHead.v118_eq, Cert.Chains.v104_eq, e91]; rfl

end Cert.Net

end
-- ==== Proof.Bridge.lean ====
/-
  The two programs run the SAME array code between their dense blocks: the idealized kernel's stretches, read back in
  its own vocabulary, are the reference's, name for name (the printed dimension records and shapes of the two programs
  are equal field by field), so the kernel's result is the network function of its arguments.
-/
import proofs.«412659_j22162031247392_2_alg».proof.Proof.KNet
import proofs.«412659_j22162031247392_2_alg».proof.Proof.Net

set_option maxRecDepth 16384

noncomputable section

namespace Cert.Bridge

open Idealize.ShloMosaic Idealize.ShloMosaic.TcCoe Idealize.SL.Sem
open Cert.KernelIdeal.KHost

section Generic
variable {F : FTy → Type} [FloatOps F]

/-- The kernel's message aggregation is the reference's. -/
theorem aggOf_eq (X : (⟨Cert.KernelIdeal.S50000x128, .f32⟩ : BufTy).Contents (Elt F)) (EA : (⟨Cert.KernelIdeal.S640000x128, .f32⟩ : BufTy).Contents (Elt F))
    (ei : (⟨Cert.KernelIdeal.S2x640000, .i32⟩ : BufTy).Contents (Elt F)) :
    aggOf (F := F) X EA (srcIdx (F := F) ei) (dstIdx (F := F) ei) = Cert.Chains.agg (F := F) X EA ei := rfl

/-- The kernel's pooling is the reference's. -/
theorem poolOf_eq (X : (⟨Cert.KernelIdeal.S50000x128, .f32⟩ : BufTy).Contents (Elt F)) (b : (⟨Cert.KernelIdeal.S50000, .i32⟩ : BufTy).Contents (Elt F))
    (r : (⟨Cert.KernelIdeal.S1024x200, .f32⟩ : BufTy).Contents (Elt F)) :
    poolOf (F := F) X b r = Cert.Chains.pool (F := F) X b r := rfl

end Generic

open Cert.KernelIdeal Cert.KernelIdeal.Gen

variable (m : (ℓ : Loc nD τ sig) → Buf (Elt Ideal) ℓ) (ρ : Dev nD → PrngReg) (c : Dev nD)
variable (hx0 : ∀ i, (m ((c : Thread nD τ).loc main_arg0) i).toNat < 64) (hx2 : ∀ i, (m ((c : Thread nD τ).loc main_arg2) i).toNat < 16)
include hx0 hx2

/-- THE KERNEL'S RESULT is the network function of its launch arguments. -/
theorem kernel_out : W12 m ρ c (Proc.devRef .tc main_v45)
    = Cert.Net.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  rw [Cert.KernelIdeal.KNet.result_eq m ρ c hx0 hx2]
  unfold Cert.Net.out Cert.Net.nodes2 Cert.Net.nodes1 Cert.KernelIdeal.KNet.nodes2 Cert.KernelIdeal.KNet.nodes1
  rw [poolOf_eq, aggOf_eq, aggOf_eq]

end Cert.Bridge

end
-- ==== Proof.lean ====
/-
  A graph network — categorical node and edge features embedded and summed, two message-passing layers (gather the
  source nodes' rows, add the edge rows, cut off at 0, add into the destination nodes' rows; then a two-layer dense
  transform of `x + agg`), the per-graph mean joined with the graph features, and a three-layer read-out — as a kernel
  program of five dense blocks among plain array code, against the same network written in plain array code throughout.

  Over the extended reals the two are ONE function of the arguments wherever every feature word lies inside its
  vocabulary (node words in [0, 64), edge words in [0, 16)): there the kernel's one-hot product Σ_v [feat = v] · emb[f, v, :]
  picks the row the reference gathers (0 · a = 0 and 1 · a = a for every extended real), the reference's wrapping and
  clamping of the index are the identity, and every other difference is one of order only: the dense blocks are the
  same sums (a change of float format is the identity, a product into a zero accumulator is the plain sum, 1 · x = x),
  and the array code between them is the same in both programs. No input needs to be finite.

  The claims: the two kernel programs run and leave their arguments as found (their generated frames); so does the
  reference (its generated run); nothing was rewritten in the idealization; and the two idealized programs end with
  equal results: the kernel's run with its result named (KRun), that result as the network function (Bridge over KNet,
  the regions KReg0–KReg4 and the stretches between them KHost), the reference's result as the same function (Net over
  REmb, RGine, RHead and Chains), the feature ranges read off the precondition (PreRange).
-/
import proofs.«412659_j22162031247392_2_alg».proof.Defs
import proofs.«412659_j22162031247392_2_alg».proof.Proof.Gen.Kernel
import proofs.«412659_j22162031247392_2_alg».proof.Proof.Gen.Kernel.Skeleton
import proofs.«412659_j22162031247392_2_alg».proof.Proof.Gen.Kernel.Launch
import proofs.«412659_j22162031247392_2_alg».proof.Proof.Gen.Kernel.Points
import proofs.«412659_j22162031247392_2_alg».proof.Proof.Gen.Kernel.Frame
import proofs.«412659_j22162031247392_2_alg».proof.Proof.Gen.KernelIdeal
import proofs.«412659_j22162031247392_2_alg».proof.Proof.Gen.KernelIdeal.Skeleton
import proofs.«412659_j22162031247392_2_alg».proof.Proof.Gen.KernelIdeal.Launch
import proofs.«412659_j22162031247392_2_alg».proof.Proof.Gen.KernelIdeal.Points
import proofs.«412659_j22162031247392_2_alg».proof.Proof.Gen.KernelIdeal.Frame
import proofs.«412659_j22162031247392_2_alg».proof.Proof.Gen.ReferenceIdeal
import proofs.«412659_j22162031247392_2_alg».proof.Proof.Gen.Pre_finite_inputs
import proofs.«412659_j22162031247392_2_alg».proof.Proof.Gen.ReferenceIdeal.Run
import proofs.«412659_j22162031247392_2_alg».proof.Proof.Gen.ReferenceIdeal.Read
import proofs.«412659_j22162031247392_2_alg».proof.Proof.KRun
import proofs.«412659_j22162031247392_2_alg».proof.Proof.PreRange
import proofs.«412659_j22162031247392_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the network function of those arguments
    in their result buffers. -/
theorem algebraic : Cert.algebraic_KernelIdeal_ReferenceIdeal := by
  intro m ρ m' ρ' hpre hagree
  refine ⟨fun c => Cert.Net.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)), ?_, ?_⟩
  · exact (θ_run Cert.KernelIdeal.defs _ _).mono
      (fun r h c => ⟨(h c).1.trans (Cert.Bridge.kernel_out m ρ c (Cert.PreRange.ranges_KernelIdeal m hpre c).1 (Cert.PreRange.ranges_KernelIdeal m hpre c).2), (h c).2⟩)
      (Cert.KernelIdeal.KRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18, e19, e20⟩ := hagree c
    rw [Cert.ReferenceIdeal.Read.val_main_v118_eq, e0, e1, e2, e3, e4, e5, e6, e7, e8, e9, e10, e11, e12, e13, e14, e15, e16, e17, e18, e19, e20]
    exact Cert.Net.reference_eq _ _ _ _ _ _ _ _ _ _ _ _ _ _ _ _ _ _ _ _ _
      (Cert.PreRange.ranges_KernelIdeal m hpre c).1 (Cert.PreRange.ranges_KernelIdeal m hpre c).2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
